-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608 : Shape := ⟨1, ![8388608]⟩
abbrev S_ : Shape := ⟨0, ![]⟩

class Facts : Prop where
  bcast_S_S8388608 : S_.BroadcastsInDim S8388608 (![] : Fin 0 → Fin S8388608.rank)
  reducesTo_S8388608_S_d0 : S8388608.ReducesTo [0] S_
  h_S_ : 0 < S_.numel

variable [Facts]

def fn {F : FTy → Type} [FloatOps F] (main_arg0 : FVec F S8388608 .f32) (main_arg1 : IVec S8388608 32) (main_arg2 : IVec S8388608 32) : IVec S_ 1 :=
  let main_v0 : FVec F S8388608 .f32 := Host.absf main_arg0
  let main_cst : FVec F S_ .f32 := constant S_ .f32 0x7F800000#32
  let main_v1 : FVec F S8388608 .f32 := broadcastInDim S8388608 ![] bcast_S_S8388608 main_cst
  let main_v2 : IVec S8388608 1 := cmpf .olt main_v0 main_v1
  let main_c : IVec S_ 1 := constantI S_ 1 1#1
  let main_v3 : IVec S_ 1 := (fun x v => Host.reduce IntOp.andi x v reducesTo_S8388608_S_d0 h_S_) main_v2 main_c
  main_v3
-- ==== Kernel.lean ====
abbrev S8388608 : Shape := ⟨1, ![8388608]⟩
abbrev S2x32768x128 : Shape := ⟨3, ![2, 32768, 128]⟩
abbrev S2x1x1 : Shape := ⟨3, ![2, 1, 1]⟩
abbrev S1x4096x128 : Shape := ⟨3, ![1, 4096, 128]⟩
abbrev S1x1x1 : Shape := ⟨3, ![1, 1, 1]⟩
abbrev S1x1 : Shape := ⟨2, ![1, 1]⟩
abbrev S4096x128 : Shape := ⟨2, ![4096, 128]⟩
abbrev S4096 : Shape := ⟨1, ![4096]⟩
abbrev S4096x1 : Shape := ⟨2, ![4096, 1]⟩
abbrev S1 : Shape := ⟨1, ![1]⟩
abbrev S_ : Shape := ⟨0, ![]⟩
abbrev S8388608x1 : Shape := ⟨2, ![8388608, 1]⟩
abbrev S8388608x3 : Shape := ⟨2, ![8388608, 3]⟩
abbrev S65536x3 : Shape := ⟨2, ![65536, 3]⟩
abbrev S65536x1 : Shape := ⟨2, ![65536, 1]⟩
abbrev S65536 : Shape := ⟨1, ![65536]⟩

abbrev nBuf : Space → Nat
  | .hbm => 80
  | .vmem => 13
  | .smem => 0
  | _ => 0

abbrev bufTy : (tb : Table) → Fin (tcTables nBuf tb) → BufTy
  | .hbm, ⟨0, _⟩ => ⟨S8388608, .f32⟩
  | .hbm, ⟨1, _⟩ => ⟨S8388608, .i32⟩
  | .hbm, ⟨2, _⟩ => ⟨S8388608, .i32⟩
  | .hbm, ⟨3, _⟩ => ⟨S2x32768x128, .f32⟩
  | .hbm, ⟨4, _⟩ => ⟨S2x32768x128, .i32⟩
  | .hbm, ⟨5, _⟩ => ⟨S2x32768x128, .f32⟩
  | .hbm, ⟨6, _⟩ => ⟨S2x32768x128, .f32⟩
  | .hbm, ⟨7, _⟩ => ⟨S2x32768x128, .f32⟩
  | .hbm, ⟨8, _⟩ => ⟨S2x1x1, .f32⟩
  | .hbm, ⟨9, _⟩ => ⟨S8388608, .f32⟩
  | .hbm, ⟨10, _⟩ => ⟨S8388608, .f32⟩
  | .hbm, ⟨11, _⟩ => ⟨S8388608, .f32⟩
  | .hbm, ⟨12, _⟩ => ⟨S_, .f32⟩
  | .hbm, ⟨13, _⟩ => ⟨S_, .f32⟩
  | .hbm, ⟨14, _⟩ => ⟨S8388608x1, .f32⟩
  | .hbm, ⟨15, _⟩ => ⟨S8388608x1, .f32⟩
  | .hbm, ⟨16, _⟩ => ⟨S8388608x1, .f32⟩
  | .hbm, ⟨17, _⟩ => ⟨S8388608x3, .f32⟩
  | .hbm, ⟨18, _⟩ => ⟨S_, .f32⟩
  | .hbm, ⟨19, _⟩ => ⟨S65536x3, .f32⟩
  | .hbm, ⟨20, _⟩ => ⟨S8388608x1, .i32⟩
  | .hbm, ⟨21, _⟩ => ⟨S65536x3, .f32⟩
  | .hbm, ⟨22, _⟩ => ⟨S65536x1, .f32⟩
  | .hbm, ⟨23, _⟩ => ⟨S65536, .f32⟩
  | .hbm, ⟨24, _⟩ => ⟨S65536x1, .f32⟩
  | .hbm, ⟨25, _⟩ => ⟨S65536, .f32⟩
  | .hbm, ⟨26, _⟩ => ⟨S65536x1, .f32⟩
  | .hbm, ⟨27, _⟩ => ⟨S65536, .f32⟩
  | .hbm, ⟨28, _⟩ => ⟨S_, .f32⟩
  | .hbm, ⟨29, _⟩ => ⟨S65536, .f32⟩
  | .hbm, ⟨30, _⟩ => ⟨S65536, .i1⟩
  | .hbm, ⟨31, _⟩ => ⟨S65536, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S65536, .f32⟩
  | .hbm, ⟨47, _⟩ => ⟨S65536, .i1⟩
  | .hbm, ⟨48, _⟩ => ⟨S65536, .f32⟩
  | .hbm, ⟨49, _⟩ => ⟨S_, .f32⟩
  | .hbm, ⟨50, _⟩ => ⟨S_, .f32⟩
  | .hbm, ⟨51, _⟩ => ⟨S65536, .f32⟩
  | .hbm, ⟨52, _⟩ => ⟨S_, .f32⟩
  | .hbm, ⟨53, _⟩ => ⟨S65536, .f32⟩
  | .hbm, ⟨54, _⟩ => ⟨S65536, .f32⟩
  | .hbm, ⟨55, _⟩ => ⟨S_, .f32⟩
  | .hbm, ⟨56, _⟩ => ⟨S65536, .f32⟩
  | .hbm, ⟨57, _⟩ => ⟨S65536, .f32⟩
  | .hbm, ⟨58, _⟩ => ⟨S_, .f32⟩
  | .hbm, ⟨59, _⟩ => ⟨S65536, .f32⟩
  | .hbm, ⟨60, _⟩ => ⟨S65536, .f32⟩
  | .hbm, ⟨61, _⟩ => ⟨S65536, .f32⟩
  | .hbm, ⟨62, _⟩ => ⟨S_, .f32⟩
  | .hbm, ⟨63, _⟩ => ⟨S_, .f32⟩
  | .hbm, ⟨64, _⟩ => ⟨S65536, .f32⟩
  | .hbm, ⟨65, _⟩ => ⟨S65536, .f32⟩
  | .hbm, ⟨66, _⟩ => ⟨S_, .f32⟩
  | .hbm, ⟨67, _⟩ => ⟨S_, .i1⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .i32⟩
  | .local _ .vmem, ⟨3, _⟩ => ⟨S1x4096x128, .i32⟩
  | .local _ .vmem, ⟨4, _⟩ => ⟨S1x4096x128, .f32⟩
  | .local _ .vmem, ⟨5, _⟩ => ⟨S1x4096x128, .f32⟩
  | .local _ .vmem, ⟨6, _⟩ => ⟨S1x4096x128, .f32⟩
  | .local _ .vmem, ⟨7, _⟩ => ⟨S1x4096x128, .f32⟩
  | .local _ .vmem, ⟨8, _⟩ => ⟨S1x4096x128, .f32⟩
  | .local _ .vmem, ⟨9, _⟩ => ⟨S1x4096x128, .f32⟩
  | .local _ .vmem, ⟨10, _⟩ => ⟨S1x1x1, .f32⟩
  | .local _ .vmem, ⟨11, _⟩ => ⟨S1x1x1, .f32⟩
  | .local _ .vmem, ⟨12, _⟩ => ⟨S1x1, .f32⟩
  | _, _ => ⟨S8388608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_call0_v0 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_cst_10 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_12 : Ref sig .tc := ⟨.hbm, 62, rfl⟩
abbrev main_call1_v0 : Ref sig .tc := ⟨.hbm, 63, rfl⟩
abbrev main_call1_v1 : Ref sig .tc := ⟨.hbm, 64, rfl⟩
abbrev main_v42 : Ref sig .tc := ⟨.hbm, 65, rfl⟩
abbrev main_cst_13 : Ref sig .tc := ⟨.hbm, 66, rfl⟩
abbrev main_v43 : Ref sig .tc := ⟨.hbm, 67, rfl⟩
abbrev main_cst_14 : Ref sig .tc := ⟨.hbm, 68, rfl⟩
abbrev main_v44 : Ref sig .tc := ⟨.hbm, 69, rfl⟩
abbrev main_cst_15 : Ref sig .tc := ⟨.hbm, 70, rfl⟩
abbrev main_v45 : Ref sig .tc := ⟨.hbm, 71, rfl⟩
abbrev main_v46 : Ref sig .tc := ⟨.hbm, 72, rfl⟩
abbrev main_cst_16 : Ref sig .tc := ⟨.hbm, 73, rfl⟩
abbrev main_v47 : Ref sig .tc := ⟨.hbm, 74, rfl⟩
abbrev main_v48 : Ref sig .tc := ⟨.hbm, 75, rfl⟩
abbrev main_cst_17 : Ref sig .tc := ⟨.hbm, 76, rfl⟩
abbrev main_call2_v0 : Ref sig .tc := ⟨.hbm, 77, rfl⟩
abbrev main_v49 : Ref sig .tc := ⟨.hbm, 78, rfl⟩
abbrev main_v50 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32_23 : BitVec 32 := 0#32
  let v42 : BitVec 1 := Scalar.cmpi .ne v41 c0_i32_23
  v42

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S8388608_S2x32768x128 : S8388608.ShapeCasts S2x32768x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  natLt_1_32 : 1 < 32
  shapeCasts_S4096x128_S1x4096x128 : S4096x128.ShapeCasts S1x4096x128
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S2x32768x128_S8388608 : S2x32768x128.ShapeCasts S8388608
  reducesTo_S2x1x1_S_d0_1_2 : S2x1x1.ReducesTo [0, 1, 2] S_
  h_S_ : 0 < S_.numel
  bcast_S8388608_S8388608x1_0 : S8388608.BroadcastsInDim S8388608x1 (![0] : Fin 1 → Fin S8388608x1.rank)
  concatenates_S8388608x1_S8388608x1_S8388608x1_S8388608x3_d1 : Shape.Concatenates [S8388608x1, S8388608x1, S8388608x1] S8388608x3 1
  bcast_S_S65536x3 : S_.BroadcastsInDim S65536x3 (![] : Fin 0 → Fin S65536x3.rank)
  slices_S65536x3_S65536x1_0_0 : S65536x3.Slices ![0, 0] S65536x1
  shapeCasts_S65536x1_S65536 : S65536x1.ShapeCasts S65536
  slices_S65536x3_S65536x1_0_1 : S65536x3.Slices ![0, 1] S65536x1
  slices_S65536x3_S65536x1_0_2 : S65536x3.Slices ![0, 2] S65536x1
  bcast_S_S65536 : S_.BroadcastsInDim S65536 (![] : Fin 0 → Fin S65536.rank)
  reducesTo_S65536_S_d0 : S65536.ReducesTo [0] S_
  scatter_S65536x3_S8388608x1_S8388608x3_1_0_0_1_wf : ScatterDims.WF S65536x3 S8388608x1 S8388608x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S2x32768x128.size a
  hwx0_0 : ∀ i : grid0.Coords, EltTy.bits .f32 = 32 ∨ (Rect.block (s := S2x32768x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S2x32768x128.size a
  hwx0_1 : ∀ i : grid0.Coords, EltTy.bits .i32 = 32 ∨ (Rect.block (s := S2x32768x128) S1x4096x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x128.size a ≤ S2x32768x128.size a
  hwx0_2 : ∀ i : grid0.Coords, EltTy.bits .f32 = 32 ∨ (Rect.block (s := S2x32768x128) S1x4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x128.size a ≤ S2x32768x128.size a
  hwx0_3 : ∀ i : grid0.Coords, EltTy.bits .f32 = 32 ∨ (Rect.block (s := S2x32768x128) S1x4096x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4096x128.size a ≤ S2x32768x128.size a
  hwx0_4 : ∀ i : grid0.Coords, EltTy.bits .f32 = 32 ∨ (Rect.block (s := S2x32768x128) S1x4096x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)

variable [Facts₀]

def scatter_S65536x3_S8388608x1_S8388608x3_1_0_0_1 : ScatterDims S65536x3 S8388608x1 S8388608x3 where
  updateWindowDims := [1]
  insertedWindowDims := [0]
  scatterDimsToOperandDims := [0]
  indexVectorDim := 1
  wf := scatter_S65536x3_S8388608x1_S8388608x3_1_0_0_1_wf

abbrev win0_0 : Pipeline.Window sig grid0 :=
  Pipeline.Window.ofSpec (Memref.whole main_v0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x4096x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x4096x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x4096x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_3) S1x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8388608 : Shape := ⟨1, ![8388608]⟩
abbrev S_ : Shape := ⟨0, ![]⟩
abbrev S65536 : Shape := ⟨1, ![65536]⟩
abbrev S8388608x1 : Shape := ⟨2, ![8388608, 1]⟩

abbrev nBuf : Space → Nat
  | .hbm => 86
  | .vmem => 0
  | .smem => 0
  | _ => 0

abbrev bufTy : (tb : Table) → Fin (tcTables nBuf tb) → BufTy
  | .hbm, ⟨0, _⟩ => ⟨S8388608, .f32⟩
  | .hbm, ⟨1, _⟩ => ⟨S8388608, .i32⟩
  | .hbm, ⟨2, _⟩ => ⟨S8388608, .i32⟩
  | .hbm, ⟨3, _⟩ => ⟨S_, .f32⟩
  | .hbm, ⟨4, _⟩ => ⟨S8388608, .f32⟩
  | .hbm, ⟨5, _⟩ => ⟨S8388608, .f32⟩
  | .hbm, ⟨6, _⟩ => ⟨S_, .f32⟩
  | .hbm, ⟨7, _⟩ => ⟨S8388608, .f32⟩
  | .hbm, ⟨8, _⟩ => ⟨S8388608, .f32⟩
  | .hbm, ⟨9, _⟩ => ⟨S8388608, .f32⟩
  | .hbm, ⟨10, _⟩ => ⟨S_, .i32⟩
  | .hbm, ⟨11, _⟩ => ⟨S8388608, .i32⟩
  | .hbm, ⟨12, _⟩ => ⟨S8388608, .i1⟩
  | .hbm, ⟨13, _⟩ => ⟨S_, .i32⟩
  | .hbm, ⟨14, _⟩ => ⟨S8388608, .i32⟩
  | .hbm, ⟨15, _⟩ => ⟨S8388608, .i1⟩
  | .hbm, ⟨16, _⟩ => ⟨S8388608, .f32⟩
  | .hbm, ⟨17, _⟩ => ⟨S8388608, .f32⟩
  | .hbm, ⟨18, _⟩ => ⟨S_, .f32⟩
  | .hbm, ⟨19, _⟩ => ⟨S65536, .f32⟩
  | .hbm, ⟨20, _⟩ => ⟨S8388608x1, .i32⟩
  | .hbm, ⟨21, _⟩ => ⟨S65536, .f32⟩
  | .hbm, ⟨22, _⟩ => ⟨S_, .f32⟩
  | .hbm, ⟨23, _⟩ => ⟨S65536, .f32⟩
  | .hbm, ⟨24, _⟩ => ⟨S65536, .i1⟩
  | .hbm, ⟨25, _⟩ => ⟨S65536, .f32⟩
  | .hbm, ⟨26, _⟩ => ⟨S_, .f32⟩
  | .hbm, ⟨27, _⟩ => ⟨S_, .f32⟩
  | .hbm, ⟨28, _⟩ => ⟨S8388608, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S65536, .f32⟩
  | .hbm, ⟨44, _⟩ => ⟨S8388608x1, .i32⟩
  | .hbm, ⟨45, _⟩ => ⟨S65536, .f32⟩
  | .hbm, ⟨46, _⟩ => ⟨S_, .f32⟩
  | .hbm, ⟨47, _⟩ => ⟨S65536, .f32⟩
  | .hbm, ⟨48, _⟩ => ⟨S65536, .i1⟩
  | .hbm, ⟨49, _⟩ => ⟨S65536, .f32⟩
  | .hbm, ⟨50, _⟩ => ⟨S_, .f32⟩
  | .hbm, ⟨51, _⟩ => ⟨S_, .f32⟩
  | .hbm, ⟨52, _⟩ => ⟨S8388608, .f32⟩
  | .hbm, ⟨53, _⟩ => ⟨S_, .f32⟩
  | .hbm, ⟨54, _⟩ => ⟨S65536, .f32⟩
  | .hbm, ⟨55, _⟩ => ⟨S8388608x1, .i32⟩
  | .hbm, ⟨56, _⟩ => ⟨S65536, .f32⟩
  | .hbm, ⟨57, _⟩ => ⟨S65536, .f32⟩
  | .hbm, ⟨58, _⟩ => ⟨S_, .f32⟩
  | .hbm, ⟨59, _⟩ => ⟨S65536, .f32⟩
  | .hbm, ⟨60, _⟩ => ⟨S65536, .f32⟩
  | .hbm, ⟨61, _⟩ => ⟨S_, .f32⟩
  | .hbm, ⟨62, _⟩ => ⟨S65536, .f32⟩
  | .hbm, ⟨63, _⟩ => ⟨S65536, .f32⟩
  | .hbm, ⟨64, _⟩ => ⟨S_, .f32⟩
  | .hbm, ⟨65, _⟩ => ⟨S65536, .f32⟩
  | .hbm, ⟨66, _⟩ => ⟨S65536, .f32⟩
  | .hbm, ⟨67, _⟩ => ⟨S65536, .f32⟩
  | .hbm, ⟨68, _⟩ => ⟨S_, .f32⟩
  | .hbm, ⟨69, _⟩ => ⟨S_, .f32⟩
  | .hbm, ⟨70, _⟩ => ⟨S65536, .f32⟩
  | .hbm, ⟨71, _⟩ => ⟨S65536, .f32⟩
  | .hbm, ⟨72, _⟩ => ⟨S_, .f32⟩
  | .hbm, ⟨73, _⟩ => ⟨S_, .i1⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S8388608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_cst_9 : Ref sig .tc := ⟨.hbm, 39, rfl⟩
abbrev main_call0_v0 : Ref sig .tc := ⟨.hbm, 40, rfl⟩
abbrev main_v25 : Ref sig .tc := ⟨.hbm, 41, rfl⟩
abbrev main_cst_10 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_11 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_12 : Ref sig .tc := ⟨.hbm, 50, rfl⟩
abbrev main_v32 : Ref sig .tc := ⟨.hbm, 51, rfl⟩
abbrev main_v33 : Ref sig .tc := ⟨.hbm, 52, rfl⟩
abbrev main_cst_13 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_14 : Ref sig .tc := ⟨.hbm, 58, rfl⟩
abbrev main_v38 : Ref sig .tc := ⟨.hbm, 59, rfl⟩
abbrev main_v39 : Ref sig .tc := ⟨.hbm, 60, rfl⟩
abbrev main_cst_15 : Ref sig .tc := ⟨.hbm, 61, rfl⟩
abbrev main_v40 : Ref sig .tc := ⟨.hbm, 62, rfl⟩
abbrev main_v41 : Ref sig .tc := ⟨.hbm, 63, rfl⟩
abbrev main_cst_16 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_17 : Ref sig .tc := ⟨.hbm, 68, rfl⟩
abbrev main_call1_v0 : Ref sig .tc := ⟨.hbm, 69, rfl⟩
abbrev main_call1_v1 : Ref sig .tc := ⟨.hbm, 70, rfl⟩
abbrev main_v45 : Ref sig .tc := ⟨.hbm, 71, rfl⟩
abbrev main_cst_18 : Ref sig .tc := ⟨.hbm, 72, rfl⟩
abbrev main_v46 : Ref sig .tc := ⟨.hbm, 73, rfl⟩
abbrev main_cst_19 : Ref sig .tc := ⟨.hbm, 74, rfl⟩
abbrev main_v47 : Ref sig .tc := ⟨.hbm, 75, rfl⟩
abbrev main_cst_20 : Ref sig .tc := ⟨.hbm, 76, rfl⟩
abbrev main_v48 : Ref sig .tc := ⟨.hbm, 77, rfl⟩
abbrev main_v49 : Ref sig .tc := ⟨.hbm, 78, rfl⟩
abbrev main_cst_21 : Ref sig .tc := ⟨.hbm, 79, rfl⟩
abbrev main_v50 : Ref sig .tc := ⟨.hbm, 80, rfl⟩
abbrev main_v51 : Ref sig .tc := ⟨.hbm, 81, rfl⟩
abbrev main_cst_22 : Ref sig .tc := ⟨.hbm, 82, rfl⟩
abbrev main_call2_v0 : Ref sig .tc := ⟨.hbm, 83, rfl⟩
abbrev main_v52 : Ref sig .tc := ⟨.hbm, 84, rfl⟩
abbrev main_v53 : Ref sig .tc := ⟨.hbm, 85, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  bcast_S_S65536 : S_.BroadcastsInDim S65536 (![] : Fin 0 → Fin S65536.rank)
  bcast_S8388608_S8388608x1_0 : S8388608.BroadcastsInDim S8388608x1 (![0] : Fin 1 → Fin S8388608x1.rank)
  reducesTo_S65536_S_d0 : S65536.ReducesTo [0] S_
  h_S_ : 0 < S_.numel
  reducesTo_S8388608_S_d0 : S8388608.ReducesTo [0] S_
  scatter_S65536_S8388608x1_S8388608_n_0_0_1_wf : ScatterDims.WF S65536 S8388608x1 S8388608 [] [0] [0] 1

variable [Facts₀]

def scatter_S65536_S8388608x1_S8388608_n_0_0_1 : ScatterDims S65536 S8388608x1 S8388608 where
  updateWindowDims := []
  insertedWindowDims := [0]
  scatterDimsToOperandDims := [0]
  indexVectorDim := 1
  wf := scatter_S65536_S8388608x1_S8388608_n_0_0_1_wf

class Facts : Prop extends Facts₀ where

variable [Facts]
-- ==== Proof.K.Kit.lean ====
import proofs.«119481_j45681272160447_1_alg».proof.Proof.Gen.Kernel.Launch
import proofs.«119481_j45681272160447_1_alg».proof.Proof.Gen.Kernel.Skeleton
import proofs.«119481_j45681272160447_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the two reshapes that
    lay the probabilities and the labels out as [2, 32768, 128]. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host stretches that follow the region, in order. -/
abbrev tailOps : List (List (HloOp τ sig (Elt F))) :=
  [hostOps1, hostOps1_1, hostOps1_2, hostOps1_3, hostOps1_4, hostOps1_5, hostOps1_6]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-- No operation of this stretch writes an array of the pipeline: each writes its own result buffer only. -/
theorem hostOps1_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
/-- No operation of this stretch writes an array of the pipeline: each writes its own result buffer only. -/
theorem hostOps1_1_keeps : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
/-- No operation of this stretch writes an array of the pipeline: each writes its own result buffer only. -/
theorem hostOps1_2_keeps : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
/-- No operation of this stretch writes an array of the pipeline: each writes its own result buffer only. -/
theorem hostOps1_3_keeps : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
/-- No operation of this stretch writes an array of the pipeline: each writes its own result buffer only. -/
theorem hostOps1_4_keeps : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
/-- No operation of this stretch writes an array of the pipeline: each writes its own result buffer only. -/
theorem hostOps1_5_keeps : ∀ op ∈ (hostOps1_5 : List (HloOp τ sig (Elt F))), ∀ w, Proc.devRef .tc (Pipeline.arrRef spec0 w) ∉ op.writes := by
  intro op hop
  simp only [hostOps1_5, List.mem_cons, List.mem_nil_iff, or_false] at hop
  rcases hop with rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
/-- No operation of this stretch writes an array of the pipeline: each writes its own result buffer only. -/
theorem hostOps1_6_keeps : ∀ op ∈ (hostOps1_6 : List (HloOp τ sig (Elt F))), ∀ w, Proc.devRef .tc (Pipeline.arrRef spec0 w) ∉ op.writes := by
  intro op hop
  simp only [hostOps1_6, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl
  · exact hostOps1_keeps op hop
  · exact hostOps1_1_keeps op hop
  · exact hostOps1_2_keeps op hop
  · exact hostOps1_3_keeps op hop
  · exact hostOps1_4_keeps op hop
  · exact hostOps1_5_keeps op hop
  · exact hostOps1_6_keeps op hop

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- No operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes `main_arg0`, and it is no window's array: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [tailOps, hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes `main_arg1`, and it is no window's array: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes `main_arg2`, and it is no window's array: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [tailOps, hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- The three argument arrays are no window's array and no later line writes them: from a frame run over any proof data
    the frame claim's post follows. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c)⟩) h

/-! ## The body's branch conditions -/

/-- The reset's condition: the second grid coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The last store's condition: the second grid coordinate is seven. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
theorem liveAt0_5_C : ∀ t : Fin cfg0.N, ¬cond0_0 (grid0.coords t) → cond0_1 (grid0.coords t) → cfg0.idle 5 (grid0.coords t) = false := by decide +kernel

/-! ## The staging and scratch memrefs -/

abbrev VO0_2 : View sig .tc .vmem S1x4096x128 .f32 := (Memref.whole cc0_stg2_0 : Memref sig .tc .vmem S1x4096x128 .f32).view
abbrev VO0_3 : View sig .tc .vmem S1x4096x128 .f32 := (Memref.whole cc0_stg3_0 : Memref sig .tc .vmem S1x4096x128 .f32).view
abbrev VO0_4 : View sig .tc .vmem S1x4096x128 .f32 := (Memref.whole cc0_stg4_0 : Memref sig .tc .vmem S1x4096x128 .f32).view
abbrev VO0_5 : View sig .tc .vmem S1x1x1 .f32 := (Memref.whole cc0_stg5_0 : Memref sig .tc .vmem S1x1x1 .f32).view
abbrev ms0_0 (t : Fin cfg0.N) : Memref sig .tc .vmem S1x4096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1 .f32 := win0_5.stage (cfg0.slots t 5)
abbrev hs0_5 (t : Fin cfg0.N) : (ms0_5 t).IsWhole := hstage0_5 ((cfg0.slots t 5).cast nbuf0_5)
/-- The scratch operand: the running sum of a row of blocks. -/
abbrev scM0_0 : Memref sig .tc .vmem S1x1 .f32 := Memref.whole cc0_scratch0
abbrev VS0_0 : View sig .tc .vmem S1x1 .f32 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Frm

end
-- ==== Proof.K.RunA.lean ====
import proofs.«119481_j45681272160447_1_alg».proof.Proof.K.Kit

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point that opens a row of blocks (second coordinate 0): the running sum is reset, the three pointwise outputs
    are stored whole, the block's sum is added to the running sum, the per-row result is left alone. The pieces each buffer
    ends with are what the run finds. -/
noncomputable def kernelRun0_A (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : cond0_0 i) (hc1 : ¬cond0_1 i)
    (x0 : Vec F S1x4096x128 .f32) (x1 : Vec F S1x4096x128 .i32) :
    Σ' (L2 : List (View.Piece (Elt F) S1x4096x128 .f32)) (L3 : List (View.Piece (Elt F) S1x4096x128 .f32)) (L4 : List (View.Piece (Elt F) S1x4096x128 .f32)), { LS0 : List (View.Piece (Elt F) S1x1 .f32) //
      ∀ (xi5 : Vec F S1x1x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__elementwise_kernel i arg2 harg2 arg3 harg3 arg4 harg4 arg5 harg5 arg6 harg6 arg7 harg7 arg8 harg8) K } := by
  refine ⟨?_, ?_, ?_, ?_, fun xi5 E K => ?run⟩
  case run =>
    simp only [cc0__elementwise_kernel_eq_skeleton]; unfold cc0__elementwise_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%ds0, %fs0, -, HS0⟩, Hk⟩
    obtain rfl := harg2.eq_unread hf0; obtain rfl := harg3.eq_unread hf1; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]
    · iexists _; isplitr; · ipureintro; exact harg7.read_unread _
      iexact H5
    iexists _; iexact HS0

end Cert.Kernel.Frm

end
-- ==== Proof.K.RunB.lean ====
import proofs.«119481_j45681272160447_1_alg».proof.Proof.K.RunA

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point inside a row of blocks: no reset, the running sum carried from the point before. -/
noncomputable def kernelRun0_B (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : ¬cond0_1 i)
    (x0 : Vec F S1x4096x128 .f32) (x1 : Vec F S1x4096x128 .i32) (xs0 : Vec F S1x1 .f32) :
    Σ' (L2 : List (View.Piece (Elt F) S1x4096x128 .f32)) (L3 : List (View.Piece (Elt F) S1x4096x128 .f32)) (L4 : List (View.Piece (Elt F) S1x4096x128 .f32)), { LS0 : List (View.Piece (Elt F) S1x1 .f32) //
      ∀ (xi5 : Vec F S1x1x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xi5 ∗ owns (c : Thread nD τ) arg8 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__elementwise_kernel i arg2 harg2 arg3 harg3 arg4 harg4 arg5 harg5 arg6 harg6 arg7 harg7 arg8 harg8) K } := by
  refine ⟨?_, ?_, ?_, ?_, fun xi5 E K => ?run⟩
  case run =>
    simp only [cc0__elementwise_kernel_eq_skeleton]; unfold cc0__elementwise_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%fs0, %hfs0, HS0⟩, Hk⟩
    obtain rfl := harg2.eq_unread hf0; obtain rfl := harg3.eq_unread hf1; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]
    · iexists _; isplitr; · ipureintro; exact harg7.read_unread _
      iexact H5
    iexists _; iexact HS0

end Cert.Kernel.Frm

end
-- ==== Proof.K.RunC.lean ====
import proofs.«119481_j45681272160447_1_alg».proof.Proof.K.RunB

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the point that closes a row of blocks (second coordinate 7): as inside the row, and the running sum is
    stored into the per-row result. -/
noncomputable def kernelRun0_C (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i)
    (x0 : Vec F S1x4096x128 .f32) (x1 : Vec F S1x4096x128 .i32) (xs0 : Vec F S1x1 .f32) :
    Σ' (L2 : List (View.Piece (Elt F) S1x4096x128 .f32)) (L3 : List (View.Piece (Elt F) S1x4096x128 .f32)) (L4 : List (View.Piece (Elt F) S1x4096x128 .f32)) (L5 : List (View.Piece (Elt F) S1x1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__elementwise_kernel i arg2 harg2 arg3 harg3 arg4 harg4 arg5 harg5 arg6 harg6 arg7 harg7 arg8 harg8) K } := by
  refine ⟨?_, ?_, ?_, ?_, ?_, fun E K => ?run⟩
  case run =>
    simp only [cc0__elementwise_kernel_eq_skeleton]; unfold cc0__elementwise_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]; · iexists _; iexact H5
    iexists _; iexact HS0

end Cert.Kernel.Frm

end
-- ==== Proof.K.Frame.lean ====
import proofs.«119481_j45681272160447_1_alg».proof.Proof.K.RunC

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in each buffer -/

/-- Case A's stores into output window 2 cover its block. -/
theorem cover0_A_2 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : cond0_0 i) (hc1 : ¬cond0_1 i)
    (x0 : Vec F S1x4096x128 .f32) (x1 : Vec F S1x4096x128 .i32) (y : S1x4096x128.Idx) :
    ∃ pc ∈ (kernelRun0_A c i arg2 harg2 arg3 harg3 arg4 harg4 arg5 harg5 arg6 harg6 arg7 harg7 arg8 harg8 hc0 hc1 x0 x1).1, y ∈ pc.1.set :=
  View.cover_of_tiledL (kernelRun0_A c i arg2 harg2 arg3 harg3 arg4 harg4 arg5 harg5 arg6 harg6 arg7 harg7 arg8 harg8 hc0 hc1 x0 x1).1 S1x4096x128.size (by sl_kernel_rfl) y

/-- What case A leaves in output window 2's staging buffer. -/
def out0_A_2 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : cond0_0 i) (hc1 : ¬cond0_1 i)
    (x0 : Vec F S1x4096x128 .f32) (x1 : Vec F S1x4096x128 .i32) : Vec F S1x4096x128 .f32 :=
  VO0_2.read (Elt F) (VO0_2.writes (Elt F) VO0_2.junk (kernelRun0_A c i arg2 harg2 arg3 harg3 arg4 harg4 arg5 harg5 arg6 harg6 arg7 harg7 arg8 harg8 hc0 hc1 x0 x1).1)

/-- Case A's stores into output window 3 cover its block. -/
theorem cover0_A_3 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : cond0_0 i) (hc1 : ¬cond0_1 i)
    (x0 : Vec F S1x4096x128 .f32) (x1 : Vec F S1x4096x128 .i32) (y : S1x4096x128.Idx) :
    ∃ pc ∈ (kernelRun0_A c i arg2 harg2 arg3 harg3 arg4 harg4 arg5 harg5 arg6 harg6 arg7 harg7 arg8 harg8 hc0 hc1 x0 x1).2.1, y ∈ pc.1.set :=
  View.cover_of_tiledL (kernelRun0_A c i arg2 harg2 arg3 harg3 arg4 harg4 arg5 harg5 arg6 harg6 arg7 harg7 arg8 harg8 hc0 hc1 x0 x1).2.1 S1x4096x128.size (by sl_kernel_rfl) y

/-- What case A leaves in output window 3's staging buffer. -/
def out0_A_3 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : cond0_0 i) (hc1 : ¬cond0_1 i)
    (x0 : Vec F S1x4096x128 .f32) (x1 : Vec F S1x4096x128 .i32) : Vec F S1x4096x128 .f32 :=
  VO0_3.read (Elt F) (VO0_3.writes (Elt F) VO0_3.junk (kernelRun0_A c i arg2 harg2 arg3 harg3 arg4 harg4 arg5 harg5 arg6 harg6 arg7 harg7 arg8 harg8 hc0 hc1 x0 x1).2.1)

/-- Case A's stores into output window 4 cover its block. -/
theorem cover0_A_4 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : cond0_0 i) (hc1 : ¬cond0_1 i)
    (x0 : Vec F S1x4096x128 .f32) (x1 : Vec F S1x4096x128 .i32) (y : S1x4096x128.Idx) :
    ∃ pc ∈ (kernelRun0_A c i arg2 harg2 arg3 harg3 arg4 harg4 arg5 harg5 arg6 harg6 arg7 harg7 arg8 harg8 hc0 hc1 x0 x1).2.2.1, y ∈ pc.1.set :=
  View.cover_of_tiledL (kernelRun0_A c i arg2 harg2 arg3 harg3 arg4 harg4 arg5 harg5 arg6 harg6 arg7 harg7 arg8 harg8 hc0 hc1 x0 x1).2.2.1 S1x4096x128.size (by sl_kernel_rfl) y

/-- What case A leaves in output window 4's staging buffer. -/
def out0_A_4 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : cond0_0 i) (hc1 : ¬cond0_1 i)
    (x0 : Vec F S1x4096x128 .f32) (x1 : Vec F S1x4096x128 .i32) : Vec F S1x4096x128 .f32 :=
  VO0_4.read (Elt F) (VO0_4.writes (Elt F) VO0_4.junk (kernelRun0_A c i arg2 harg2 arg3 harg3 arg4 harg4 arg5 harg5 arg6 harg6 arg7 harg7 arg8 harg8 hc0 hc1 x0 x1).2.2.1)

/-- Case A's stores into the running sum cover it. -/
theorem scover0_A_0 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : cond0_0 i) (hc1 : ¬cond0_1 i)
    (x0 : Vec F S1x4096x128 .f32) (x1 : Vec F S1x4096x128 .i32) (y : S1x1.Idx) :
    ∃ pc ∈ (kernelRun0_A c i arg2 harg2 arg3 harg3 arg4 harg4 arg5 harg5 arg6 harg6 arg7 harg7 arg8 harg8 hc0 hc1 x0 x1).2.2.2.1, y ∈ pc.1.set :=
  View.cover_of_tiledL (kernelRun0_A c i arg2 harg2 arg3 harg3 arg4 harg4 arg5 harg5 arg6 harg6 arg7 harg7 arg8 harg8 hc0 hc1 x0 x1).2.2.2.1 S1x1.size (by sl_kernel_rfl) y

/-- What case A leaves in the running sum. -/
def sout0_A_0 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : cond0_0 i) (hc1 : ¬cond0_1 i)
    (x0 : Vec F S1x4096x128 .f32) (x1 : Vec F S1x4096x128 .i32) : Vec F S1x1 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1).2.2.2.1)

/-- Case B's stores into output window 2 cover its block. -/
theorem cover0_B_2 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : ¬cond0_1 i)
    (x0 : Vec F S1x4096x128 .f32) (x1 : Vec F S1x4096x128 .i32) (xs0 : Vec F S1x1 .f32) (y : S1x4096x128.Idx) :
    ∃ pc ∈ (kernelRun0_B c i arg2 harg2 arg3 harg3 arg4 harg4 arg5 harg5 arg6 harg6 arg7 harg7 arg8 harg8 hc0 hc1 x0 x1 xs0).1, y ∈ pc.1.set :=
  View.cover_of_tiledL (kernelRun0_B c i arg2 harg2 arg3 harg3 arg4 harg4 arg5 harg5 arg6 harg6 arg7 harg7 arg8 harg8 hc0 hc1 x0 x1 xs0).1 S1x4096x128.size (by sl_kernel_rfl) y

/-- What case B leaves in output window 2's staging buffer. -/
def out0_B_2 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : ¬cond0_1 i)
    (x0 : Vec F S1x4096x128 .f32) (x1 : Vec F S1x4096x128 .i32) (xs0 : Vec F S1x1 .f32) : Vec F S1x4096x128 .f32 :=
  VO0_2.read (Elt F) (VO0_2.writes (Elt F) VO0_2.junk (kernelRun0_B c i arg2 harg2 arg3 harg3 arg4 harg4 arg5 harg5 arg6 harg6 arg7 harg7 arg8 harg8 hc0 hc1 x0 x1 xs0).1)

/-- Case B's stores into output window 3 cover its block. -/
theorem cover0_B_3 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : ¬cond0_1 i)
    (x0 : Vec F S1x4096x128 .f32) (x1 : Vec F S1x4096x128 .i32) (xs0 : Vec F S1x1 .f32) (y : S1x4096x128.Idx) :
    ∃ pc ∈ (kernelRun0_B c i arg2 harg2 arg3 harg3 arg4 harg4 arg5 harg5 arg6 harg6 arg7 harg7 arg8 harg8 hc0 hc1 x0 x1 xs0).2.1, y ∈ pc.1.set :=
  View.cover_of_tiledL (kernelRun0_B c i arg2 harg2 arg3 harg3 arg4 harg4 arg5 harg5 arg6 harg6 arg7 harg7 arg8 harg8 hc0 hc1 x0 x1 xs0).2.1 S1x4096x128.size (by sl_kernel_rfl) y

/-- What case B leaves in output window 3's staging buffer. -/
def out0_B_3 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : ¬cond0_1 i)
    (x0 : Vec F S1x4096x128 .f32) (x1 : Vec F S1x4096x128 .i32) (xs0 : Vec F S1x1 .f32) : Vec F S1x4096x128 .f32 :=
  VO0_3.read (Elt F) (VO0_3.writes (Elt F) VO0_3.junk (kernelRun0_B c i arg2 harg2 arg3 harg3 arg4 harg4 arg5 harg5 arg6 harg6 arg7 harg7 arg8 harg8 hc0 hc1 x0 x1 xs0).2.1)

/-- Case B's stores into output window 4 cover its block. -/
theorem cover0_B_4 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : ¬cond0_1 i)
    (x0 : Vec F S1x4096x128 .f32) (x1 : Vec F S1x4096x128 .i32) (xs0 : Vec F S1x1 .f32) (y : S1x4096x128.Idx) :
    ∃ pc ∈ (kernelRun0_B c i arg2 harg2 arg3 harg3 arg4 harg4 arg5 harg5 arg6 harg6 arg7 harg7 arg8 harg8 hc0 hc1 x0 x1 xs0).2.2.1, y ∈ pc.1.set :=
  View.cover_of_tiledL (kernelRun0_B c i arg2 harg2 arg3 harg3 arg4 harg4 arg5 harg5 arg6 harg6 arg7 harg7 arg8 harg8 hc0 hc1 x0 x1 xs0).2.2.1 S1x4096x128.size (by sl_kernel_rfl) y

/-- What case B leaves in output window 4's staging buffer. -/
def out0_B_4 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : ¬cond0_1 i)
    (x0 : Vec F S1x4096x128 .f32) (x1 : Vec F S1x4096x128 .i32) (xs0 : Vec F S1x1 .f32) : Vec F S1x4096x128 .f32 :=
  VO0_4.read (Elt F) (VO0_4.writes (Elt F) VO0_4.junk (kernelRun0_B c i arg2 harg2 arg3 harg3 arg4 harg4 arg5 harg5 arg6 harg6 arg7 harg7 arg8 harg8 hc0 hc1 x0 x1 xs0).2.2.1)

/-- Case B's stores into the running sum cover it. -/
theorem scover0_B_0 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : ¬cond0_1 i)
    (x0 : Vec F S1x4096x128 .f32) (x1 : Vec F S1x4096x128 .i32) (xs0 : Vec F S1x1 .f32) (y : S1x1.Idx) :
    ∃ pc ∈ (kernelRun0_B c i arg2 harg2 arg3 harg3 arg4 harg4 arg5 harg5 arg6 harg6 arg7 harg7 arg8 harg8 hc0 hc1 x0 x1 xs0).2.2.2.1, y ∈ pc.1.set :=
  View.cover_of_tiledL (kernelRun0_B c i arg2 harg2 arg3 harg3 arg4 harg4 arg5 harg5 arg6 harg6 arg7 harg7 arg8 harg8 hc0 hc1 x0 x1 xs0).2.2.2.1 S1x1.size (by sl_kernel_rfl) y

/-- What case B leaves in the running sum. -/
def sout0_B_0 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : ¬cond0_1 i)
    (x0 : Vec F S1x4096x128 .f32) (x1 : Vec F S1x4096x128 .i32) (xs0 : Vec F S1x1 .f32) : Vec F S1x1 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 xs0).2.2.2.1)

/-- Case C's stores into output window 2 cover its block. -/
theorem cover0_C_2 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i)
    (x0 : Vec F S1x4096x128 .f32) (x1 : Vec F S1x4096x128 .i32) (xs0 : Vec F S1x1 .f32) (y : S1x4096x128.Idx) :
    ∃ pc ∈ (kernelRun0_C c i arg2 harg2 arg3 harg3 arg4 harg4 arg5 harg5 arg6 harg6 arg7 harg7 arg8 harg8 hc0 hc1 x0 x1 xs0).1, y ∈ pc.1.set :=
  View.cover_of_tiledL (kernelRun0_C c i arg2 harg2 arg3 harg3 arg4 harg4 arg5 harg5 arg6 harg6 arg7 harg7 arg8 harg8 hc0 hc1 x0 x1 xs0).1 S1x4096x128.size (by sl_kernel_rfl) y

/-- What case C leaves in output window 2's staging buffer. -/
def out0_C_2 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i)
    (x0 : Vec F S1x4096x128 .f32) (x1 : Vec F S1x4096x128 .i32) (xs0 : Vec F S1x1 .f32) : Vec F S1x4096x128 .f32 :=
  VO0_2.read (Elt F) (VO0_2.writes (Elt F) VO0_2.junk (kernelRun0_C c i arg2 harg2 arg3 harg3 arg4 harg4 arg5 harg5 arg6 harg6 arg7 harg7 arg8 harg8 hc0 hc1 x0 x1 xs0).1)

/-- Case C's stores into output window 3 cover its block. -/
theorem cover0_C_3 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i)
    (x0 : Vec F S1x4096x128 .f32) (x1 : Vec F S1x4096x128 .i32) (xs0 : Vec F S1x1 .f32) (y : S1x4096x128.Idx) :
    ∃ pc ∈ (kernelRun0_C c i arg2 harg2 arg3 harg3 arg4 harg4 arg5 harg5 arg6 harg6 arg7 harg7 arg8 harg8 hc0 hc1 x0 x1 xs0).2.1, y ∈ pc.1.set :=
  View.cover_of_tiledL (kernelRun0_C c i arg2 harg2 arg3 harg3 arg4 harg4 arg5 harg5 arg6 harg6 arg7 harg7 arg8 harg8 hc0 hc1 x0 x1 xs0).2.1 S1x4096x128.size (by sl_kernel_rfl) y

/-- What case C leaves in output window 3's staging buffer. -/
def out0_C_3 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i)
    (x0 : Vec F S1x4096x128 .f32) (x1 : Vec F S1x4096x128 .i32) (xs0 : Vec F S1x1 .f32) : Vec F S1x4096x128 .f32 :=
  VO0_3.read (Elt F) (VO0_3.writes (Elt F) VO0_3.junk (kernelRun0_C c i arg2 harg2 arg3 harg3 arg4 harg4 arg5 harg5 arg6 harg6 arg7 harg7 arg8 harg8 hc0 hc1 x0 x1 xs0).2.1)

/-- Case C's stores into output window 4 cover its block. -/
theorem cover0_C_4 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i)
    (x0 : Vec F S1x4096x128 .f32) (x1 : Vec F S1x4096x128 .i32) (xs0 : Vec F S1x1 .f32) (y : S1x4096x128.Idx) :
    ∃ pc ∈ (kernelRun0_C c i arg2 harg2 arg3 harg3 arg4 harg4 arg5 harg5 arg6 harg6 arg7 harg7 arg8 harg8 hc0 hc1 x0 x1 xs0).2.2.1, y ∈ pc.1.set :=
  View.cover_of_tiledL (kernelRun0_C c i arg2 harg2 arg3 harg3 arg4 harg4 arg5 harg5 arg6 harg6 arg7 harg7 arg8 harg8 hc0 hc1 x0 x1 xs0).2.2.1 S1x4096x128.size (by sl_kernel_rfl) y

/-- What case C leaves in output window 4's staging buffer. -/
def out0_C_4 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i)
    (x0 : Vec F S1x4096x128 .f32) (x1 : Vec F S1x4096x128 .i32) (xs0 : Vec F S1x1 .f32) : Vec F S1x4096x128 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 xs0).2.2.1)

/-- Case C's stores into output window 5 cover its block. -/
theorem cover0_C_5 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i)
    (x0 : Vec F S1x4096x128 .f32) (x1 : Vec F S1x4096x128 .i32) (xs0 : Vec F S1x1 .f32) (y : S1x1x1.Idx) :
    ∃ pc ∈ (kernelRun0_C c i arg2 harg2 arg3 harg3 arg4 harg4 arg5 harg5 arg6 harg6 arg7 harg7 arg8 harg8 hc0 hc1 x0 x1 xs0).2.2.2.1, y ∈ pc.1.set :=
  View.cover_of_tiledL (kernelRun0_C c i arg2 harg2 arg3 harg3 arg4 harg4 arg5 harg5 arg6 harg6 arg7 harg7 arg8 harg8 hc0 hc1 x0 x1 xs0).2.2.2.1 S1x1x1.size (by sl_kernel_rfl) y

/-- What case C leaves in output window 5's staging buffer. -/
def out0_C_5 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i)
    (x0 : Vec F S1x4096x128 .f32) (x1 : Vec F S1x4096x128 .i32) (xs0 : Vec F S1x1 .f32) : Vec F S1x1x1 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 xs0).2.2.2.1)

/-- Case C's stores into the running sum cover it. -/
theorem scover0_C_0 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i)
    (x0 : Vec F S1x4096x128 .f32) (x1 : Vec F S1x4096x128 .i32) (xs0 : Vec F S1x1 .f32) (y : S1x1.Idx) :
    ∃ pc ∈ (kernelRun0_C c i arg2 harg2 arg3 harg3 arg4 harg4 arg5 harg5 arg6 harg6 arg7 harg7 arg8 harg8 hc0 hc1 x0 x1 xs0).2.2.2.2.1, y ∈ pc.1.set :=
  View.cover_of_tiledL (kernelRun0_C c i arg2 harg2 arg3 harg3 arg4 harg4 arg5 harg5 arg6 harg6 arg7 harg7 arg8 harg8 hc0 hc1 x0 x1 xs0).2.2.2.2.1 S1x1.size (by sl_kernel_rfl) y

/-- What case C leaves in the running sum. -/
def sout0_C_0 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i)
    (x0 : Vec F S1x4096x128 .f32) (x1 : Vec F S1x4096x128 .i32) (xs0 : Vec F S1x1 .f32) : Vec F S1x1 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 xs0).2.2.2.2.1)

/-! ## What the buffers hold after each point -/

/-- The three pointwise outputs, the per-row result and the running sum after a point that opens a row. The per-row result
    is not stored there: its component is a placeholder nothing reads. -/
def tupA (c : Dev nD) (t : Fin cfg0.N) (h0 : t.val % 8 = 0) (h1 : ¬t.val % 8 = 7) : Vec F S1x4096x128 .f32 × Vec F S1x4096x128 .f32 × Vec F S1x4096x128 .f32 × Vec F S1x1x1 .f32 × Vec F S1x1 .f32 :=
  (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t), out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t),
    VO0_5.read (Elt F) VO0_5.junk, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t))

/-- The same after a point inside a row, over the running sum `xs` the point before left. -/
def tupB (c : Dev nD) (t : Fin cfg0.N) (h0 : ¬t.val % 8 = 0) (h1 : ¬t.val % 8 = 7) (xs : Vec F S1x1 .f32) : Vec F S1x4096x128 .f32 × Vec F S1x4096x128 .f32 × Vec F S1x4096x128 .f32 × Vec F S1x1x1 .f32 × Vec F S1x1 .f32 :=
  (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) xs, out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) xs, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) xs,
    VO0_5.read (Elt F) VO0_5.junk, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) xs)

/-- The same after the point that closes a row: the per-row result is stored. -/
def tupC (c : Dev nD) (t : Fin cfg0.N) (h0 : ¬t.val % 8 = 0) (h1 : t.val % 8 = 7) (xs : Vec F S1x1 .f32) : Vec F S1x4096x128 .f32 × Vec F S1x4096x128 .f32 × Vec F S1x4096x128 .f32 × Vec F S1x1x1 .f32 × Vec F S1x1 .f32 :=
  (out0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) xs, out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) xs, out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) xs,
    out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) xs, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) xs)

/-- What the outputs' staging buffers and the running sum hold after the body at position `n`, by recursion on the position:
    the case the position selects, the running sum taken from the position before. -/
def outsAt0 (c : Dev nD) : (n : ℕ) → n < cfg0.N → Vec F S1x4096x128 .f32 × Vec F S1x4096x128 .f32 × Vec F S1x4096x128 .f32 × Vec F S1x1x1 .f32 × Vec F S1x1 .f32
  | 0, hn => tupA m c ⟨0, hn⟩ (Nat.zero_mod _) (by show ¬(0 % 8 = 7); decide)
  | n + 1, hn =>
    if h0 : (n + 1) % 8 = 0 then tupA m c ⟨n + 1, hn⟩ h0 (by show ¬((n + 1) % 8 = 7); omega)
    else if h1 : (n + 1) % 8 = 7 then tupC m c ⟨n + 1, hn⟩ h0 h1 (outsAt0 c n (Nat.lt_of_succ_lt hn)).2.2.2.2
    else tupB m c ⟨n + 1, hn⟩ h0 h1 (outsAt0 c n (Nat.lt_of_succ_lt hn)).2.2.2.2

theorem outsAt0_A (c : Dev nD) (t : Fin cfg0.N) (h0 : t.val % 8 = 0) (h1 : ¬t.val % 8 = 7) :
    outsAt0 m c t.val t.isLt = tupA m c t h0 h1 := by
  obtain ⟨n, hn⟩ := t
  cases n with
  | zero => rfl
  | succ n => exact (dif_pos h0).trans rfl

theorem outsAt0_B (c : Dev nD) (t : Fin cfg0.N) (h0 : ¬t.val % 8 = 0) (h1 : ¬t.val % 8 = 7) :
    outsAt0 m c t.val t.isLt = tupB m c t h0 h1 (outsAt0 m c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 m c t.val t.isLt = tupC m c t h0 h1 (outsAt0 m c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_pos h1).trans rfl)

/-- The region invariant before position `n`: before the first point every scratch at anything; afterwards the running sum
    at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2)) ∗ (∃ r, prngReg c r)) := by
  cases n with
  | zero => exact absurd rfl hz
  | succ n => rfl

/-! ## The pipeline's proof data -/

/-- The proof data on core `c`: the arrays as the region finds them; after the body at point `t` each input's buffer at its
    block and the outputs' at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
    | ⟨5, _⟩ => (outsAt0 m c t.val t.isLt).2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]
theorem after0_5 (c : Dev nD) (t : Fin cfg0.N) : (dats m 0 c).after 5 t = (outsAt0 m c t.val t.isLt).2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' buffers hold their blocks; the position selects the case; the invariant hands the body
    the running sum at what the point before left (at anything where a row opens) and takes it back at this point's contents;
    the per-row result is handed back untouched except where a row closes; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 8 = 0
  · by_cases h1 : t.val % 8 = 7
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      rw [outsAt0_A m c t h0 h1]
      unfold tupA out0_A_2 out0_A_3 out0_A_4 sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t)).2.2.2.2 _ Set.univ _)
        isplitl [H0]; · iexact H0
        isplitl [H1]; · iexact H1
        isplitl [H2]; · iexists _; iexact H2
        isplitl [H3]; · iexists _; iexact H3
        isplitl [H4]; · iexists _; iexact H4
        isplitl [H5]; · iexact H5
        isplitl [HS0]; · iexact HS0
        iintro ⟨H0, H1, ⟨%e2, H2⟩, ⟨%e3, H3⟩, ⟨%e4, H4⟩, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_A_2 c _ _ _ _ _ _ _ _ _ _ _ _ _ _ _ _ _ _ _)
        isplitl [H3]
        · unfold owns; iexists _; isplitr
          swap; · iexact H3
          ipureintro; exact View.read_writes_of_cover _ _ _ _ _ (cover0_A_3 c _ _ _ _ _ _ _ _ _ _ _ _ _ _ _ _ _ _ _)
        isplitl [H4]
        · unfold owns; iexists _; isplitr
          swap; · iexact H4
          ipureintro; exact View.read_writes_of_cover _ _ _ _ _ (cover0_A_4 c _ _ _ _ _ _ _ _ _ _ _ _ _ _ _ _ _ _ _)
        iexists _; iexact H5
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t)).2.2.2.2 _ Set.univ _)
        isplitl [H0]; · iexact H0
        isplitl [H1]; · iexact H1
        isplitl [H2]; · iexists _; iexact H2
        isplitl [H3]; · iexists _; iexact H3
        isplitl [H4]; · iexists _; iexact H4
        isplitl [H5]; · iexact H5
        isplitl [HS0]; · iexists _; iexact HS0
        iintro ⟨H0, H1, ⟨%e2, H2⟩, ⟨%e3, H3⟩, ⟨%e4, H4⟩, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_A_2 c _ _ _ _ _ _ _ _ _ _ _ _ _ _ _ _ _ _ _)
        isplitl [H3]
        · unfold owns; iexists _; isplitr
          swap; · iexact H3
          ipureintro; exact View.read_writes_of_cover _ _ _ _ _ (cover0_A_3 c _ _ _ _ _ _ _ _ _ _ _ _ _ _ _ _ _ _ _)
        isplitl [H4]
        · unfold owns; iexists _; isplitr
          swap; · iexact H4
          ipureintro; exact View.read_writes_of_cover _ _ _ _ _ (cover0_A_4 c _ _ _ _ _ _ _ _ _ _ _ _ _ _ _ _ _ _ _)
        iexists _; iexact H5
  · by_cases h1 : t.val % 8 = 7
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5_C t (fun h => h0 ((hcond0_0 t).mp h)) ((hcond0_1 t).mpr h1)], after0_5]
      rw [outsAt0_C m c t h0 h1]
      unfold tupC out0_C_2 out0_C_3 out0_C_4 out0_C_5 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (iblk m c 0 t) (iblk m c 1 t) _).2.2.2.2.2 Set.univ _)
        isplitl [H0]; · iexact H0
        isplitl [H1]; · iexact H1
        isplitl [H2]; · iexists _; iexact H2
        isplitl [H3]; · iexists _; iexact H3
        isplitl [H4]; · iexists _; iexact H4
        isplitl [H5]; · iexists _; iexact H5
        isplitl [HS0]; · iexact HS0
        iintro ⟨H0, H1, ⟨%e2, H2⟩, ⟨%e3, H3⟩, ⟨%e4, H4⟩, ⟨%e5, H5⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_C_2 c _ _ _ _ _ _ _ _ _ _ _ _ _ _ _ _ _ _ _ _)
        isplitl [H3]
        · unfold owns; iexists _; isplitr
          swap; · iexact H3
          ipureintro; exact View.read_writes_of_cover _ _ _ _ _ (cover0_C_3 c _ _ _ _ _ _ _ _ _ _ _ _ _ _ _ _ _ _ _ _)
        isplitl [H4]
        · unfold owns; iexists _; isplitr
          swap; · iexact H4
          ipureintro; exact View.read_writes_of_cover _ _ _ _ _ (cover0_C_4 c _ _ _ _ _ _ _ _ _ _ _ _ _ _ _ _ _ _ _ _)
        unfold owns; iexists _; isplitr
        swap; · iexact H5
        ipureintro; exact View.read_writes_of_cover _ _ _ _ _ (cover0_C_5 c _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B m c t h0 h1]
      unfold tupB out0_B_2 out0_B_3 out0_B_4 sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk m c 0 t) (iblk m c 1 t) _).2.2.2.2 _ Set.univ _)
        isplitl [H0]; · iexact H0
        isplitl [H1]; · iexact H1
        isplitl [H2]; · iexists _; iexact H2
        isplitl [H3]; · iexists _; iexact H3
        isplitl [H4]; · iexists _; iexact H4
        isplitl [H5]; · iexact H5
        isplitl [HS0]; · iexact HS0
        iintro ⟨H0, H1, ⟨%e2, H2⟩, ⟨%e3, H3⟩, ⟨%e4, H4⟩, H5, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_B_2 c _ _ _ _ _ _ _ _ _ _ _ _ _ _ _ _ _ _ _ _)
        isplitl [H3]
        · unfold owns; iexists _; isplitr
          swap; · iexact H3
          ipureintro; exact View.read_writes_of_cover _ _ _ _ _ (cover0_B_3 c _ _ _ _ _ _ _ _ _ _ _ _ _ _ _ _ _ _ _ _)
        isplitl [H4]
        · unfold owns; iexists _; isplitr
          swap; · iexact H4
          ipureintro; exact View.read_writes_of_cover _ _ _ _ _ (cover0_B_4 c _ _ _ _ _ _ _ _ _ _ _ _ _ _ _ _ _ _ _ _)
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- Every weakly fair execution of @main terminates, and every final state has every array of the pipeline at what the proof
    data compute and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame: the program runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Frm

end
-- ==== Proof.KI.Kit.lean ====
import proofs.«119481_j45681272160447_1_alg».proof.Proof.Gen.KernelIdeal.Launch
import proofs.«119481_j45681272160447_1_alg».proof.Proof.Gen.KernelIdeal.Skeleton
import proofs.«119481_j45681272160447_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the two reshapes that
    lay the probabilities and the labels out as [2, 32768, 128]. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host stretches that follow the region, in order. -/
abbrev tailOps : List (List (HloOp τ sig (Elt F))) :=
  [hostOps1, hostOps1_1, hostOps1_2, hostOps1_3, hostOps1_4, hostOps1_5, hostOps1_6]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-- No operation of this stretch writes an array of the pipeline: each writes its own result buffer only. -/
theorem hostOps1_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
/-- No operation of this stretch writes an array of the pipeline: each writes its own result buffer only. -/
theorem hostOps1_1_keeps : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
/-- No operation of this stretch writes an array of the pipeline: each writes its own result buffer only. -/
theorem hostOps1_2_keeps : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
/-- No operation of this stretch writes an array of the pipeline: each writes its own result buffer only. -/
theorem hostOps1_3_keeps : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
/-- No operation of this stretch writes an array of the pipeline: each writes its own result buffer only. -/
theorem hostOps1_4_keeps : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
/-- No operation of this stretch writes an array of the pipeline: each writes its own result buffer only. -/
theorem hostOps1_5_keeps : ∀ op ∈ (hostOps1_5 : List (HloOp τ sig (Elt F))), ∀ w, Proc.devRef .tc (Pipeline.arrRef spec0 w) ∉ op.writes := by
  intro op hop
  simp only [hostOps1_5, List.mem_cons, List.mem_nil_iff, or_false] at hop
  rcases hop with rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
/-- No operation of this stretch writes an array of the pipeline: each writes its own result buffer only. -/
theorem hostOps1_6_keeps : ∀ op ∈ (hostOps1_6 : List (HloOp τ sig (Elt F))), ∀ w, Proc.devRef .tc (Pipeline.arrRef spec0 w) ∉ op.writes := by
  intro op hop
  simp only [hostOps1_6, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl
  · exact hostOps1_keeps op hop
  · exact hostOps1_1_keeps op hop
  · exact hostOps1_2_keeps op hop
  · exact hostOps1_3_keeps op hop
  · exact hostOps1_4_keeps op hop
  · exact hostOps1_5_keeps op hop
  · exact hostOps1_6_keeps op hop

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- No operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes `main_arg0`, and it is no window's array: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [tailOps, hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes `main_arg1`, and it is no window's array: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes `main_arg2`, and it is no window's array: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [tailOps, hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- The three argument arrays are no window's array and no later line writes them: from a frame run over any proof data
    the frame claim's post follows. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c)⟩) h

/-! ## The body's branch conditions -/

/-- The reset's condition: the second grid coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The last store's condition: the second grid coordinate is seven. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
theorem liveAt0_5_C : ∀ t : Fin cfg0.N, ¬cond0_0 (grid0.coords t) → cond0_1 (grid0.coords t) → cfg0.idle 5 (grid0.coords t) = false := by decide +kernel

/-! ## The staging and scratch memrefs -/

abbrev VO0_2 : View sig .tc .vmem S1x4096x128 .f32 := (Memref.whole cc0_stg2_0 : Memref sig .tc .vmem S1x4096x128 .f32).view
abbrev VO0_3 : View sig .tc .vmem S1x4096x128 .f32 := (Memref.whole cc0_stg3_0 : Memref sig .tc .vmem S1x4096x128 .f32).view
abbrev VO0_4 : View sig .tc .vmem S1x4096x128 .f32 := (Memref.whole cc0_stg4_0 : Memref sig .tc .vmem S1x4096x128 .f32).view
abbrev VO0_5 : View sig .tc .vmem S1x1x1 .f32 := (Memref.whole cc0_stg5_0 : Memref sig .tc .vmem S1x1x1 .f32).view
abbrev ms0_0 (t : Fin cfg0.N) : Memref sig .tc .vmem S1x4096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1 .f32 := win0_5.stage (cfg0.slots t 5)
abbrev hs0_5 (t : Fin cfg0.N) : (ms0_5 t).IsWhole := hstage0_5 ((cfg0.slots t 5).cast nbuf0_5)
/-- The scratch operand: the running sum of a row of blocks. -/
abbrev scM0_0 : Memref sig .tc .vmem S1x1 .f32 := Memref.whole cc0_scratch0
abbrev VS0_0 : View sig .tc .vmem S1x1 .f32 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Frm

end
-- ==== Proof.KI.RunA.lean ====
import proofs.«119481_j45681272160447_1_alg».proof.Proof.KI.Kit

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point that opens a row of blocks (second coordinate 0): the running sum is reset, the three pointwise outputs
    are stored whole, the block's sum is added to the running sum, the per-row result is left alone. The pieces each buffer
    ends with are what the run finds. -/
noncomputable def kernelRun0_A (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : cond0_0 i) (hc1 : ¬cond0_1 i)
    (x0 : Vec F S1x4096x128 .f32) (x1 : Vec F S1x4096x128 .i32) :
    Σ' (L2 : List (View.Piece (Elt F) S1x4096x128 .f32)) (L3 : List (View.Piece (Elt F) S1x4096x128 .f32)) (L4 : List (View.Piece (Elt F) S1x4096x128 .f32)), { LS0 : List (View.Piece (Elt F) S1x1 .f32) //
      ∀ (xi5 : Vec F S1x1x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__elementwise_kernel i arg2 harg2 arg3 harg3 arg4 harg4 arg5 harg5 arg6 harg6 arg7 harg7 arg8 harg8) K } := by
  refine ⟨?_, ?_, ?_, ?_, fun xi5 E K => ?run⟩
  case run =>
    simp only [cc0__elementwise_kernel_eq_skeleton]; unfold cc0__elementwise_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%ds0, %fs0, -, HS0⟩, Hk⟩
    obtain rfl := harg2.eq_unread hf0; obtain rfl := harg3.eq_unread hf1; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]
    · iexists _; isplitr; · ipureintro; exact harg7.read_unread _
      iexact H5
    iexists _; iexact HS0

end Cert.KernelIdeal.Frm

end
-- ==== Proof.KI.RunB.lean ====
import proofs.«119481_j45681272160447_1_alg».proof.Proof.KI.RunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point inside a row of blocks: no reset, the running sum carried from the point before. -/
noncomputable def kernelRun0_B (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : ¬cond0_1 i)
    (x0 : Vec F S1x4096x128 .f32) (x1 : Vec F S1x4096x128 .i32) (xs0 : Vec F S1x1 .f32) :
    Σ' (L2 : List (View.Piece (Elt F) S1x4096x128 .f32)) (L3 : List (View.Piece (Elt F) S1x4096x128 .f32)) (L4 : List (View.Piece (Elt F) S1x4096x128 .f32)), { LS0 : List (View.Piece (Elt F) S1x1 .f32) //
      ∀ (xi5 : Vec F S1x1x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xi5 ∗ owns (c : Thread nD τ) arg8 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__elementwise_kernel i arg2 harg2 arg3 harg3 arg4 harg4 arg5 harg5 arg6 harg6 arg7 harg7 arg8 harg8) K } := by
  refine ⟨?_, ?_, ?_, ?_, fun xi5 E K => ?run⟩
  case run =>
    simp only [cc0__elementwise_kernel_eq_skeleton]; unfold cc0__elementwise_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%fs0, %hfs0, HS0⟩, Hk⟩
    obtain rfl := harg2.eq_unread hf0; obtain rfl := harg3.eq_unread hf1; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]
    · iexists _; isplitr; · ipureintro; exact harg7.read_unread _
      iexact H5
    iexists _; iexact HS0

end Cert.KernelIdeal.Frm

end
-- ==== Proof.KI.RunC.lean ====
import proofs.«119481_j45681272160447_1_alg».proof.Proof.KI.RunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the point that closes a row of blocks (second coordinate 7): as inside the row, and the running sum is
    stored into the per-row result. -/
noncomputable def kernelRun0_C (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i)
    (x0 : Vec F S1x4096x128 .f32) (x1 : Vec F S1x4096x128 .i32) (xs0 : Vec F S1x1 .f32) :
    Σ' (L2 : List (View.Piece (Elt F) S1x4096x128 .f32)) (L3 : List (View.Piece (Elt F) S1x4096x128 .f32)) (L4 : List (View.Piece (Elt F) S1x4096x128 .f32)) (L5 : List (View.Piece (Elt F) S1x1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__elementwise_kernel i arg2 harg2 arg3 harg3 arg4 harg4 arg5 harg5 arg6 harg6 arg7 harg7 arg8 harg8) K } := by
  refine ⟨?_, ?_, ?_, ?_, ?_, fun E K => ?run⟩
  case run =>
    simp only [cc0__elementwise_kernel_eq_skeleton]; unfold cc0__elementwise_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]; · iexists _; iexact H5
    iexists _; iexact HS0

end Cert.KernelIdeal.Frm

end
-- ==== Proof.KI.Frame.lean ====
import proofs.«119481_j45681272160447_1_alg».proof.Proof.KI.RunC

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in each buffer -/

/-- Case A's stores into output window 2 cover its block. -/
theorem cover0_A_2 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : cond0_0 i) (hc1 : ¬cond0_1 i)
    (x0 : Vec F S1x4096x128 .f32) (x1 : Vec F S1x4096x128 .i32) (y : S1x4096x128.Idx) :
    ∃ pc ∈ (kernelRun0_A c i arg2 harg2 arg3 harg3 arg4 harg4 arg5 harg5 arg6 harg6 arg7 harg7 arg8 harg8 hc0 hc1 x0 x1).1, y ∈ pc.1.set :=
  View.cover_of_tiledL (kernelRun0_A c i arg2 harg2 arg3 harg3 arg4 harg4 arg5 harg5 arg6 harg6 arg7 harg7 arg8 harg8 hc0 hc1 x0 x1).1 S1x4096x128.size (by sl_kernel_rfl) y

/-- What case A leaves in output window 2's staging buffer. -/
def out0_A_2 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : cond0_0 i) (hc1 : ¬cond0_1 i)
    (x0 : Vec F S1x4096x128 .f32) (x1 : Vec F S1x4096x128 .i32) : Vec F S1x4096x128 .f32 :=
  VO0_2.read (Elt F) (VO0_2.writes (Elt F) VO0_2.junk (kernelRun0_A c i arg2 harg2 arg3 harg3 arg4 harg4 arg5 harg5 arg6 harg6 arg7 harg7 arg8 harg8 hc0 hc1 x0 x1).1)

/-- Case A's stores into output window 3 cover its block. -/
theorem cover0_A_3 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : cond0_0 i) (hc1 : ¬cond0_1 i)
    (x0 : Vec F S1x4096x128 .f32) (x1 : Vec F S1x4096x128 .i32) (y : S1x4096x128.Idx) :
    ∃ pc ∈ (kernelRun0_A c i arg2 harg2 arg3 harg3 arg4 harg4 arg5 harg5 arg6 harg6 arg7 harg7 arg8 harg8 hc0 hc1 x0 x1).2.1, y ∈ pc.1.set :=
  View.cover_of_tiledL (kernelRun0_A c i arg2 harg2 arg3 harg3 arg4 harg4 arg5 harg5 arg6 harg6 arg7 harg7 arg8 harg8 hc0 hc1 x0 x1).2.1 S1x4096x128.size (by sl_kernel_rfl) y

/-- What case A leaves in output window 3's staging buffer. -/
def out0_A_3 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : cond0_0 i) (hc1 : ¬cond0_1 i)
    (x0 : Vec F S1x4096x128 .f32) (x1 : Vec F S1x4096x128 .i32) : Vec F S1x4096x128 .f32 :=
  VO0_3.read (Elt F) (VO0_3.writes (Elt F) VO0_3.junk (kernelRun0_A c i arg2 harg2 arg3 harg3 arg4 harg4 arg5 harg5 arg6 harg6 arg7 harg7 arg8 harg8 hc0 hc1 x0 x1).2.1)

/-- Case A's stores into output window 4 cover its block. -/
theorem cover0_A_4 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : cond0_0 i) (hc1 : ¬cond0_1 i)
    (x0 : Vec F S1x4096x128 .f32) (x1 : Vec F S1x4096x128 .i32) (y : S1x4096x128.Idx) :
    ∃ pc ∈ (kernelRun0_A c i arg2 harg2 arg3 harg3 arg4 harg4 arg5 harg5 arg6 harg6 arg7 harg7 arg8 harg8 hc0 hc1 x0 x1).2.2.1, y ∈ pc.1.set :=
  View.cover_of_tiledL (kernelRun0_A c i arg2 harg2 arg3 harg3 arg4 harg4 arg5 harg5 arg6 harg6 arg7 harg7 arg8 harg8 hc0 hc1 x0 x1).2.2.1 S1x4096x128.size (by sl_kernel_rfl) y

/-- What case A leaves in output window 4's staging buffer. -/
def out0_A_4 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : cond0_0 i) (hc1 : ¬cond0_1 i)
    (x0 : Vec F S1x4096x128 .f32) (x1 : Vec F S1x4096x128 .i32) : Vec F S1x4096x128 .f32 :=
  VO0_4.read (Elt F) (VO0_4.writes (Elt F) VO0_4.junk (kernelRun0_A c i arg2 harg2 arg3 harg3 arg4 harg4 arg5 harg5 arg6 harg6 arg7 harg7 arg8 harg8 hc0 hc1 x0 x1).2.2.1)

/-- Case A's stores into the running sum cover it. -/
theorem scover0_A_0 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : cond0_0 i) (hc1 : ¬cond0_1 i)
    (x0 : Vec F S1x4096x128 .f32) (x1 : Vec F S1x4096x128 .i32) (y : S1x1.Idx) :
    ∃ pc ∈ (kernelRun0_A c i arg2 harg2 arg3 harg3 arg4 harg4 arg5 harg5 arg6 harg6 arg7 harg7 arg8 harg8 hc0 hc1 x0 x1).2.2.2.1, y ∈ pc.1.set :=
  View.cover_of_tiledL (kernelRun0_A c i arg2 harg2 arg3 harg3 arg4 harg4 arg5 harg5 arg6 harg6 arg7 harg7 arg8 harg8 hc0 hc1 x0 x1).2.2.2.1 S1x1.size (by sl_kernel_rfl) y

/-- What case A leaves in the running sum. -/
def sout0_A_0 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : cond0_0 i) (hc1 : ¬cond0_1 i)
    (x0 : Vec F S1x4096x128 .f32) (x1 : Vec F S1x4096x128 .i32) : Vec F S1x1 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1).2.2.2.1)

/-- Case B's stores into output window 2 cover its block. -/
theorem cover0_B_2 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : ¬cond0_1 i)
    (x0 : Vec F S1x4096x128 .f32) (x1 : Vec F S1x4096x128 .i32) (xs0 : Vec F S1x1 .f32) (y : S1x4096x128.Idx) :
    ∃ pc ∈ (kernelRun0_B c i arg2 harg2 arg3 harg3 arg4 harg4 arg5 harg5 arg6 harg6 arg7 harg7 arg8 harg8 hc0 hc1 x0 x1 xs0).1, y ∈ pc.1.set :=
  View.cover_of_tiledL (kernelRun0_B c i arg2 harg2 arg3 harg3 arg4 harg4 arg5 harg5 arg6 harg6 arg7 harg7 arg8 harg8 hc0 hc1 x0 x1 xs0).1 S1x4096x128.size (by sl_kernel_rfl) y

/-- What case B leaves in output window 2's staging buffer. -/
def out0_B_2 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : ¬cond0_1 i)
    (x0 : Vec F S1x4096x128 .f32) (x1 : Vec F S1x4096x128 .i32) (xs0 : Vec F S1x1 .f32) : Vec F S1x4096x128 .f32 :=
  VO0_2.read (Elt F) (VO0_2.writes (Elt F) VO0_2.junk (kernelRun0_B c i arg2 harg2 arg3 harg3 arg4 harg4 arg5 harg5 arg6 harg6 arg7 harg7 arg8 harg8 hc0 hc1 x0 x1 xs0).1)

/-- Case B's stores into output window 3 cover its block. -/
theorem cover0_B_3 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : ¬cond0_1 i)
    (x0 : Vec F S1x4096x128 .f32) (x1 : Vec F S1x4096x128 .i32) (xs0 : Vec F S1x1 .f32) (y : S1x4096x128.Idx) :
    ∃ pc ∈ (kernelRun0_B c i arg2 harg2 arg3 harg3 arg4 harg4 arg5 harg5 arg6 harg6 arg7 harg7 arg8 harg8 hc0 hc1 x0 x1 xs0).2.1, y ∈ pc.1.set :=
  View.cover_of_tiledL (kernelRun0_B c i arg2 harg2 arg3 harg3 arg4 harg4 arg5 harg5 arg6 harg6 arg7 harg7 arg8 harg8 hc0 hc1 x0 x1 xs0).2.1 S1x4096x128.size (by sl_kernel_rfl) y

/-- What case B leaves in output window 3's staging buffer. -/
def out0_B_3 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : ¬cond0_1 i)
    (x0 : Vec F S1x4096x128 .f32) (x1 : Vec F S1x4096x128 .i32) (xs0 : Vec F S1x1 .f32) : Vec F S1x4096x128 .f32 :=
  VO0_3.read (Elt F) (VO0_3.writes (Elt F) VO0_3.junk (kernelRun0_B c i arg2 harg2 arg3 harg3 arg4 harg4 arg5 harg5 arg6 harg6 arg7 harg7 arg8 harg8 hc0 hc1 x0 x1 xs0).2.1)

/-- Case B's stores into output window 4 cover its block. -/
theorem cover0_B_4 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : ¬cond0_1 i)
    (x0 : Vec F S1x4096x128 .f32) (x1 : Vec F S1x4096x128 .i32) (xs0 : Vec F S1x1 .f32) (y : S1x4096x128.Idx) :
    ∃ pc ∈ (kernelRun0_B c i arg2 harg2 arg3 harg3 arg4 harg4 arg5 harg5 arg6 harg6 arg7 harg7 arg8 harg8 hc0 hc1 x0 x1 xs0).2.2.1, y ∈ pc.1.set :=
  View.cover_of_tiledL (kernelRun0_B c i arg2 harg2 arg3 harg3 arg4 harg4 arg5 harg5 arg6 harg6 arg7 harg7 arg8 harg8 hc0 hc1 x0 x1 xs0).2.2.1 S1x4096x128.size (by sl_kernel_rfl) y

/-- What case B leaves in output window 4's staging buffer. -/
def out0_B_4 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : ¬cond0_1 i)
    (x0 : Vec F S1x4096x128 .f32) (x1 : Vec F S1x4096x128 .i32) (xs0 : Vec F S1x1 .f32) : Vec F S1x4096x128 .f32 :=
  VO0_4.read (Elt F) (VO0_4.writes (Elt F) VO0_4.junk (kernelRun0_B c i arg2 harg2 arg3 harg3 arg4 harg4 arg5 harg5 arg6 harg6 arg7 harg7 arg8 harg8 hc0 hc1 x0 x1 xs0).2.2.1)

/-- Case B's stores into the running sum cover it. -/
theorem scover0_B_0 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : ¬cond0_1 i)
    (x0 : Vec F S1x4096x128 .f32) (x1 : Vec F S1x4096x128 .i32) (xs0 : Vec F S1x1 .f32) (y : S1x1.Idx) :
    ∃ pc ∈ (kernelRun0_B c i arg2 harg2 arg3 harg3 arg4 harg4 arg5 harg5 arg6 harg6 arg7 harg7 arg8 harg8 hc0 hc1 x0 x1 xs0).2.2.2.1, y ∈ pc.1.set :=
  View.cover_of_tiledL (kernelRun0_B c i arg2 harg2 arg3 harg3 arg4 harg4 arg5 harg5 arg6 harg6 arg7 harg7 arg8 harg8 hc0 hc1 x0 x1 xs0).2.2.2.1 S1x1.size (by sl_kernel_rfl) y

/-- What case B leaves in the running sum. -/
def sout0_B_0 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : ¬cond0_1 i)
    (x0 : Vec F S1x4096x128 .f32) (x1 : Vec F S1x4096x128 .i32) (xs0 : Vec F S1x1 .f32) : Vec F S1x1 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 xs0).2.2.2.1)

/-- Case C's stores into output window 2 cover its block. -/
theorem cover0_C_2 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i)
    (x0 : Vec F S1x4096x128 .f32) (x1 : Vec F S1x4096x128 .i32) (xs0 : Vec F S1x1 .f32) (y : S1x4096x128.Idx) :
    ∃ pc ∈ (kernelRun0_C c i arg2 harg2 arg3 harg3 arg4 harg4 arg5 harg5 arg6 harg6 arg7 harg7 arg8 harg8 hc0 hc1 x0 x1 xs0).1, y ∈ pc.1.set :=
  View.cover_of_tiledL (kernelRun0_C c i arg2 harg2 arg3 harg3 arg4 harg4 arg5 harg5 arg6 harg6 arg7 harg7 arg8 harg8 hc0 hc1 x0 x1 xs0).1 S1x4096x128.size (by sl_kernel_rfl) y

/-- What case C leaves in output window 2's staging buffer. -/
def out0_C_2 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i)
    (x0 : Vec F S1x4096x128 .f32) (x1 : Vec F S1x4096x128 .i32) (xs0 : Vec F S1x1 .f32) : Vec F S1x4096x128 .f32 :=
  VO0_2.read (Elt F) (VO0_2.writes (Elt F) VO0_2.junk (kernelRun0_C c i arg2 harg2 arg3 harg3 arg4 harg4 arg5 harg5 arg6 harg6 arg7 harg7 arg8 harg8 hc0 hc1 x0 x1 xs0).1)

/-- Case C's stores into output window 3 cover its block. -/
theorem cover0_C_3 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i)
    (x0 : Vec F S1x4096x128 .f32) (x1 : Vec F S1x4096x128 .i32) (xs0 : Vec F S1x1 .f32) (y : S1x4096x128.Idx) :
    ∃ pc ∈ (kernelRun0_C c i arg2 harg2 arg3 harg3 arg4 harg4 arg5 harg5 arg6 harg6 arg7 harg7 arg8 harg8 hc0 hc1 x0 x1 xs0).2.1, y ∈ pc.1.set :=
  View.cover_of_tiledL (kernelRun0_C c i arg2 harg2 arg3 harg3 arg4 harg4 arg5 harg5 arg6 harg6 arg7 harg7 arg8 harg8 hc0 hc1 x0 x1 xs0).2.1 S1x4096x128.size (by sl_kernel_rfl) y

/-- What case C leaves in output window 3's staging buffer. -/
def out0_C_3 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i)
    (x0 : Vec F S1x4096x128 .f32) (x1 : Vec F S1x4096x128 .i32) (xs0 : Vec F S1x1 .f32) : Vec F S1x4096x128 .f32 :=
  VO0_3.read (Elt F) (VO0_3.writes (Elt F) VO0_3.junk (kernelRun0_C c i arg2 harg2 arg3 harg3 arg4 harg4 arg5 harg5 arg6 harg6 arg7 harg7 arg8 harg8 hc0 hc1 x0 x1 xs0).2.1)

/-- Case C's stores into output window 4 cover its block. -/
theorem cover0_C_4 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i)
    (x0 : Vec F S1x4096x128 .f32) (x1 : Vec F S1x4096x128 .i32) (xs0 : Vec F S1x1 .f32) (y : S1x4096x128.Idx) :
    ∃ pc ∈ (kernelRun0_C c i arg2 harg2 arg3 harg3 arg4 harg4 arg5 harg5 arg6 harg6 arg7 harg7 arg8 harg8 hc0 hc1 x0 x1 xs0).2.2.1, y ∈ pc.1.set :=
  View.cover_of_tiledL (kernelRun0_C c i arg2 harg2 arg3 harg3 arg4 harg4 arg5 harg5 arg6 harg6 arg7 harg7 arg8 harg8 hc0 hc1 x0 x1 xs0).2.2.1 S1x4096x128.size (by sl_kernel_rfl) y

/-- What case C leaves in output window 4's staging buffer. -/
def out0_C_4 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i)
    (x0 : Vec F S1x4096x128 .f32) (x1 : Vec F S1x4096x128 .i32) (xs0 : Vec F S1x1 .f32) : Vec F S1x4096x128 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 xs0).2.2.1)

/-- Case C's stores into output window 5 cover its block. -/
theorem cover0_C_5 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i)
    (x0 : Vec F S1x4096x128 .f32) (x1 : Vec F S1x4096x128 .i32) (xs0 : Vec F S1x1 .f32) (y : S1x1x1.Idx) :
    ∃ pc ∈ (kernelRun0_C c i arg2 harg2 arg3 harg3 arg4 harg4 arg5 harg5 arg6 harg6 arg7 harg7 arg8 harg8 hc0 hc1 x0 x1 xs0).2.2.2.1, y ∈ pc.1.set :=
  View.cover_of_tiledL (kernelRun0_C c i arg2 harg2 arg3 harg3 arg4 harg4 arg5 harg5 arg6 harg6 arg7 harg7 arg8 harg8 hc0 hc1 x0 x1 xs0).2.2.2.1 S1x1x1.size (by sl_kernel_rfl) y

/-- What case C leaves in output window 5's staging buffer. -/
def out0_C_5 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i)
    (x0 : Vec F S1x4096x128 .f32) (x1 : Vec F S1x4096x128 .i32) (xs0 : Vec F S1x1 .f32) : Vec F S1x1x1 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 xs0).2.2.2.1)

/-- Case C's stores into the running sum cover it. -/
theorem scover0_C_0 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i)
    (x0 : Vec F S1x4096x128 .f32) (x1 : Vec F S1x4096x128 .i32) (xs0 : Vec F S1x1 .f32) (y : S1x1.Idx) :
    ∃ pc ∈ (kernelRun0_C c i arg2 harg2 arg3 harg3 arg4 harg4 arg5 harg5 arg6 harg6 arg7 harg7 arg8 harg8 hc0 hc1 x0 x1 xs0).2.2.2.2.1, y ∈ pc.1.set :=
  View.cover_of_tiledL (kernelRun0_C c i arg2 harg2 arg3 harg3 arg4 harg4 arg5 harg5 arg6 harg6 arg7 harg7 arg8 harg8 hc0 hc1 x0 x1 xs0).2.2.2.2.1 S1x1.size (by sl_kernel_rfl) y

/-- What case C leaves in the running sum. -/
def sout0_C_0 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i)
    (x0 : Vec F S1x4096x128 .f32) (x1 : Vec F S1x4096x128 .i32) (xs0 : Vec F S1x1 .f32) : Vec F S1x1 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 xs0).2.2.2.2.1)

/-! ## What the buffers hold after each point -/

/-- The three pointwise outputs, the per-row result and the running sum after a point that opens a row. The per-row result
    is not stored there: its component is a placeholder nothing reads. -/
def tupA (c : Dev nD) (t : Fin cfg0.N) (h0 : t.val % 8 = 0) (h1 : ¬t.val % 8 = 7) : Vec F S1x4096x128 .f32 × Vec F S1x4096x128 .f32 × Vec F S1x4096x128 .f32 × Vec F S1x1x1 .f32 × Vec F S1x1 .f32 :=
  (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t), out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t),
    VO0_5.read (Elt F) VO0_5.junk, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t))

/-- The same after a point inside a row, over the running sum `xs` the point before left. -/
def tupB (c : Dev nD) (t : Fin cfg0.N) (h0 : ¬t.val % 8 = 0) (h1 : ¬t.val % 8 = 7) (xs : Vec F S1x1 .f32) : Vec F S1x4096x128 .f32 × Vec F S1x4096x128 .f32 × Vec F S1x4096x128 .f32 × Vec F S1x1x1 .f32 × Vec F S1x1 .f32 :=
  (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) xs, out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) xs, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) xs,
    VO0_5.read (Elt F) VO0_5.junk, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) xs)

/-- The same after the point that closes a row: the per-row result is stored. -/
def tupC (c : Dev nD) (t : Fin cfg0.N) (h0 : ¬t.val % 8 = 0) (h1 : t.val % 8 = 7) (xs : Vec F S1x1 .f32) : Vec F S1x4096x128 .f32 × Vec F S1x4096x128 .f32 × Vec F S1x4096x128 .f32 × Vec F S1x1x1 .f32 × Vec F S1x1 .f32 :=
  (out0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) xs, out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) xs, out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) xs,
    out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) xs, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) xs)

/-- What the outputs' staging buffers and the running sum hold after the body at position `n`, by recursion on the position:
    the case the position selects, the running sum taken from the position before. -/
def outsAt0 (c : Dev nD) : (n : ℕ) → n < cfg0.N → Vec F S1x4096x128 .f32 × Vec F S1x4096x128 .f32 × Vec F S1x4096x128 .f32 × Vec F S1x1x1 .f32 × Vec F S1x1 .f32
  | 0, hn => tupA m c ⟨0, hn⟩ (Nat.zero_mod _) (by show ¬(0 % 8 = 7); decide)
  | n + 1, hn =>
    if h0 : (n + 1) % 8 = 0 then tupA m c ⟨n + 1, hn⟩ h0 (by show ¬((n + 1) % 8 = 7); omega)
    else if h1 : (n + 1) % 8 = 7 then tupC m c ⟨n + 1, hn⟩ h0 h1 (outsAt0 c n (Nat.lt_of_succ_lt hn)).2.2.2.2
    else tupB m c ⟨n + 1, hn⟩ h0 h1 (outsAt0 c n (Nat.lt_of_succ_lt hn)).2.2.2.2

theorem outsAt0_A (c : Dev nD) (t : Fin cfg0.N) (h0 : t.val % 8 = 0) (h1 : ¬t.val % 8 = 7) :
    outsAt0 m c t.val t.isLt = tupA m c t h0 h1 := by
  obtain ⟨n, hn⟩ := t
  cases n with
  | zero => rfl
  | succ n => exact (dif_pos h0).trans rfl

theorem outsAt0_B (c : Dev nD) (t : Fin cfg0.N) (h0 : ¬t.val % 8 = 0) (h1 : ¬t.val % 8 = 7) :
    outsAt0 m c t.val t.isLt = tupB m c t h0 h1 (outsAt0 m c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 m c t.val t.isLt = tupC m c t h0 h1 (outsAt0 m c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_pos h1).trans rfl)

/-- The region invariant before position `n`: before the first point every scratch at anything; afterwards the running sum
    at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2)) ∗ (∃ r, prngReg c r)) := by
  cases n with
  | zero => exact absurd rfl hz
  | succ n => rfl

/-! ## The pipeline's proof data -/

/-- The proof data on core `c`: the arrays as the region finds them; after the body at point `t` each input's buffer at its
    block and the outputs' at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
    | ⟨5, _⟩ => (outsAt0 m c t.val t.isLt).2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]
theorem after0_5 (c : Dev nD) (t : Fin cfg0.N) : (dats m 0 c).after 5 t = (outsAt0 m c t.val t.isLt).2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' buffers hold their blocks; the position selects the case; the invariant hands the body
    the running sum at what the point before left (at anything where a row opens) and takes it back at this point's contents;
    the per-row result is handed back untouched except where a row closes; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 8 = 0
  · by_cases h1 : t.val % 8 = 7
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      rw [outsAt0_A m c t h0 h1]
      unfold tupA out0_A_2 out0_A_3 out0_A_4 sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t)).2.2.2.2 _ Set.univ _)
        isplitl [H0]; · iexact H0
        isplitl [H1]; · iexact H1
        isplitl [H2]; · iexists _; iexact H2
        isplitl [H3]; · iexists _; iexact H3
        isplitl [H4]; · iexists _; iexact H4
        isplitl [H5]; · iexact H5
        isplitl [HS0]; · iexact HS0
        iintro ⟨H0, H1, ⟨%e2, H2⟩, ⟨%e3, H3⟩, ⟨%e4, H4⟩, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_A_2 c _ _ _ _ _ _ _ _ _ _ _ _ _ _ _ _ _ _ _)
        isplitl [H3]
        · unfold owns; iexists _; isplitr
          swap; · iexact H3
          ipureintro; exact View.read_writes_of_cover _ _ _ _ _ (cover0_A_3 c _ _ _ _ _ _ _ _ _ _ _ _ _ _ _ _ _ _ _)
        isplitl [H4]
        · unfold owns; iexists _; isplitr
          swap; · iexact H4
          ipureintro; exact View.read_writes_of_cover _ _ _ _ _ (cover0_A_4 c _ _ _ _ _ _ _ _ _ _ _ _ _ _ _ _ _ _ _)
        iexists _; iexact H5
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t)).2.2.2.2 _ Set.univ _)
        isplitl [H0]; · iexact H0
        isplitl [H1]; · iexact H1
        isplitl [H2]; · iexists _; iexact H2
        isplitl [H3]; · iexists _; iexact H3
        isplitl [H4]; · iexists _; iexact H4
        isplitl [H5]; · iexact H5
        isplitl [HS0]; · iexists _; iexact HS0
        iintro ⟨H0, H1, ⟨%e2, H2⟩, ⟨%e3, H3⟩, ⟨%e4, H4⟩, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_A_2 c _ _ _ _ _ _ _ _ _ _ _ _ _ _ _ _ _ _ _)
        isplitl [H3]
        · unfold owns; iexists _; isplitr
          swap; · iexact H3
          ipureintro; exact View.read_writes_of_cover _ _ _ _ _ (cover0_A_3 c _ _ _ _ _ _ _ _ _ _ _ _ _ _ _ _ _ _ _)
        isplitl [H4]
        · unfold owns; iexists _; isplitr
          swap; · iexact H4
          ipureintro; exact View.read_writes_of_cover _ _ _ _ _ (cover0_A_4 c _ _ _ _ _ _ _ _ _ _ _ _ _ _ _ _ _ _ _)
        iexists _; iexact H5
  · by_cases h1 : t.val % 8 = 7
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5_C t (fun h => h0 ((hcond0_0 t).mp h)) ((hcond0_1 t).mpr h1)], after0_5]
      rw [outsAt0_C m c t h0 h1]
      unfold tupC out0_C_2 out0_C_3 out0_C_4 out0_C_5 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (iblk m c 0 t) (iblk m c 1 t) _).2.2.2.2.2 Set.univ _)
        isplitl [H0]; · iexact H0
        isplitl [H1]; · iexact H1
        isplitl [H2]; · iexists _; iexact H2
        isplitl [H3]; · iexists _; iexact H3
        isplitl [H4]; · iexists _; iexact H4
        isplitl [H5]; · iexists _; iexact H5
        isplitl [HS0]; · iexact HS0
        iintro ⟨H0, H1, ⟨%e2, H2⟩, ⟨%e3, H3⟩, ⟨%e4, H4⟩, ⟨%e5, H5⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_C_2 c _ _ _ _ _ _ _ _ _ _ _ _ _ _ _ _ _ _ _ _)
        isplitl [H3]
        · unfold owns; iexists _; isplitr
          swap; · iexact H3
          ipureintro; exact View.read_writes_of_cover _ _ _ _ _ (cover0_C_3 c _ _ _ _ _ _ _ _ _ _ _ _ _ _ _ _ _ _ _ _)
        isplitl [H4]
        · unfold owns; iexists _; isplitr
          swap; · iexact H4
          ipureintro; exact View.read_writes_of_cover _ _ _ _ _ (cover0_C_4 c _ _ _ _ _ _ _ _ _ _ _ _ _ _ _ _ _ _ _ _)
        unfold owns; iexists _; isplitr
        swap; · iexact H5
        ipureintro; exact View.read_writes_of_cover _ _ _ _ _ (cover0_C_5 c _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B m c t h0 h1]
      unfold tupB out0_B_2 out0_B_3 out0_B_4 sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk m c 0 t) (iblk m c 1 t) _).2.2.2.2 _ Set.univ _)
        isplitl [H0]; · iexact H0
        isplitl [H1]; · iexact H1
        isplitl [H2]; · iexists _; iexact H2
        isplitl [H3]; · iexists _; iexact H3
        isplitl [H4]; · iexists _; iexact H4
        isplitl [H5]; · iexact H5
        isplitl [HS0]; · iexact HS0
        iintro ⟨H0, H1, ⟨%e2, H2⟩, ⟨%e3, H3⟩, ⟨%e4, H4⟩, H5, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_B_2 c _ _ _ _ _ _ _ _ _ _ _ _ _ _ _ _ _ _ _ _)
        isplitl [H3]
        · unfold owns; iexists _; isplitr
          swap; · iexact H3
          ipureintro; exact View.read_writes_of_cover _ _ _ _ _ (cover0_B_3 c _ _ _ _ _ _ _ _ _ _ _ _ _ _ _ _ _ _ _ _)
        isplitl [H4]
        · unfold owns; iexists _; isplitr
          swap; · iexact H4
          ipureintro; exact View.read_writes_of_cover _ _ _ _ _ (cover0_B_4 c _ _ _ _ _ _ _ _ _ _ _ _ _ _ _ _ _ _ _ _)
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- Every weakly fair execution of @main terminates, and every final state has every array of the pipeline at what the proof
    data compute and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame: the program runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Frm

end
-- ==== Proof.Loss.lean ====
/-
  The loss both programs end in, as ONE function of four quantities: the sum over the negative rows,
  and per bag the count of negative rows, the count of positive rows and the sum over positive rows.

    numNeg  = Σ_b [negCnt b > 0]                     numPos = Σ_b [posCnt b > 0]
    negLoss = if numNeg > 0 then −(1 · negSum) / max(numNeg, 1) else 0
    perBag b = if posCnt b > 0 then log (1 − min(exp (posSeg b), 1) + ε) else 0
    posLoss = if numPos > 0 then −(1 · Σ_b perBag b) / max(numPos, 1) else 0
    loss    = negLoss + posLoss

  It is stated once, over any float family, with the operations and literals of the printed text, so that
  the two programs' results are this function at their own four quantities and the comparison of the
  programs is the comparison of those quantities.
-/
import Idealize.ShloMosaic.PureOps

noncomputable section

namespace Cert.Loss

open Idealize.ShloMosaic

variable {F : FTy → Type} [FloatOps F]

/-- The shape of a scalar. -/
abbrev S_ : Shape := ⟨0, ![]⟩
/-- One entry per bag. -/
abbrev S65536 : Shape := ⟨1, ![65536]⟩

/-- How many bags have a positive count: the sum over bags of the indicator of `cnt b > 0`. -/
def numOf (hb : S_.BroadcastsInDim S65536 (![] : Fin 0 → Fin S65536.rank)) (hr : S65536.ReducesTo [0] S_)
    (h0 : 0 < S_.numel) (cnt : FVec F S65536 .f32) : FVec F S_ .f32 :=
  Host.reduceAdd (F := F)
    (uitofp (F := F) .f32
      (cmpf (F := F) .ogt cnt (broadcastInDim S65536 ![] hb (constant (F := F) S_ .f32 0x00000000#32))))
    (constant (F := F) S_ .f32 0x00000000#32) hr h0

/-- `−(1 · total) / max(num, 1)` where `num > 0`, else `0`. -/
def meanOf (num total : FVec F S_ .f32) : FVec F S_ .f32 :=
  select (cmpf (F := F) .ogt num (constant (F := F) S_ .f32 0x00000000#32))
    (Host.divf (F := F)
      (Host.negf (F := F) (mulf (F := F) (constant (F := F) S_ .f32 0x3F800000#32) total))
      (maximumf (F := F) num (constant (F := F) S_ .f32 0x3F800000#32)))
    (constant (F := F) S_ .f32 0x00000000#32)

/-- Per bag `log (1 − min(exp (posSeg b), 1) + ε)` where the bag has a positive row, else `0`. -/
def perBagOf (hb : S_.BroadcastsInDim S65536 (![] : Fin 0 → Fin S65536.rank))
    (posCnt posSeg : FVec F S65536 .f32) : FVec F S65536 .f32 :=
  select (cmpf (F := F) .ogt posCnt (broadcastInDim S65536 ![] hb (constant (F := F) S_ .f32 0x00000000#32)))
    (Host.log (F := F)
      (addf (F := F)
        (subf (F := F) (broadcastInDim S65536 ![] hb (constant (F := F) S_ .f32 0x3F800000#32))
          (minimumf (F := F) (Host.exp (F := F) posSeg)
            (broadcastInDim S65536 ![] hb (constant (F := F) S_ .f32 0x3F800000#32))))
        (broadcastInDim S65536 ![] hb (constant (F := F) S_ .f32 0x33D6BF95#32))))
    (broadcastInDim S65536 ![] hb (constant (F := F) S_ .f32 0x00000000#32))

/-- The loss: the negative part's mean plus the positive part's mean. -/
def lossOf (hb : S_.BroadcastsInDim S65536 (![] : Fin 0 → Fin S65536.rank)) (hr : S65536.ReducesTo [0] S_)
    (h0 : 0 < S_.numel) (negSum : FVec F S_ .f32) (negCnt posCnt posSeg : FVec F S65536 .f32) :
    FVec F S_ .f32 :=
  addf (F := F)
    (meanOf (F := F) (numOf (F := F) hb hr h0 negCnt) negSum)
    (meanOf (F := F) (numOf (F := F) hb hr h0 posCnt)
      (Host.reduceAdd (F := F) (perBagOf (F := F) hb posCnt posSeg)
        (constant (F := F) S_ .f32 0x00000000#32) hr h0))

end Cert.Loss

end
-- ==== Proof.KI.Tail.lean ====
/-
  The host operations after the region, read as ONE function of what the region leaves.

  The region writes three [2, 32768, 128] arrays (per row: the indicator of a negative row, the indicator of a
  positive row, and the positive row's log term) and a [2, 1, 1] array of partial sums of the negative rows' log
  terms. After it, @main
    * sums the partial sums:                                            negSumK,
    * flattens the three arrays to one column each, stacks the columns, and adds every row of the stack into its
      bag's row of a zero [65536, 3] array (one scatter-add for all three):   stackK,
    * takes the three columns of that array:                            colK0, colK1, colK2,
  and ends in the loss function `Cert.Loss.lossOf` at those four quantities. The loss function is never opened.
-/
import proofs.«119481_j45681272160447_1_alg».proof.Proof.KI.Kit
import proofs.«119481_j45681272160447_1_alg».proof.Proof.Loss

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The four quantities -/

/-- The sum of the region's partial sums of the negative rows' log terms. -/
def negSumK (a5 : FVec F S2x1x1 .f32) : FVec F S_ .f32 :=
  Host.reduceAdd (F := F) a5 (constant (F := F) S_ .f32 0x00000000#32) reducesTo_S2x1x1_S_d0_1_2 h_S_

/-- One of the region's arrays as a column: flattened to [8388608], then [8388608, 1]. -/
def colOf (a : FVec F S2x32768x128 .f32) : FVec F S8388608x1 .f32 :=
  broadcastInDim S8388608x1 ![0] bcast_S8388608_S8388608x1_0
    (shapeCast S8388608 a shapeCasts_S2x32768x128_S8388608)

/-- The three columns side by side, every row added into its bag's row of a zero [65536, 3] array. -/
def stackK (a2 a3 a4 : FVec F S2x32768x128 .f32) (bag : IVec S8388608 32) : FVec F S65536x3 .f32 :=
  Host.scatterAdd (F := F) scatter_S65536x3_S8388608x1_S8388608x3_1_0_0_1
    (broadcastInDim S65536x3 ![] bcast_S_S65536x3 (constant (F := F) S_ .f32 0x00000000#32))
    (broadcastInDim S8388608x1 ![0] bcast_S8388608_S8388608x1_0 bag)
    (concatenate S8388608x3 1
      [⟨S8388608x1, colOf (F := F) a2⟩, ⟨S8388608x1, colOf (F := F) a3⟩, ⟨S8388608x1, colOf (F := F) a4⟩]
      concatenates_S8388608x1_S8388608x1_S8388608x1_S8388608x3_d1)

/-- Column 0 of the stack: per bag, the count of its negative rows. -/
def colK0 (a2 a3 a4 : FVec F S2x32768x128 .f32) (bag : IVec S8388608 32) : FVec F S65536 .f32 :=
  shapeCast S65536
    (extractStridedSlice S65536x1 ![0, 0] (stackK (F := F) a2 a3 a4 bag) slices_S65536x3_S65536x1_0_0)
    shapeCasts_S65536x1_S65536

/-- Column 1 of the stack: per bag, the count of its positive rows. -/
def colK1 (a2 a3 a4 : FVec F S2x32768x128 .f32) (bag : IVec S8388608 32) : FVec F S65536 .f32 :=
  shapeCast S65536
    (extractStridedSlice S65536x1 ![0, 1] (stackK (F := F) a2 a3 a4 bag) slices_S65536x3_S65536x1_0_1)
    shapeCasts_S65536x1_S65536

/-- Column 2 of the stack: per bag, the sum of its positive rows' log terms. -/
def colK2 (a2 a3 a4 : FVec F S2x32768x128 .f32) (bag : IVec S8388608 32) : FVec F S65536 .f32 :=
  shapeCast S65536
    (extractStridedSlice S65536x1 ![0, 2] (stackK (F := F) a2 a3 a4 bag) slices_S65536x3_S65536x1_0_2)
    shapeCasts_S65536x1_S65536

/-- What the host operations after the region compute from the region's four output arrays and the bag ids. -/
def tailFn (a2 a3 a4 : FVec F S2x32768x128 .f32) (a5 : FVec F S2x1x1 .f32) (bag : IVec S8388608 32) :
    FVec F S_ .f32 :=
  Cert.Loss.lossOf (F := F) bcast_S_S65536 reducesTo_S65536_S_d0 h_S_ (negSumK (F := F) a5)
    (colK0 (F := F) a2 a3 a4 bag) (colK1 (F := F) a2 a3 a4 bag) (colK2 (F := F) a2 a3 a4 bag)

/-! ## Reading the operations -/

/-- A three-operand operation's result with each operand's contents at its own reference. -/
theorem nary3_result {x a b y : Ref sig .tc}
    (f : ((k : Fin 3) → ((![x, a, b] : Fin 3 → Ref sig .tc) k).ty.Contents (Elt F)) → y.ty.Contents (Elt F)) (hxs hy)
    (W : Valuation τ sig (Elt F)) :
    (StableHlo.nary (τ := τ) ![x, a, b] y f hxs hy).result W (Proc.devRef .tc y)
      = f (Fin.cons (W (Proc.devRef .tc x)) (Fin.cons (W (Proc.devRef .tc a)) (Fin.cons (W (Proc.devRef .tc b)) (fun i => i.elim0)))) := by
  rw [StableHlo.nary_result]; congr 1; funext k; fin_cases k <;> rfl

/-- The first thirteen operations after the region: down to the scatter-add of the stacked columns. -/
abbrev preOps : List (HloOp τ sig (Elt F)) := (hostOps1 (F := F)).take 13
/-- Every later operation: the loss chain over the scatter-add's result and the sum of the partial sums. -/
abbrev postOps : List (HloOp τ sig (Elt F)) :=
  (hostOps1 (F := F)).drop 13
    ++ (hostOps1_1 ++ (hostOps1_2 ++ (hostOps1_3 ++ (hostOps1_4 ++ (hostOps1_5 ++ hostOps1_6)))))

theorem tail_split : List.flatten (tailOps (F := F)) = preOps (F := F) ++ postOps (F := F) := by
  simp only [tailOps, preOps, postOps, List.flatten_cons, List.flatten_nil, List.append_nil]
  rw [← List.append_assoc (List.take 13 (hostOps1 (F := F))), List.take_append_drop]

set_option maxHeartbeats 4000000 in
/-- The first thirteen operations leave the scatter-add's result at `stackK`. -/
theorem pre_v13 (W : Valuation τ sig (Elt F)) :
    StableHlo.after (preOps (F := F)) W (Proc.devRef .tc main_v13)
      = stackK (F := F) (W (Proc.devRef .tc main_v2_0)) (W (Proc.devRef .tc main_v2_1)) (W (Proc.devRef .tc main_v2_2))
          (W (Proc.devRef .tc main_arg2)) := by
  simp only [preOps, hostOps1, List.take_succ_cons, List.take_zero]
  simp only [StableHlo.after_cons, StableHlo.after_nil]
  repeat (first
    | rw [StableHlo.nullary_result] | rw [StableHlo.unary_result] | rw [StableHlo.binary_result]
    | rw [StableHlo.ternary_result] | rw [StableHlo.reshape_result] | rw [nary3_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide)
    | (rw [StableHlo.nary_result_ne]; rotate_left; decide))
  rfl

set_option maxHeartbeats 4000000 in
/-- The first thirteen operations leave the sum of the partial sums at `negSumK`. -/
theorem pre_v6 (W : Valuation τ sig (Elt F)) :
    StableHlo.after (preOps (F := F)) W (Proc.devRef .tc main_v6) = negSumK (F := F) (W (Proc.devRef .tc main_v2_3)) := by
  simp only [preOps, hostOps1, List.take_succ_cons, List.take_zero]
  simp only [StableHlo.after_cons, StableHlo.after_nil]
  repeat (first
    | rw [StableHlo.nullary_result] | rw [StableHlo.unary_result] | rw [StableHlo.binary_result]
    | rw [StableHlo.ternary_result] | rw [StableHlo.reshape_result] | rw [nary3_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide)
    | (rw [StableHlo.nary_result_ne]; rotate_left; decide))
  rfl

set_option maxHeartbeats 40000000 in
/-- The later operations leave `main_v50` at the loss function of the sum of the partial sums and the three columns
    of the scatter-add's result. -/
theorem post_v50 (W : Valuation τ sig (Elt F)) :
    StableHlo.after (postOps (F := F)) W (Proc.devRef .tc main_v50)
      = Cert.Loss.lossOf (F := F) bcast_S_S65536 reducesTo_S65536_S_d0 h_S_ (W (Proc.devRef .tc main_v6))
          (shapeCast S65536 (extractStridedSlice S65536x1 ![0, 0] (W (Proc.devRef .tc main_v13)) slices_S65536x3_S65536x1_0_0)
            shapeCasts_S65536x1_S65536)
          (shapeCast S65536 (extractStridedSlice S65536x1 ![0, 1] (W (Proc.devRef .tc main_v13)) slices_S65536x3_S65536x1_0_1)
            shapeCasts_S65536x1_S65536)
          (shapeCast S65536 (extractStridedSlice S65536x1 ![0, 2] (W (Proc.devRef .tc main_v13)) slices_S65536x3_S65536x1_0_2)
            shapeCasts_S65536x1_S65536) := by
  simp only [postOps, hostOps1, hostOps1_1, hostOps1_2, hostOps1_3, hostOps1_4, hostOps1_5, hostOps1_6,
    List.drop_succ_cons, List.drop_zero, List.cons_append, List.nil_append, List.append_nil]
  after_results_simp
  simp only [StableHlo.TRef.ofBuf, StableHlo.TRef.toBuf, cast_eq]
  rfl

/-- From any buffer contents `W`, the operations after the region leave `main_v50` at `tailFn` of the four
    output arrays' and the bag ids' contents in `W`. -/
theorem tail_after (W : Valuation τ sig (Elt F)) :
    StableHlo.after (List.flatten (tailOps (F := F))) W (Proc.devRef .tc main_v50)
      = tailFn (F := F) (W (Proc.devRef .tc main_v2_0)) (W (Proc.devRef .tc main_v2_1)) (W (Proc.devRef .tc main_v2_2))
          (W (Proc.devRef .tc main_v2_3)) (W (Proc.devRef .tc main_arg2)) := by
  rw [tail_split, StableHlo.after_append, post_v50, pre_v13, pre_v6]
  rfl

/-- `tail_after` with the five contents named. -/
theorem tail_after_of (W : Valuation τ sig (Elt F)) (a2 a3 a4 : FVec F S2x32768x128 .f32) (a5 : FVec F S2x1x1 .f32)
    (bag : IVec S8388608 32) (h2 : W (Proc.devRef .tc main_v2_0) = a2) (h3 : W (Proc.devRef .tc main_v2_1) = a3)
    (h4 : W (Proc.devRef .tc main_v2_2) = a4) (h5 : W (Proc.devRef .tc main_v2_3) = a5)
    (hb : W (Proc.devRef .tc main_arg2) = bag) :
    StableHlo.after (List.flatten (tailOps (F := F))) W (Proc.devRef .tc main_v50) = tailFn (F := F) a2 a3 a4 a5 bag := by
  subst h2 h3 h4 h5 hb
  exact tail_after (F := F) W

/-- The result of @main in a frame run over any proof data: `tailFn` of the four output arrays as the region
    leaves them and the bag ids as launched. -/
theorem tail_result (dats : (p : Fin 1) → (c : Dev nD) → Dat τ (Elt F) Unit ℕ (UR sig nD τ) ℕ (cfgs p) c) (c : Dev nD) :
    Pipeline.afterTail₀ cfgs dats 0 (V0 m) tailOps c main_v50
      = tailFn (F := F) ((dats 0 c).arrAt 2 cfg0.N) ((dats 0 c).arrAt 3 cfg0.N) ((dats 0 c).arrAt 4 cfg0.N)
          ((dats 0 c).arrAt 5 cfg0.N) (m ((c : Thread nD τ).loc main_arg2)) := by
  unfold Pipeline.afterTail₀
  exact tail_after_of (F := F) _ _ _ _ _ _
    (Pipeline.withArrays_arr spec0 launch0.win.arr_inj c _ _ 2)
    (Pipeline.withArrays_arr spec0 launch0.win.arr_inj c _ _ 3)
    (Pipeline.withArrays_arr spec0 launch0.win.arr_inj c _ _ 4)
    (Pipeline.withArrays_arr spec0 launch0.win.arr_inj c _ _ 5)
    ((Pipeline.withArrays_of_ne _ c (V0 m c) _ main_arg2
        (by exact (by decide : ∀ w, Pipeline.arrRef spec0 w ≠ main_arg2))).trans (V_main_arg2 m c))

end Cert.KernelIdeal.Frm

end
-- ==== Proof.KI.Spec3.lean ====
import proofs.«119481_j45681272160447_1_alg».proof.Proof.Gen.KernelIdeal

noncomputable section

namespace Cert.KernelIdeal.Frm

open Cert.KernelIdeal Cert.KernelIdeal.Gen
open Idealize.ShloMosaic

variable {F : FTy → Type} [FloatOps F]

/-! ## The kernel's pointwise outputs as whole-array functions

Every block of an output is the same pointwise function of the matching blocks of the inputs, so the whole output array is
that function of the whole input arrays, laid out as [2, 32768, 128]. -/

/-- The indicator of label 0, as a float. -/
def negf3 (L3 : IVec S2x32768x128 32) : FVec F S2x32768x128 .f32 :=
  sitofp .f32 (extui 32 (cmpi .eq L3 (broadcast S2x32768x128 (0#32 : BitVec 32))) Facts₀.natLt_1_32)

/-- The indicator of label 1, as a float. -/
def posf3 (L3 : IVec S2x32768x128 32) : FVec F S2x32768x128 .f32 :=
  sitofp .f32 (extui 32 (cmpi .eq L3 (broadcast S2x32768x128 (1#32 : BitVec 32))) Facts₀.natLt_1_32)

/-- log (1 − p + ε), entry by entry. -/
def logn3 (P3 : FVec F S2x32768x128 .f32) : FVec F S2x32768x128 .f32 :=
  log (addf (subf (broadcast S2x32768x128 (Scalar.ofBits .f32 0x3F800000#32 : F .f32)) P3) (broadcast S2x32768x128 (Scalar.ofBits .f32 0x33D6BF95#32 : F .f32)))

end Cert.KernelIdeal.Frm

end
-- ==== Proof.KI.Value.lean ====
import proofs.«119481_j45681272160447_1_alg».proof.Proof.KI.Frame
import proofs.«119481_j45681272160447_1_alg».proof.Proof.KI.Spec3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frm

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable {F : FTy → Type} [FloatOps F]

variable (m : (ℓ : Loc nD τ sig) → Buf (Elt F) ℓ) (ρ : Dev nD → PrngReg)

/-! ## The body's pointwise operations, at any shape

Each is applied entry by entry, so it commutes with any re-indexing of its operand: a block of the result is the
operation of the block. -/

/-- The indicator of label 0 as a float, entry by entry. -/
def negG (S : Shape) (x : IVec S 32) : FVec F S .f32 :=
  sitofp .f32 (extui 32 (cmpi .eq x (broadcast S (0#32 : BitVec 32))) Facts₀.natLt_1_32)
/-- The indicator of label 1 as a float, entry by entry. -/
def posG (S : Shape) (x : IVec S 32) : FVec F S .f32 :=
  sitofp .f32 (extui 32 (cmpi .eq x (broadcast S (1#32 : BitVec 32))) Facts₀.natLt_1_32)
/-- log (1 − p + ε), entry by entry. -/
def lognG (S : Shape) (x : FVec F S .f32) : FVec F S .f32 :=
  log (addf (subf (broadcast S (Scalar.ofBits .f32 0x3F800000#32 : F .f32)) x) (broadcast S (Scalar.ofBits .f32 0x33D6BF95#32 : F .f32)))

theorem negG_comp {S T : Shape} (x : IVec S 32) (g : T.Idx → S.Idx) (j : T.Idx) :
    negG (F := F) T (fun j => x (g j)) j = negG S x (g j) := rfl
theorem posG_comp {S T : Shape} (x : IVec S 32) (g : T.Idx → S.Idx) (j : T.Idx) :
    posG (F := F) T (fun j => x (g j)) j = posG S x (g j) := rfl
theorem lognG_comp {S T : Shape} (x : FVec F S .f32) (g : T.Idx → S.Idx) (j : T.Idx) :
    lognG T (fun j => x (g j)) j = lognG S x (g j) := rfl

theorem negf3_eq (L3 : IVec S2x32768x128 32) : negf3 (F := F) L3 = negG S2x32768x128 L3 := rfl
theorem posf3_eq (L3 : IVec S2x32768x128 32) : posf3 (F := F) L3 = posG S2x32768x128 L3 := rfl
theorem logn3_eq (P3 : FVec F S2x32768x128 .f32) : logn3 P3 = lognG S2x32768x128 P3 := rfl

/-! ## The stored payloads of a block -/

/-- What is stored into the first output: the indicator of label 0 of the labels' block. -/
theorem pay8_eq (x1 : Vec F S1x4096x128 .i32) : k0_pay8 x1 = negG S1x4096x128 x1 := by
  have e : k0_pay8 x1 = shapeCast S1x4096x128 (shapeCast S4096x128 (negG (F := F) S1x4096x128 x1) shapeCasts_S1x4096x128_S4096x128) shapeCasts_S4096x128_S1x4096x128 := rfl
  rw [e, shapeCast_shapeCast]

/-- Into the second: the indicator of label 1. -/
theorem pay9_eq (x1 : Vec F S1x4096x128 .i32) : k0_pay9 x1 = posG S1x4096x128 x1 := by
  have e : k0_pay9 x1 = shapeCast S1x4096x128 (shapeCast S4096x128 (posG (F := F) S1x4096x128 x1) shapeCasts_S1x4096x128_S4096x128) shapeCasts_S4096x128_S1x4096x128 := rfl
  rw [e, shapeCast_shapeCast]

/-- Into the third: the indicator of label 1 times log (1 − p + ε). -/
theorem pay10_eq (x0 : Vec F S1x4096x128 .f32) (x1 : Vec F S1x4096x128 .i32) :
    k0_pay10 x0 x1 = mulf (posG S1x4096x128 x1) (lognG S1x4096x128 x0) := by
  have e : k0_pay10 x0 x1 = shapeCast S1x4096x128 (shapeCast S4096x128 (mulf (posG (F := F) S1x4096x128 x1) (lognG S1x4096x128 x0)) shapeCasts_S1x4096x128_S4096x128) shapeCasts_S4096x128_S1x4096x128 := rfl
  rw [e, shapeCast_shapeCast]

theorem hzero3 : (![0, 0, 0] : Fin 3 → Nat) = fun _ => 0 := funext fun a => by fin_cases a <;> rfl

/-! ## What each case leaves in the three pointwise outputs: the payload of its one store -/

theorem out_A_2 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : cond0_0 i) (hc1 : ¬cond0_1 i) (x0 : Vec F S1x4096x128 .f32) (x1 : Vec F S1x4096x128 .i32) :
    out0_A_2 c i arg2 harg2 arg3 harg3 arg4 harg4 arg5 harg5 arg6 harg6 arg7 harg7 arg8 harg8 hc0 hc1 x0 x1 = k0_pay8 x1 := by
  unfold out0_A_2
  rw [View.read_writes_eq_canon _ _ _ (cover0_A_2 c i arg2 harg2 arg3 harg3 arg4 harg4 arg5 harg5 arg6 harg6 arg7 harg7 arg8 harg8 hc0 hc1 x0 x1)]
  unfold kernelRun0_A
  dsimp only
  sl_unfold_words
  rw [View.canon_unit_zero (S := S1x4096x128) hzero3]
  simp only [View.readAt_eq_ld, harg2.read_unread, harg3.read_unread, View.ld_unit_zero (S := S1x4096x128) hzero3]

theorem out_A_3 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : cond0_0 i) (hc1 : ¬cond0_1 i) (x0 : Vec F S1x4096x128 .f32) (x1 : Vec F S1x4096x128 .i32) :
    out0_A_3 c i arg2 harg2 arg3 harg3 arg4 harg4 arg5 harg5 arg6 harg6 arg7 harg7 arg8 harg8 hc0 hc1 x0 x1 = k0_pay9 x1 := by
  unfold out0_A_3
  rw [View.read_writes_eq_canon _ _ _ (cover0_A_3 c i arg2 harg2 arg3 harg3 arg4 harg4 arg5 harg5 arg6 harg6 arg7 harg7 arg8 harg8 hc0 hc1 x0 x1)]
  unfold kernelRun0_A
  dsimp only
  sl_unfold_words
  rw [View.canon_unit_zero (S := S1x4096x128) hzero3]
  simp only [View.readAt_eq_ld, harg2.read_unread, harg3.read_unread, View.ld_unit_zero (S := S1x4096x128) hzero3]

theorem out_A_4 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : cond0_0 i) (hc1 : ¬cond0_1 i) (x0 : Vec F S1x4096x128 .f32) (x1 : Vec F S1x4096x128 .i32) :
    out0_A_4 c i arg2 harg2 arg3 harg3 arg4 harg4 arg5 harg5 arg6 harg6 arg7 harg7 arg8 harg8 hc0 hc1 x0 x1 = k0_pay10 x0 x1 := by
  unfold out0_A_4
  rw [View.read_writes_eq_canon _ _ _ (cover0_A_4 c i arg2 harg2 arg3 harg3 arg4 harg4 arg5 harg5 arg6 harg6 arg7 harg7 arg8 harg8 hc0 hc1 x0 x1)]
  unfold kernelRun0_A
  dsimp only
  sl_unfold_words
  rw [View.canon_unit_zero (S := S1x4096x128) hzero3]
  simp only [View.readAt_eq_ld, harg2.read_unread, harg3.read_unread, View.ld_unit_zero (S := S1x4096x128) hzero3]

theorem out_B_2 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : ¬cond0_1 i) (x0 : Vec F S1x4096x128 .f32) (x1 : Vec F S1x4096x128 .i32) (xs0 : Vec F S1x1 .f32) :
    out0_B_2 c i arg2 harg2 arg3 harg3 arg4 harg4 arg5 harg5 arg6 harg6 arg7 harg7 arg8 harg8 hc0 hc1 x0 x1 xs0 = k0_pay8 x1 := by
  unfold out0_B_2
  rw [View.read_writes_eq_canon _ _ _ (cover0_B_2 c i arg2 harg2 arg3 harg3 arg4 harg4 arg5 harg5 arg6 harg6 arg7 harg7 arg8 harg8 hc0 hc1 x0 x1 xs0)]
  unfold kernelRun0_B
  dsimp only
  sl_unfold_words
  rw [View.canon_unit_zero (S := S1x4096x128) hzero3]
  simp only [View.readAt_eq_ld, harg2.read_unread, harg3.read_unread, View.ld_unit_zero (S := S1x4096x128) hzero3]

theorem out_B_3 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : ¬cond0_1 i) (x0 : Vec F S1x4096x128 .f32) (x1 : Vec F S1x4096x128 .i32) (xs0 : Vec F S1x1 .f32) :
    out0_B_3 c i arg2 harg2 arg3 harg3 arg4 harg4 arg5 harg5 arg6 harg6 arg7 harg7 arg8 harg8 hc0 hc1 x0 x1 xs0 = k0_pay9 x1 := by
  unfold out0_B_3
  rw [View.read_writes_eq_canon _ _ _ (cover0_B_3 c i arg2 harg2 arg3 harg3 arg4 harg4 arg5 harg5 arg6 harg6 arg7 harg7 arg8 harg8 hc0 hc1 x0 x1 xs0)]
  unfold kernelRun0_B
  dsimp only
  sl_unfold_words
  rw [View.canon_unit_zero (S := S1x4096x128) hzero3]
  simp only [View.readAt_eq_ld, harg2.read_unread, harg3.read_unread, View.ld_unit_zero (S := S1x4096x128) hzero3]

theorem out_B_4 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : ¬cond0_1 i) (x0 : Vec F S1x4096x128 .f32) (x1 : Vec F S1x4096x128 .i32) (xs0 : Vec F S1x1 .f32) :
    out0_B_4 c i arg2 harg2 arg3 harg3 arg4 harg4 arg5 harg5 arg6 harg6 arg7 harg7 arg8 harg8 hc0 hc1 x0 x1 xs0 = k0_pay10 x0 x1 := by
  unfold out0_B_4
  rw [View.read_writes_eq_canon _ _ _ (cover0_B_4 c i arg2 harg2 arg3 harg3 arg4 harg4 arg5 harg5 arg6 harg6 arg7 harg7 arg8 harg8 hc0 hc1 x0 x1 xs0)]
  unfold kernelRun0_B
  dsimp only
  sl_unfold_words
  rw [View.canon_unit_zero (S := S1x4096x128) hzero3]
  simp only [View.readAt_eq_ld, harg2.read_unread, harg3.read_unread, View.ld_unit_zero (S := S1x4096x128) hzero3]

theorem out_C_2 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i) (x0 : Vec F S1x4096x128 .f32) (x1 : Vec F S1x4096x128 .i32) (xs0 : Vec F S1x1 .f32) :
    out0_C_2 c i arg2 harg2 arg3 harg3 arg4 harg4 arg5 harg5 arg6 harg6 arg7 harg7 arg8 harg8 hc0 hc1 x0 x1 xs0 = k0_pay8 x1 := by
  unfold out0_C_2
  rw [View.read_writes_eq_canon _ _ _ (cover0_C_2 c i arg2 harg2 arg3 harg3 arg4 harg4 arg5 harg5 arg6 harg6 arg7 harg7 arg8 harg8 hc0 hc1 x0 x1 xs0)]
  unfold kernelRun0_C
  dsimp only
  sl_unfold_words
  rw [View.canon_unit_zero (S := S1x4096x128) hzero3]
  simp only [View.readAt_eq_ld, harg2.read_unread, harg3.read_unread, View.ld_unit_zero (S := S1x4096x128) hzero3]

theorem out_C_3 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i) (x0 : Vec F S1x4096x128 .f32) (x1 : Vec F S1x4096x128 .i32) (xs0 : Vec F S1x1 .f32) :
    out0_C_3 c i arg2 harg2 arg3 harg3 arg4 harg4 arg5 harg5 arg6 harg6 arg7 harg7 arg8 harg8 hc0 hc1 x0 x1 xs0 = k0_pay9 x1 := by
  unfold out0_C_3
  rw [View.read_writes_eq_canon _ _ _ (cover0_C_3 c i arg2 harg2 arg3 harg3 arg4 harg4 arg5 harg5 arg6 harg6 arg7 harg7 arg8 harg8 hc0 hc1 x0 x1 xs0)]
  unfold kernelRun0_C
  dsimp only
  sl_unfold_words
  rw [View.canon_unit_zero (S := S1x4096x128) hzero3]
  simp only [View.readAt_eq_ld, harg2.read_unread, harg3.read_unread, View.ld_unit_zero (S := S1x4096x128) hzero3]

theorem out_C_4 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i) (x0 : Vec F S1x4096x128 .f32) (x1 : Vec F S1x4096x128 .i32) (xs0 : Vec F S1x1 .f32) :
    out0_C_4 c i arg2 harg2 arg3 harg3 arg4 harg4 arg5 harg5 arg6 harg6 arg7 harg7 arg8 harg8 hc0 hc1 x0 x1 xs0 = k0_pay10 x0 x1 := by
  unfold out0_C_4
  rw [View.read_writes_eq_canon _ _ _ (cover0_C_4 c i arg2 harg2 arg3 harg3 arg4 harg4 arg5 harg5 arg6 harg6 arg7 harg7 arg8 harg8 hc0 hc1 x0 x1 xs0)]
  unfold kernelRun0_C
  dsimp only
  sl_unfold_words
  rw [View.canon_unit_zero (S := S1x4096x128) hzero3]
  simp only [View.readAt_eq_ld, harg2.read_unread, harg3.read_unread, View.ld_unit_zero (S := S1x4096x128) hzero3]

/-! ## After every point, whatever its case -/

/-- Output 1's staging buffer after point `t` holds its payload of the inputs' blocks at `t`: every case stores it whole. -/
theorem outs2 (c : Dev nD) (t : Fin cfg0.N) : (outsAt0 m c t.val t.isLt).1 = k0_pay8 (iblk m c 1 t) := by
  by_cases h0 : t.val % 8 = 0
  · have h1 : ¬t.val % 8 = 7 := by omega
    rw [outsAt0_A m c t h0 h1]; unfold tupA; dsimp only
    exact out_A_2 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t)
  · by_cases h1 : t.val % 8 = 7
    · rw [outsAt0_C m c t h0 h1]; unfold tupC; dsimp only
      exact out_C_2 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.2
    · rw [outsAt0_B m c t h0 h1]; unfold tupB; dsimp only
      exact out_B_2 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.2

/-- Output 2's staging buffer after point `t` holds its payload of the inputs' blocks at `t`: every case stores it whole. -/
theorem outs3 (c : Dev nD) (t : Fin cfg0.N) : (outsAt0 m c t.val t.isLt).2.1 = k0_pay9 (iblk m c 1 t) := by
  by_cases h0 : t.val % 8 = 0
  · have h1 : ¬t.val % 8 = 7 := by omega
    rw [outsAt0_A m c t h0 h1]; unfold tupA; dsimp only
    exact out_A_3 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t)
  · by_cases h1 : t.val % 8 = 7
    · rw [outsAt0_C m c t h0 h1]; unfold tupC; dsimp only
      exact out_C_3 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.2
    · rw [outsAt0_B m c t h0 h1]; unfold tupB; dsimp only
      exact out_B_3 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.2

/-- Output 3's staging buffer after point `t` holds its payload of the inputs' blocks at `t`: every case stores it whole. -/
theorem outs4 (c : Dev nD) (t : Fin cfg0.N) : (outsAt0 m c t.val t.isLt).2.2.1 = k0_pay10 (iblk m c 0 t) (iblk m c 1 t) := by
  by_cases h0 : t.val % 8 = 0
  · have h1 : ¬t.val % 8 = 7 := by omega
    rw [outsAt0_A m c t h0 h1]; unfold tupA; dsimp only
    exact out_A_4 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t)
  · by_cases h1 : t.val % 8 = 7
    · rw [outsAt0_C m c t h0 h1]; unfold tupC; dsimp only
      exact out_C_4 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.2
    · rw [outsAt0_B m c t h0 h1]; unfold tupB; dsimp only
      exact out_B_4 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.2

/-! ## Where a block lies in its array

The grid is 2 × 8: point `t` is row `t / 8`, position `t % 8`. Every window's block at `t` is [1, 4096, 128] at block index
(t / 8, t % 8, 0): rows (t % 8)·4096 … (t % 8)·4096 + 4095 of plane t / 8. -/

/-- The printed index maps in closed form, decided over the grid. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = t.val % 8 ∧ win0_1.index t (2 : Fin 3) = 0
    ∧ win0_2.index t (0 : Fin 3) = t.val / 8 ∧ win0_2.index t (1 : Fin 3) = t.val % 8 ∧ win0_2.index t (2 : Fin 3) = 0
    ∧ win0_3.index t (0 : Fin 3) = t.val / 8 ∧ win0_3.index t (1 : Fin 3) = t.val % 8 ∧ win0_3.index t (2 : Fin 3) = 0
    ∧ win0_4.index t (0 : Fin 3) = t.val / 8 ∧ win0_4.index t (1 : Fin 3) = t.val % 8 ∧ win0_4.index t (2 : Fin 3) = 0 :=
  (by decide +kernel : ∀ t : Fin grid0.N, _)

/-- The array index of entry `j` of the block of point `t`. -/
def embT (t : Fin cfg0.N) (j : S1x4096x128.Idx) : S2x32768x128.Idx :=
  ix3 (⟨t.val / 8, by have := t.isLt; have hN : cfg0.N = 16 := N_0; omega⟩ : Fin 2)
    (⟨t.val % 8 * 4096 + (j 1).val, by have h : (j 1).val < 4096 := (j 1).isLt; omega⟩ : Fin 32768)
    (⟨(j 2).val, (j 2).isLt⟩ : Fin 128)

theorem emb_0 (t : Fin cfg0.N) (j : S1x4096x128.Idx) : ((cfg0.win 0).blk t).view.emb j = embT t j := by
  obtain ⟨a00, a01, a02, a10, a11, a12, a20, a21, a22, a30, a31, a32, a40, a41, a42⟩ := idx_facts t
  funext a; apply Fin.ext
  match a with
  | ⟨0, _⟩ => show win0_0.index t (0 : Fin 3) * 1 + 1 * (j 0).val = t.val / 8; have h : (j 0).val < 1 := (j 0).isLt; omega
  | ⟨1, _⟩ => show win0_0.index t (1 : Fin 3) * 4096 + 1 * (j 1).val = t.val % 8 * 4096 + (j 1).val; omega
  | ⟨2, _⟩ => show win0_0.index t (2 : Fin 3) * 128 + 1 * (j 2).val = (j 2).val; omega

theorem emb_1 (t : Fin cfg0.N) (j : S1x4096x128.Idx) : ((cfg0.win 1).blk t).view.emb j = embT t j := by
  obtain ⟨a00, a01, a02, a10, a11, a12, a20, a21, a22, a30, a31, a32, a40, a41, a42⟩ := idx_facts t
  funext a; apply Fin.ext
  match a with
  | ⟨0, _⟩ => show win0_1.index t (0 : Fin 3) * 1 + 1 * (j 0).val = t.val / 8; have h : (j 0).val < 1 := (j 0).isLt; omega
  | ⟨1, _⟩ => show win0_1.index t (1 : Fin 3) * 4096 + 1 * (j 1).val = t.val % 8 * 4096 + (j 1).val; omega
  | ⟨2, _⟩ => show win0_1.index t (2 : Fin 3) * 128 + 1 * (j 2).val = (j 2).val; omega

theorem emb_2 (t : Fin cfg0.N) (j : S1x4096x128.Idx) : ((cfg0.win 2).blk t).view.emb j = embT t j := by
  obtain ⟨a00, a01, a02, a10, a11, a12, a20, a21, a22, a30, a31, a32, a40, a41, a42⟩ := idx_facts t
  funext a; apply Fin.ext
  match a with
  | ⟨0, _⟩ => show win0_2.index t (0 : Fin 3) * 1 + 1 * (j 0).val = t.val / 8; have h : (j 0).val < 1 := (j 0).isLt; omega
  | ⟨1, _⟩ => show win0_2.index t (1 : Fin 3) * 4096 + 1 * (j 1).val = t.val % 8 * 4096 + (j 1).val; omega
  | ⟨2, _⟩ => show win0_2.index t (2 : Fin 3) * 128 + 1 * (j 2).val = (j 2).val; omega

theorem emb_3 (t : Fin cfg0.N) (j : S1x4096x128.Idx) : ((cfg0.win 3).blk t).view.emb j = embT t j := by
  obtain ⟨a00, a01, a02, a10, a11, a12, a20, a21, a22, a30, a31, a32, a40, a41, a42⟩ := idx_facts t
  funext a; apply Fin.ext
  match a with
  | ⟨0, _⟩ => show win0_3.index t (0 : Fin 3) * 1 + 1 * (j 0).val = t.val / 8; have h : (j 0).val < 1 := (j 0).isLt; omega
  | ⟨1, _⟩ => show win0_3.index t (1 : Fin 3) * 4096 + 1 * (j 1).val = t.val % 8 * 4096 + (j 1).val; omega
  | ⟨2, _⟩ => show win0_3.index t (2 : Fin 3) * 128 + 1 * (j 2).val = (j 2).val; omega

theorem emb_4 (t : Fin cfg0.N) (j : S1x4096x128.Idx) : ((cfg0.win 4).blk t).view.emb j = embT t j := by
  obtain ⟨a00, a01, a02, a10, a11, a12, a20, a21, a22, a30, a31, a32, a40, a41, a42⟩ := idx_facts t
  funext a; apply Fin.ext
  match a with
  | ⟨0, _⟩ => show win0_4.index t (0 : Fin 3) * 1 + 1 * (j 0).val = t.val / 8; have h : (j 0).val < 1 := (j 0).isLt; omega
  | ⟨1, _⟩ => show win0_4.index t (1 : Fin 3) * 4096 + 1 * (j 1).val = t.val % 8 * 4096 + (j 1).val; omega
  | ⟨2, _⟩ => show win0_4.index t (2 : Fin 3) * 128 + 1 * (j 2).val = (j 2).val; omega

/-! ## From blocks to the arrays -/

/-- What point `t` writes back to output 1's array is block `t` of the whole-array function of the inputs. -/
theorem flushed2_eq (c : Dev nD) (t : Fin cfg0.N) :
    (dats m 0 c).flushed 2 t = ((cfg0.win 2).blk t).view.read (Elt F) (negf3 (V m c main_v1)) := by
  show (cfg0.win 2).cut (grid0.coords t) ((dats m 0 c).after 2 t) = _
  rw [after0_2, outs2, pay8_eq]
  funext j
  show negG S1x4096x128 (fun j => V m c main_v1 (((cfg0.win 1).blk t).view.emb j)) j = negG S2x32768x128 (V m c main_v1) (((cfg0.win 2).blk t).view.emb j)
  simp only [emb_0, emb_1, emb_2]
  rfl

/-- An index of the array is in point `t`'s block iff each coordinate is in the block's range on its axis. -/
theorem mem_blk2 (t : Fin cfg0.N) (i : S2x32768x128.Idx) :
    i ∈ ((cfg0.win 2).blk t).view.set ↔ ∀ a : Fin 3, win0_2.index t a * S1x4096x128.size a ≤ (i a).val ∧ (i a).val < win0_2.index t a * S1x4096x128.size a + S1x4096x128.size a := by
  show i ∈ ((View.whole main_v2_0).slice (win0_2.rect t)).set ↔ _
  rw [View.set_slice_whole, Rect.mem_set_unit]
  exact Iff.rfl

/-- Every index of the array is in the block of the point of its plane and of its row's stretch of 4096. -/
theorem cover2 (i : S2x32768x128.Idx) : ∃ t : Fin cfg0.N, (cfg0.win 2).flush t = true ∧ i ∈ ((cfg0.win 2).blk t).view.set := by
  have hi0 : (i 0).val < 2 := (i 0).isLt
  have hi1 : (i 1).val < 32768 := (i 1).isLt
  have hi2 : (i 2).val < 128 := (i 2).isLt
  have hN : cfg0.N = 16 := N_0
  obtain ⟨t, ht⟩ : ∃ t : Fin cfg0.N, t.val = 8 * (i 0).val + (i 1).val / 4096 := ⟨⟨8 * (i 0).val + (i 1).val / 4096, by omega⟩, rfl⟩
  obtain ⟨a00, a01, a02, a10, a11, a12, a20, a21, a22, a30, a31, a32, a40, a41, a42⟩ := idx_facts t
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 4096 ≤ (i 1).val ∧ (i 1).val < win0_2.index t (1 : Fin 3) * 4096 + 4096; omega
  | ⟨2, _⟩ => show win0_2.index t (2 : Fin 3) * 128 ≤ (i 2).val ∧ (i 2).val < win0_2.index t (2 : Fin 3) * 128 + 128; omega

/-- What point `t` writes back to output 2's array is block `t` of the whole-array function of the inputs. -/
theorem flushed3_eq (c : Dev nD) (t : Fin cfg0.N) :
    (dats m 0 c).flushed 3 t = ((cfg0.win 3).blk t).view.read (Elt F) (posf3 (V m c main_v1)) := by
  show (cfg0.win 3).cut (grid0.coords t) ((dats m 0 c).after 3 t) = _
  rw [after0_3, outs3, pay9_eq]
  funext j
  show posG S1x4096x128 (fun j => V m c main_v1 (((cfg0.win 1).blk t).view.emb j)) j = posG S2x32768x128 (V m c main_v1) (((cfg0.win 3).blk t).view.emb j)
  simp only [emb_0, emb_1, emb_3]
  rfl

/-- An index of the array is in point `t`'s block iff each coordinate is in the block's range on its axis. -/
theorem mem_blk3 (t : Fin cfg0.N) (i : S2x32768x128.Idx) :
    i ∈ ((cfg0.win 3).blk t).view.set ↔ ∀ a : Fin 3, win0_3.index t a * S1x4096x128.size a ≤ (i a).val ∧ (i a).val < win0_3.index t a * S1x4096x128.size a + S1x4096x128.size a := by
  show i ∈ ((View.whole main_v2_1).slice (win0_3.rect t)).set ↔ _
  rw [View.set_slice_whole, Rect.mem_set_unit]
  exact Iff.rfl

/-- Every index of the array is in the block of the point of its plane and of its row's stretch of 4096. -/
theorem cover3 (i : S2x32768x128.Idx) : ∃ t : Fin cfg0.N, (cfg0.win 3).flush t = true ∧ i ∈ ((cfg0.win 3).blk t).view.set := by
  have hi0 : (i 0).val < 2 := (i 0).isLt
  have hi1 : (i 1).val < 32768 := (i 1).isLt
  have hi2 : (i 2).val < 128 := (i 2).isLt
  have hN : cfg0.N = 16 := N_0
  obtain ⟨t, ht⟩ : ∃ t : Fin cfg0.N, t.val = 8 * (i 0).val + (i 1).val / 4096 := ⟨⟨8 * (i 0).val + (i 1).val / 4096, by omega⟩, rfl⟩
  obtain ⟨a00, a01, a02, a10, a11, a12, a20, a21, a22, a30, a31, a32, a40, a41, a42⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 4096 ≤ (i 1).val ∧ (i 1).val < win0_3.index t (1 : Fin 3) * 4096 + 4096; omega
  | ⟨2, _⟩ => show win0_3.index t (2 : Fin 3) * 128 ≤ (i 2).val ∧ (i 2).val < win0_3.index t (2 : Fin 3) * 128 + 128; omega

/-- What point `t` writes back to output 3's array is block `t` of the whole-array function of the inputs. -/
theorem flushed4_eq (c : Dev nD) (t : Fin cfg0.N) :
    (dats m 0 c).flushed 4 t = ((cfg0.win 4).blk t).view.read (Elt F) (mulf (posf3 (V m c main_v1)) (logn3 (V m c main_v0))) := by
  show (cfg0.win 4).cut (grid0.coords t) ((dats m 0 c).after 4 t) = _
  rw [after0_4, outs4, pay10_eq]
  funext j
  show mulf (posG S1x4096x128 (fun j => V m c main_v1 (((cfg0.win 1).blk t).view.emb j))) (lognG S1x4096x128 (fun j => V m c main_v0 (((cfg0.win 0).blk t).view.emb j))) j = mulf (posG S2x32768x128 (V m c main_v1)) (lognG S2x32768x128 (V m c main_v0)) (((cfg0.win 4).blk t).view.emb j)
  simp only [emb_0, emb_1, emb_4]
  rfl

/-- An index of the array is in point `t`'s block iff each coordinate is in the block's range on its axis. -/
theorem mem_blk4 (t : Fin cfg0.N) (i : S2x32768x128.Idx) :
    i ∈ ((cfg0.win 4).blk t).view.set ↔ ∀ a : Fin 3, win0_4.index t a * S1x4096x128.size a ≤ (i a).val ∧ (i a).val < win0_4.index t a * S1x4096x128.size a + S1x4096x128.size a := by
  show i ∈ ((View.whole main_v2_2).slice (win0_4.rect t)).set ↔ _
  rw [View.set_slice_whole, Rect.mem_set_unit]
  exact Iff.rfl

/-- Every index of the array is in the block of the point of its plane and of its row's stretch of 4096. -/
theorem cover4 (i : S2x32768x128.Idx) : ∃ t : Fin cfg0.N, (cfg0.win 4).flush t = true ∧ i ∈ ((cfg0.win 4).blk t).view.set := by
  have hi0 : (i 0).val < 2 := (i 0).isLt
  have hi1 : (i 1).val < 32768 := (i 1).isLt
  have hi2 : (i 2).val < 128 := (i 2).isLt
  have hN : cfg0.N = 16 := N_0
  obtain ⟨t, ht⟩ : ∃ t : Fin cfg0.N, t.val = 8 * (i 0).val + (i 1).val / 4096 := ⟨⟨8 * (i 0).val + (i 1).val / 4096, by omega⟩, rfl⟩
  obtain ⟨a00, a01, a02, a10, a11, a12, a20, a21, a22, a30, a31, a32, a40, a41, a42⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 4096 ≤ (i 1).val ∧ (i 1).val < win0_4.index t (1 : Fin 3) * 4096 + 4096; omega
  | ⟨2, _⟩ => show win0_4.index t (2 : Fin 3) * 128 ≤ (i 2).val ∧ (i 2).val < win0_4.index t (2 : Fin 3) * 128 + 128; omega

/-! ## The arrays after the run -/

/-- Output 1 ends as the indicator of label 0, over the whole array. -/
theorem final2 (c : Dev nD) : (dats m 0 c).arrAt 2 cfg0.N = negf3 (V m c main_v1) :=
  (dats m 0 c).arrAt_eq_of_cover 2 (negf3 (V m c main_v1)) (fun t _ => flushed2_eq m c t) cover2
/-- Output 2 ends as the indicator of label 1. -/
theorem final3 (c : Dev nD) : (dats m 0 c).arrAt 3 cfg0.N = posf3 (V m c main_v1) :=
  (dats m 0 c).arrAt_eq_of_cover 3 (posf3 (V m c main_v1)) (fun t _ => flushed3_eq m c t) cover3
/-- Output 3 ends as the indicator of label 1 times log (1 − p + ε). -/
theorem final4 (c : Dev nD) : (dats m 0 c).arrAt 4 cfg0.N = mulf (posf3 (V m c main_v1)) (logn3 (V m c main_v0)) :=
  (dats m 0 c).arrAt_eq_of_cover 4 (mulf (posf3 (V m c main_v1)) (logn3 (V m c main_v0))) (fun t _ => flushed4_eq m c t) cover4

end Cert.KernelIdeal.Frm

end
-- ==== Proof.KI.RunValue.lean ====
import proofs.«119481_j45681272160447_1_alg».proof.Proof.KI.Frame
import proofs.«119481_j45681272160447_1_alg».proof.Proof.KI.Tail
import proofs.«119481_j45681272160447_1_alg».proof.Proof.KI.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The kernel's run with its result named

The frame run leaves every array of the pipeline at what the proof data compute and every other buffer as the host lines
after the region leave it; the result scalar is such a buffer: the host tail applied to the four region outputs, three of
them whole-array pointwise functions of the inputs and the fourth the per-core sums. -/

theorem run_value (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v50)
          = tailFn (negf3 (V m c main_v1)) (posf3 (V m c main_v1)) (mulf (posf3 (V m c main_v1)) (logn3 (V m c main_v0)))
              ((dats m 0 c).arrAt 5 cfg0.N) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
    ((h c).2 main_v50 (Pipeline.mem_restRefs_of main_v50 (by decide) (by decide))).trans
      ((tail_result m (dats m) c).trans (by rw [final2 m c, final3 m c, final4 m c])),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c)⟩) (run_main m ρ)

end Cert.KernelIdeal.Frm

end
-- ==== Proof.SumBlocks.lean ====
import proofs.«119481_j45681272160447_1_alg».proof.KernelIdeal
import Idealize.ShloMosaic.Lib.ValueIdx

noncomputable section

open scoped BigOperators

namespace Cert.Bridge

open Cert.KernelIdeal (S2x32768x128)
open Idealize.ShloMosaic Idealize.ShloMosaic.ValueIdx

/-! ## One plane of a [2, 32768, 128] array summed block by block

A plane has 32768 rows of 128 lanes. Cutting the rows into eight stretches of 4096 and summing each stretch's rows and lanes,
then the eight results, is the sum over the plane: row `b` is row `b % 4096` of stretch `b / 4096`. -/

/-- Stretch `i`, row `r` within it, is row `4096 · i + r` of the plane. -/
def blockRow : Fin 8 × Fin 4096 ≃ Fin 32768 where
  toFun p := ⟨p.1.val * 4096 + p.2.val, by have h1 := p.1.isLt; have h2 := p.2.isLt; omega⟩
  invFun b := (⟨b.val / 4096, by have h := b.isLt; omega⟩, ⟨b.val % 4096, by omega⟩)
  left_inv p := by
    have h1 := p.1.isLt
    have h2 := p.2.isLt
    refine Prod.ext (Fin.ext ?_) (Fin.ext ?_)
    · show (p.1.val * 4096 + p.2.val) / 4096 = p.1.val
      omega
    · show (p.1.val * 4096 + p.2.val) % 4096 = p.2.val
      omega
  right_inv b := Fin.ext (by
    show b.val / 4096 * 4096 + b.val % 4096 = b.val
    omega)

/-- The entries of plane `q`, by row and lane. -/
def rowLane (q : Fin 2) : Fin 32768 × Fin 128 ↪ S2x32768x128.Idx :=
  ⟨fun p => ix3 q p.1 p.2, fun p p' h => by
    have h1 : p.1 = p'.1 := congrFun h (1 : Fin 3)
    have h2 : p.2 = p'.2 := congrFun h (2 : Fin 3)
    exact Prod.ext h1 h2⟩

/-- The indices whose first coordinate is `q` are exactly the entries of plane `q`. -/
theorem filter_core (q : Fin 2) :
    Finset.univ.filter (fun k : S2x32768x128.Idx => (k 0).val = q.val) = Finset.univ.map (rowLane q) := by
  ext k
  simp only [Finset.mem_filter, Finset.mem_univ, true_and, Finset.mem_map, rowLane, Function.Embedding.coeFn_mk]
  constructor
  · intro h
    have hq : k 0 = q := Fin.ext h
    subst hq
    exact ⟨(k 1, k 2), (eq_ix3 k).symm⟩
  · rintro ⟨p, rfl⟩
    rfl

/-- The sum over a plane is the sum, over its eight stretches of 4096 rows, of each stretch's rows and lanes. -/
theorem sum_core_blocks (f : S2x32768x128.Idx → EReal) (q : Fin 2) :
    ∑ i : Fin 8, ∑ r : Fin 4096, ∑ l : Fin 128, f (ix3 q (⟨i.val * 4096 + r.val, by have h1 := i.isLt; have h2 := r.isLt; omega⟩ : Fin 32768) l)
      = ∑ k ∈ Finset.univ.filter (fun k : S2x32768x128.Idx => (k 0).val = q.val), f k := by
  calc ∑ i : Fin 8, ∑ r : Fin 4096, ∑ l : Fin 128, f (ix3 q (⟨i.val * 4096 + r.val, by have h1 := i.isLt; have h2 := r.isLt; omega⟩ : Fin 32768) l)
      = ∑ p : Fin 8 × Fin 4096, ∑ l : Fin 128, f (ix3 q (blockRow p) l) :=
        (Fintype.sum_prod_type (fun p : Fin 8 × Fin 4096 => ∑ l : Fin 128, f (ix3 q (blockRow p) l))).symm
    _ = ∑ b : Fin 32768, ∑ l : Fin 128, f (ix3 q b l) :=
        Equiv.sum_comp blockRow (fun b : Fin 32768 => ∑ l : Fin 128, f (ix3 q b l))
    _ = ∑ p : Fin 32768 × Fin 128, f (ix3 q p.1 p.2) :=
        (Fintype.sum_prod_type (fun p : Fin 32768 × Fin 128 => f (ix3 q p.1 p.2))).symm
    _ = ∑ k ∈ Finset.univ.map (rowLane q), f k := (Finset.sum_map Finset.univ (rowLane q) f).symm
    _ = ∑ k ∈ Finset.univ.filter (fun k : S2x32768x128.Idx => (k 0).val = q.val), f k := by rw [filter_core]

end Cert.Bridge

end
-- ==== Proof.KI.Value5.lean ====
import proofs.«119481_j45681272160447_1_alg».proof.Proof.KI.Value
import proofs.«119481_j45681272160447_1_alg».proof.Proof.KI.Spec3
import proofs.«119481_j45681272160447_1_alg».proof.Proof.SumBlocks
import Idealize.ShloMosaic.Lib.Pipeline.Value
import Idealize.ShloMosaic.Lib.ValueIdx
import Idealize.ShloMosaic.Lib.ValueIdxRank1
import Idealize.ShloMosaic.Lib.ValueLayout
import Idealize.ShloMosaic.PureOps.Ideal.Laws

set_option maxRecDepth 16384

noncomputable section

namespace Cert.KernelIdeal.Frm

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

/-! ## What each case leaves in the running sum and in the per-row result, as payloads -/

section Pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A point that opens a row leaves the block's sum added to the reset value. -/
theorem sout_A_0 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : cond0_0 i) (hc1 : ¬cond0_1 i) (x0 : Vec F S1x4096x128 .f32) (x1 : Vec F S1x4096x128 .i32) :
    sout0_A_0 c i arg2 harg2 arg3 harg3 arg4 harg4 arg5 harg5 arg6 harg6 arg7 harg7 arg8 harg8 hc0 hc1 x0 x1 = k0_pay1 (k0_pay11 x0 x1) k0_pay3 := by
  unfold sout0_A_0
  rw [View.read_writes_eq_canon _ _ _ (scover0_A_0 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg8.read_unread, View.ld_unit_zero (S := S1x4096x128) hz3, View.ld_unit_zero (S := S1x1) hz2]

/-- A later point leaves the block's sum added to what the point before left. -/
theorem sout_B_0 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : ¬cond0_1 i) (x0 : Vec F S1x4096x128 .f32) (x1 : Vec F S1x4096x128 .i32) (xs0 : Vec F S1x1 .f32) :
    sout0_B_0 c i arg2 harg2 arg3 harg3 arg4 harg4 arg5 harg5 arg6 harg6 arg7 harg7 arg8 harg8 hc0 hc1 x0 x1 xs0 = k0_pay1 (k0_pay11 x0 x1) xs0 := by
  unfold sout0_B_0
  rw [View.read_writes_eq_canon _ _ _ (scover0_B_0 c i arg2 harg2 arg3 harg3 arg4 harg4 arg5 harg5 arg6 harg6 arg7 harg7 arg8 harg8 hc0 hc1 x0 x1 xs0)]
  unfold kernelRun0_B
  dsimp only
  sl_unfold_words
  rw [View.canon_unit_zero (S := S1x1) hz2]
  simp only [View.readAt_eq_ld, harg2.read_unread, harg3.read_unread, harg8.read_unread, View.ld_unit_zero (S := S1x4096x128) hz3, View.ld_unit_zero (S := S1x1) hz2]

theorem sout_C_0 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i) (x0 : Vec F S1x4096x128 .f32) (x1 : Vec F S1x4096x128 .i32) (xs0 : Vec F S1x1 .f32) :
    sout0_C_0 c i arg2 harg2 arg3 harg3 arg4 harg4 arg5 harg5 arg6 harg6 arg7 harg7 arg8 harg8 hc0 hc1 x0 x1 xs0 = k0_pay1 (k0_pay11 x0 x1) xs0 := by
  unfold sout0_C_0
  rw [View.read_writes_eq_canon _ _ _ (scover0_C_0 c i arg2 harg2 arg3 harg3 arg4 harg4 arg5 harg5 arg6 harg6 arg7 harg7 arg8 harg8 hc0 hc1 x0 x1 xs0)]
  unfold kernelRun0_C
  dsimp only
  sl_unfold_words
  rw [View.canon_unit_zero (S := S1x1) hz2]
  simp only [View.readAt_eq_ld, harg2.read_unread, harg3.read_unread, harg8.read_unread, View.ld_unit_zero (S := S1x4096x128) hz3, View.ld_unit_zero (S := S1x1) hz2]

/-- The point that closes a row stores the running sum, this block's included, as the row's result. -/
theorem out_C_5 (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i) (x0 : Vec F S1x4096x128 .f32) (x1 : Vec F S1x4096x128 .i32) (xs0 : Vec F S1x1 .f32) :
    out0_C_5 c i arg2 harg2 arg3 harg3 arg4 harg4 arg5 harg5 arg6 harg6 arg7 harg7 arg8 harg8 hc0 hc1 x0 x1 xs0 = k0_pay2 (k0_pay1 (k0_pay11 x0 x1) xs0) := by
  unfold out0_C_5
  rw [View.read_writes_eq_canon _ _ _ (cover0_C_5 c i arg2 harg2 arg3 harg3 arg4 harg4 arg5 harg5 arg6 harg6 arg7 harg7 arg8 harg8 hc0 hc1 x0 x1 xs0)]
  unfold kernelRun0_C
  dsimp only
  sl_unfold_words
  rw [View.canon_unit_zero (S := S1x1x1) hz3, View.readCov_unit_zero (S := S1x1) _ hz2]
  simp only [View.readAt_eq_ld, harg2.read_unread, harg3.read_unread, harg8.read_unread, View.ld_unit_zero (S := S1x4096x128) hz3, View.ld_unit_zero (S := S1x1) hz2]

end Pieces

/-! ## The payloads at the exact reals

A block's contribution is the sum over its 4096 × 128 entries of the label-0 indicator times log (1 − p + ε): the lane sum
of each row, then the sum of the rows, added to the value carried in. -/

section AtIdeal

theorem shapeCast_at {s t : Shape} {α : Type} (x : s.Idx → α) (h : s.ShapeCasts t) (j : t.Idx) :
    shapeCast t x h j = x (Shape.reshapeEquiv h j) := rfl

/-- The block's summand, entry by entry. -/
abbrev blkG (x0 : FVec Ideal S1x4096x128 .f32) (x1 : IVec S1x4096x128 32) : FVec Ideal S1x4096x128 .f32 :=
  mulf (negG (F := Ideal) S1x4096x128 x1) (lognG S1x4096x128 x0)

/-- One block's sum. -/
def blockSum (x0 : FVec Ideal S1x4096x128 .f32) (x1 : IVec S1x4096x128 32) : EReal :=
  ∑ r : Fin 4096, ∑ l : Fin 128, blkG x0 x1 (ix3 (0 : Fin 1) r l)

/-- A row's lane sum. -/
theorem pay11_at (x0 : FVec Ideal S1x4096x128 .f32) (x1 : IVec S1x4096x128 32) (r : Fin 4096) :
    k0_pay11 (F := Ideal) x0 x1 (ix1 r) = ∑ l : Fin 128, blkG x0 x1 (ix3 (0 : Fin 1) r l) := by
  have e : k0_pay11 (F := Ideal) x0 x1 = multiReduction .add [1] S4096 (shapeCast S4096x128 (blkG x0 x1) shapeCasts_S1x4096x128_S4096x128) 0x00000000#32 reduces_S4096x128_S4096 (.inl rfl) rfl := rfl
  rw [e]
  refine (Ideal.multiReduction_add_single _ _ _ _ _ _).trans ?_
  refine Finset.sum_congr rfl fun l _ => ?_
  have hl : (reduces_S4096x128_S4096).lift (ix1 r) l = ix2 r l := by
    funext d
    match d with
    | ⟨0, _⟩ => rfl
    | ⟨1, _⟩ => rfl
  rw [hl]
  exact shapeCast_1ab_ab_apply (blkG x0 x1) _ r l

/-- The rows' sums added to the carried value, at the one entry. -/
theorem pay1_at (v31 : FVec Ideal S4096 .f32) (v35 : FVec Ideal S1x1 .f32) (j : S1x1.Idx) :
    (k0_pay1 (F := Ideal) v31 v35 j : EReal) = v35 j + ∑ r : Fin 4096, v31 (ix1 r) := by
  have e : k0_pay1 (F := Ideal) v31 v35 = shapeCast S1x1 (addf v35 (shapeCast S1x1 (multiReduction .add [0] S1 (shapeCast S4096x1 v31 shapeCasts_S4096_S4096x1) 0x00000000#32 reduces_S4096x1_S1 (.inl rfl) rfl) shapeCasts_S1_S1x1)) shapeCasts_S1x1_S1x1 := rfl
  rw [e, shapeCast_self, addf_apply, shapeCast_at]
  congr 1
  refine (Ideal.multiReduction_add_total _ _ _ (fun b => by fin_cases b; rfl) _ _ _).trans ?_
  refine (Equiv.sum_comp (Shape.reshapeEquiv _) v31).trans ?_
  exact (Equiv.sum_comp (idxEquiv1 (n := 4096)).symm v31).symm

/-- The reset value is zero. -/
theorem pay3_at (j : S1x1.Idx) : (k0_pay3 (F := Ideal) j : EReal) = 0 := by
  show Ideal.ofBits .f32 0x00000000#32 = 0
  exact Ideal.ofBits_zero_f32

/-- The per-row result's one entry is the running sum's. -/
theorem pay2_at (v : FVec Ideal S1x1 .f32) (y : S1x1x1.Idx) : ∃ j : S1x1.Idx, k0_pay2 (F := Ideal) v y = v j :=
  ⟨Shape.reshapeEquiv _ y, rfl⟩

/-- So a point adds its block's sum to the carried value. -/
theorem step_at (x0 : FVec Ideal S1x4096x128 .f32) (x1 : IVec S1x4096x128 32) (xs : FVec Ideal S1x1 .f32) (j : S1x1.Idx) :
    (k0_pay1 (F := Ideal) (k0_pay11 x0 x1) xs j : EReal) = xs j + blockSum x0 x1 := by
  rw [pay1_at]
  congr 1
  exact Finset.sum_congr rfl fun r _ => pay11_at x0 x1 r

/-! ## The running sum after each point -/

variable (m : (ℓ : Loc nD τ sig) → Buf (Elt Ideal) ℓ)

/-- The sum of the block of point `t`. -/
def Bt (c : Dev nD) (t : Fin cfg0.N) : EReal := blockSum (iblk m c 0 t) (iblk m c 1 t)

/-- The same by position, zero past the grid. -/
def Bn (c : Dev nD) (n : ℕ) : EReal := if h : n < cfg0.N then Bt m c ⟨n, h⟩ else 0

theorem Bn_of_lt (c : Dev nD) (t : Fin cfg0.N) : Bn m c t.val = Bt m c t := by
  unfold Bn; rw [dif_pos t.isLt]

/-- A point that opens a row leaves its block's sum. -/
theorem runA (c : Dev nD) (t : Fin cfg0.N) (h0 : t.val % 8 = 0) (h1 : ¬t.val % 8 = 7) (j : S1x1.Idx) :
    ((outsAt0 m c t.val t.isLt).2.2.2.2 j : EReal) = Bt m c t := by
  rw [outsAt0_A m c t h0 h1]; unfold tupA; dsimp only
  rw [sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t)]
  rw [step_at (iblk m c 0 t) (iblk m c 1 t) k0_pay3 j, pay3_at, zero_add]
  rfl

/-- A point inside a row adds its block's sum to what the point before left. -/
theorem runB (c : Dev nD) (t : Fin cfg0.N) (h0 : ¬t.val % 8 = 0) (h1 : ¬t.val % 8 = 7) (j : S1x1.Idx) :
    ((outsAt0 m c t.val t.isLt).2.2.2.2 j : EReal) = ((outsAt0 m c (t.val - 1) (Nat.lt_of_le_of_lt (Nat.sub_le _ _) t.isLt)).2.2.2.2 j : EReal) + Bt m c t := by
  rw [outsAt0_B m c t h0 h1]; unfold tupB; dsimp only
  rw [sout_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.2]
  rw [step_at (iblk m c 0 t) (iblk m c 1 t) (outsAt0 m c (t.val - 1) (Nat.lt_of_le_of_lt (Nat.sub_le _ _) t.isLt)).2.2.2.2 j]
  rfl

/-- So does the point that closes a row. -/
theorem runC (c : Dev nD) (t : Fin cfg0.N) (h0 : ¬t.val % 8 = 0) (h1 : t.val % 8 = 7) (j : S1x1.Idx) :
    ((outsAt0 m c t.val t.isLt).2.2.2.2 j : EReal) = ((outsAt0 m c (t.val - 1) (Nat.lt_of_le_of_lt (Nat.sub_le _ _) t.isLt)).2.2.2.2 j : EReal) + Bt m c t := by
  rw [outsAt0_C m c t h0 h1]; unfold tupC; dsimp only
  rw [sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.2]
  rw [step_at (iblk m c 0 t) (iblk m c 1 t) (outsAt0 m c (t.val - 1) (Nat.lt_of_le_of_lt (Nat.sub_le _ _) t.isLt)).2.2.2.2 j]
  rfl

/-- After the point at position `n` the running sum's entry is the sum of the blocks of its row up to `n`. -/
theorem run_eq (c : Dev nD) : ∀ (n : ℕ) (h : n < cfg0.N) (j : S1x1.Idx),
    ((outsAt0 m c n h).2.2.2.2 j : EReal) = ∑ b ∈ Finset.range (n % 8 + 1), Bn m c (8 * (n / 8) + b) := by
  intro n
  induction n with
  | zero =>
    intro h j
    refine (runA m c ⟨0, h⟩ rfl (by show ¬(0 : ℕ) % 8 = 7; decide) j).trans ?_
    rw [Finset.sum_range_one]
    exact (Bn_of_lt m c ⟨0, h⟩).symm
  | succ n ih =>
    intro h j
    by_cases h0 : (n + 1) % 8 = 0
    · refine (runA m c ⟨n + 1, h⟩ h0 (by show ¬(n + 1) % 8 = 7; omega) j).trans ?_
      rw [h0, Finset.sum_range_one, show 8 * ((n + 1) / 8) + 0 = n + 1 from by omega]
      exact (Bn_of_lt m c ⟨n + 1, h⟩).symm
    · have step : ((outsAt0 m c (n + 1) h).2.2.2.2 j : EReal)
          = ((outsAt0 m c n (Nat.lt_of_succ_lt h)).2.2.2.2 j : EReal) + Bt m c ⟨n + 1, h⟩ := by
        by_cases h1 : (n + 1) % 8 = 7
        · exact runC m c ⟨n + 1, h⟩ h0 h1 j
        · exact runB m c ⟨n + 1, h⟩ h0 h1 j
      rw [step, ih (Nat.lt_of_succ_lt h) j, show (n + 1) % 8 + 1 = (n % 8 + 1) + 1 from by omega,
        show (n + 1) / 8 = n / 8 from by omega, Finset.sum_range_succ (fun b => Bn m c (8 * (n / 8) + b)) (n % 8 + 1),
        show 8 * (n / 8) + (n % 8 + 1) = n + 1 from by omega]
      congr 1
      exact (Bn_of_lt m c ⟨n + 1, h⟩).symm

/-! ## The per-row result array -/

/-- Row `q`'s result: the sum of its eight blocks. -/
def G5 (c : Dev nD) : S2x1x1.Idx → EReal := fun j => ∑ b ∈ Finset.range 8, Bn m c (8 * (j 0).val + b)

/-- Window 5's block at point `t` is the one entry of row `t / 8`. -/
theorem idx5_facts : ∀ t : Fin cfg0.N,
    win0_5.index t (0 : Fin 3) = t.val / 8 ∧ win0_5.index t (1 : Fin 3) = 0 ∧ win0_5.index t (2 : Fin 3) = 0 :=
  (by decide +kernel : ∀ t : Fin grid0.N, _)

/-- What the point that closes a row writes back is that row's entry of the result. -/
theorem flushed5_eq (c : Dev nD) (t : Fin cfg0.N) (hf : (cfg0.win 5).flush t = true) :
    (dats m 0 c).flushed 5 t = ((cfg0.win 5).blk t).view.read (Elt Ideal) (G5 m c) := by
  have h7 : t.val % 8 = 7 := (flush0_5 t).mp hf
  have h0 : ¬t.val % 8 = 0 := by omega
  obtain ⟨a0, a1, a2⟩ := idx5_facts t
  show (cfg0.win 5).cut (grid0.coords t) ((dats m 0 c).after 5 t) = _
  rw [after0_5, outsAt0_C m c t h0 h7]; unfold tupC; dsimp only
  rw [out_C_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h7) (iblk m c 0 t) (iblk m c 1 t) (outsAt0 m c (t.val - 1) (Nat.lt_of_le_of_lt (Nat.sub_le _ _) t.isLt)).2.2.2.2]
  funext y
  show (k0_pay2 (F := Ideal) (k0_pay1 (k0_pay11 (iblk m c 0 t) (iblk m c 1 t)) (outsAt0 m c (t.val - 1) (Nat.lt_of_le_of_lt (Nat.sub_le _ _) t.isLt)).2.2.2.2) y : EReal)
    = ∑ b ∈ Finset.range 8, Bn m c (8 * ((((cfg0.win 5).blk t).view.emb y) 0).val + b)
  have he : ((((cfg0.win 5).blk t).view.emb y) 0).val = t.val / 8 := by
    show win0_5.index t (0 : Fin 3) * 1 + 1 * (y 0).val = t.val / 8
    have hy : (y 0).val < 1 := (y 0).isLt
    omega
  obtain ⟨j, hj⟩ := pay2_at (k0_pay1 (F := Ideal) (k0_pay11 (iblk m c 0 t) (iblk m c 1 t)) (outsAt0 m c (t.val - 1) (Nat.lt_of_le_of_lt (Nat.sub_le _ _) t.isLt)).2.2.2.2) y
  rw [he, hj, step_at (iblk m c 0 t) (iblk m c 1 t) (outsAt0 m c (t.val - 1) (Nat.lt_of_le_of_lt (Nat.sub_le _ _) t.isLt)).2.2.2.2 j,
    run_eq m c (t.val - 1) (Nat.lt_of_le_of_lt (Nat.sub_le _ _) t.isLt) j,
    show (t.val - 1) % 8 + 1 = 7 from by omega, show (t.val - 1) / 8 = t.val / 8 from by omega,
    Finset.sum_range_succ (fun b => Bn m c (8 * (t.val / 8) + b)) 7, show 8 * (t.val / 8) + 7 = t.val from by omega]
  congr 1
  exact (Bn_of_lt m c t).symm

/-- An index of the result is in point `t`'s block iff each coordinate is in the block's range on its axis. -/
theorem mem_blk5 (t : Fin cfg0.N) (i : S2x1x1.Idx) :
    i ∈ ((cfg0.win 5).blk t).view.set ↔ ∀ a : Fin 3, win0_5.index t a * S1x1x1.size a ≤ (i a).val ∧ (i a).val < win0_5.index t a * S1x1x1.size a + S1x1x1.size a := by
  show i ∈ ((View.whole main_v2_3).slice (win0_5.rect t)).set ↔ _
  rw [View.set_slice_whole, Rect.mem_set_unit]
  exact Iff.rfl

/-- Every row's entry is written back by the point that closes the row. -/
theorem cover5 (i : S2x1x1.Idx) : ∃ t : Fin cfg0.N, (cfg0.win 5).flush t = true ∧ i ∈ ((cfg0.win 5).blk t).view.set := by
  have hi0 : (i 0).val < 2 := (i 0).isLt
  have hi1 : (i 1).val < 1 := (i 1).isLt
  have hi2 : (i 2).val < 1 := (i 2).isLt
  have hN : cfg0.N = 16 := N_0
  obtain ⟨t, ht⟩ : ∃ t : Fin cfg0.N, t.val = 8 * (i 0).val + 7 := ⟨⟨8 * (i 0).val + 7, by omega⟩, rfl⟩
  obtain ⟨a0, a1, a2⟩ := idx5_facts t
  refine ⟨t, (flush0_5 t).mpr (by omega), ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 1 ≤ (i 2).val ∧ (i 2).val < win0_5.index t (2 : Fin 3) * 1 + 1; omega

theorem arr5_eq (c : Dev nD) : (dats m 0 c).arrAt 5 cfg0.N = G5 m c :=
  (dats m 0 c).arrAt_eq_of_cover 5 (G5 m c) (flushed5_eq m c) cover5

/-! ## The row's eight blocks are the row -/

/-- The summand is computed entry by entry, so it commutes with any re-indexing of the two arrays. -/
theorem blkG_comp {F : FTy → Type} [FloatOps F] {S T : Shape} (L : IVec S 32) (P : FVec F S .f32) (g : T.Idx → S.Idx) (j : T.Idx) :
    mulf (negG T (fun j => L (g j))) (lognG T (fun j => P (g j))) j = mulf (negG S L) (lognG S P) (g j) := rfl

/-- The labels' block at point `t`, entry by entry, is the labels' array at that entry's place in it. -/
theorem iblk1_fun {F : FTy → Type} [FloatOps F] (m : (ℓ : Loc nD τ sig) → Buf (Elt F) ℓ) (c : Dev nD) (t : Fin cfg0.N) :
    (iblk m c 1 t : Vec F S1x4096x128 .i32) = fun j => V m c main_v1 (embT t j) := by
  funext j
  show V m c main_v1 (((cfg0.win 1).blk t).view.emb j) = V m c main_v1 (embT t j)
  rw [emb_1]

/-- The same for the probabilities' block. -/
theorem iblk0_fun {F : FTy → Type} [FloatOps F] (m : (ℓ : Loc nD τ sig) → Buf (Elt F) ℓ) (c : Dev nD) (t : Fin cfg0.N) :
    (iblk m c 0 t : Vec F S1x4096x128 .f32) = fun j => V m c main_v0 (embT t j) := by
  funext j
  show V m c main_v0 (((cfg0.win 0).blk t).view.emb j) = V m c main_v0 (embT t j)
  rw [emb_0]

/-- An entry of a block's summand is the whole arrays' summand at that entry's place in the arrays, for any float values. -/
theorem blkG_at {F : FTy → Type} [FloatOps F] (m : (ℓ : Loc nD τ sig) → Buf (Elt F) ℓ) (c : Dev nD) (t : Fin cfg0.N) (j : S1x4096x128.Idx) :
    mulf (negG S1x4096x128 (iblk m c 1 t)) (lognG S1x4096x128 (iblk m c 0 t)) j
      = mulf (negf3 (V m c main_v1)) (logn3 (V m c main_v0)) (embT t j) := by
  rw [iblk1_fun, iblk0_fun]
  exact blkG_comp (S := S2x32768x128) (T := S1x4096x128) (V m c main_v1) (V m c main_v0) (embT t) j

/-- A block's sum over the whole arrays' entries. -/
theorem Bt_eq (c : Dev nD) (t : Fin cfg0.N) :
    Bt m c t = ∑ r : Fin 4096, ∑ l : Fin 128,
      (mulf (negf3 (F := Ideal) (V m c main_v1)) (logn3 (V m c main_v0))) (embT t (ix3 (0 : Fin 1) r l)) := by
  unfold Bt blockSum
  exact Finset.sum_congr rfl fun r _ => Finset.sum_congr rfl fun l _ => blkG_at (F := Ideal) m c t (ix3 (0 : Fin 1) r l)

/-- The per-core sum: each row of the result is the sum over that plane of the arrays. -/
theorem final5 (c : Dev nD) (j : S2x1x1.Idx) :
    (dats (F := Ideal) m 0 c).arrAt 5 cfg0.N j = ∑ k ∈ Finset.univ.filter (fun k : S2x32768x128.Idx => (k 0).val = (j 0).val), (mulf (negf3 (F := Ideal) (V m c main_v1)) (logn3 (V m c main_v0))) k := by
  have hj : (j 0).val < 2 := (j 0).isLt
  have hN : cfg0.N = 16 := N_0
  rw [arr5_eq m c]
  refine Eq.trans ?_ (Cert.Bridge.sum_core_blocks (mulf (negf3 (F := Ideal) (V m c main_v1)) (logn3 (V m c main_v0))) (j 0))
  show ∑ b ∈ Finset.range 8, Bn m c (8 * (j 0).val + b) = _
  rw [← Fin.sum_univ_eq_sum_range (fun b => Bn m c (8 * (j 0).val + b)) 8]
  refine Finset.sum_congr rfl fun i _ => ?_
  have hi : i.val < 8 := i.isLt
  have ht : 8 * (j 0).val + i.val < cfg0.N := by omega
  refine (Bn_of_lt m c ⟨8 * (j 0).val + i.val, ht⟩).trans ?_
  rw [Bt_eq]
  refine Finset.sum_congr rfl fun r _ => Finset.sum_congr rfl fun l _ => ?_
  congr 1
  have hr : r.val < 4096 := r.isLt
  funext a; apply Fin.ext
  match a with
  | ⟨0, _⟩ => show (8 * (j 0).val + i.val) / 8 = (j 0).val; omega
  | ⟨1, _⟩ => show (8 * (j 0).val + i.val) % 8 * 4096 + r.val = i.val * 4096 + r.val; omega
  | ⟨2, _⟩ => rfl

end AtIdeal

end Cert.KernelIdeal.Frm

end
-- ==== Proof.RefValue.lean ====
/-
  The reference's result as the common loss function at the reference's own four quantities.

  The reference computes, from the probabilities x0, the labels x1 and the bag ids x2:
    negSumR  = Σ_r [x1 r = 0] · log (1 − x0 r + ε)                       (one sum over all rows)
    negCntR b = Σ_{r : x2 r = b} [x1 r = 0]                              (a segment sum)
    posCntR b = Σ_{r : x2 r = b} [x1 r = 1]                              (a segment sum)
    posSegR b = Σ_{r : x2 r = b} [x1 r = 1] · log (1 − x0 r + ε)         (a segment sum)
  and then exactly the chain of `Cert.Loss.lossOf`. The four are taken as the reference's stages compute them,
  unopened; the equality of the result with `lossOf` at them is the unfolding of the later stages.
-/
import proofs.«119481_j45681272160447_1_alg».proof.Proof.RefRun
import proofs.«119481_j45681272160447_1_alg».proof.Proof.RefRead
import proofs.«119481_j45681272160447_1_alg».proof.Proof.Loss

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The sum over all rows of `[label = 0] · log (1 − p + ε)`. -/
def negSumR (x0 : FVec F S8388608 .f32) (x1 : IVec S8388608 32) : FVec F Cert.Loss.S_ .f32 :=
  ReadP.val_main_v19 (F := F) x0 x1

/-- Per bag, how many of its rows have label 0. -/
def negCntR (x1 x2 : IVec S8388608 32) : FVec F Cert.Loss.S65536 .f32 :=
  ReadP.val_main_v13 (F := F) x1 x2

/-- Per bag, how many of its rows have label 1. -/
def posCntR (x1 x2 : IVec S8388608 32) : FVec F Cert.Loss.S65536 .f32 :=
  ReadP.val_main_v28 (F := F) x1 x2

/-- Per bag, the sum over its rows of `[label = 1] · log (1 − p + ε)`. -/
def posSegR (x0 : FVec F S8388608 .f32) (x1 x2 : IVec S8388608 32) : FVec F Cert.Loss.S65536 .f32 :=
  ReadP.val_main_v36 (F := F) x0 x1 x2

/-- The later stages of the reference are the loss function at the four quantities. -/
theorem val_loss (x0 : FVec F S8388608 .f32) (x1 x2 : IVec S8388608 32) :
    ReadP.val_main_v53 (F := F) x0 x1 x2
      = Cert.Loss.lossOf (F := F) bcast_S_S65536 reducesTo_S65536_S_d0 h_S_
          (negSumR (F := F) x0 x1) (negCntR (F := F) x1 x2) (posCntR (F := F) x1 x2) (posSegR (F := F) x0 x1 x2) := by
  unfold ReadP.val_main_v53 ReadP.val_main_v25 ReadP.val_main_v52 ReadP.val_main_v20 ReadP.val_main_v24
    ReadP.val_main_v22 ReadP.val_main_v21 ReadP.val_main_v23 ReadP.val_main_v17 ReadP.val_main_v16 ReadP.val_main_v15
    ReadP.val_main_v14 ReadP.val_main_call0_v0 ReadP.val_main_v46 ReadP.val_main_v51 ReadP.val_main_v49
    ReadP.val_main_v48 ReadP.val_main_v47 ReadP.val_main_v45 ReadP.val_main_v44 ReadP.val_main_v43 ReadP.val_main_v41
    ReadP.val_main_v39 ReadP.val_main_v37 ReadP.val_main_v50 ReadP.val_main_v32 ReadP.val_main_v31 ReadP.val_main_v30
    ReadP.val_main_v29 ReadP.val_main_v38 ReadP.val_main_v40 ReadP.val_main_v42 ReadP.val_main_call1_v1
    ReadP.val_main_call1_v0 ReadP.val_main_call2_v0
    ReadP.val_main_cst_3 ReadP.val_main_cst_4 ReadP.val_main_cst_6 ReadP.val_main_cst_7 ReadP.val_main_cst_8
    ReadP.val_main_cst_9 ReadP.val_main_cst_11 ReadP.val_main_cst_12 ReadP.val_main_cst_14 ReadP.val_main_cst_15
    ReadP.val_main_cst_16 ReadP.val_main_cst_17 ReadP.val_main_cst_18 ReadP.val_main_cst_19 ReadP.val_main_cst_20
    ReadP.val_main_cst_21 ReadP.val_main_cst_22
  unfold Cert.Loss.lossOf Cert.Loss.meanOf Cert.Loss.numOf Cert.Loss.perBagOf negSumR negCntR posCntR posSegR
  rfl

/-- The reference's result is the loss function at the reference's four quantities of the argument arrays. -/
theorem ref_loss (m : (ℓ : Loc nD τ sig) → Buf (Elt F) ℓ) (c : Dev nD) :
    Cert.ReferenceIdeal.ValueP.res_main_v53 (F := F) m c
      = Cert.Loss.lossOf (F := F) bcast_S_S65536 reducesTo_S65536_S_d0 h_S_
          (negSumR (F := F) (m ((c.tc : Thread nD τ).loc main_arg0)) (m ((c.tc : Thread nD τ).loc main_arg1)))
          (negCntR (F := F) (m ((c.tc : Thread nD τ).loc main_arg1)) (m ((c.tc : Thread nD τ).loc main_arg2)))
          (posCntR (F := F) (m ((c.tc : Thread nD τ).loc main_arg1)) (m ((c.tc : Thread nD τ).loc main_arg2)))
          (posSegR (F := F) (m ((c.tc : Thread nD τ).loc main_arg0)) (m ((c.tc : Thread nD τ).loc main_arg1))
            (m ((c.tc : Thread nD τ).loc main_arg2))) :=
  (ReadP.val_main_v53_eq (F := F) m c).trans
    (val_loss (F := F) (m ((c.tc : Thread nD τ).loc main_arg0)) (m ((c.tc : Thread nD τ).loc main_arg1))
      (m ((c.tc : Thread nD τ).loc main_arg2)))

/-- The reference's run, its result stated as the loss function at the reference's four quantities: every weakly
    fair execution terminates with the result there and the three arguments unchanged. -/
theorem run_loss (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53)
          = Cert.Loss.lossOf (F := F) bcast_S_S65536 reducesTo_S65536_S_d0 h_S_
              (negSumR (F := F) (m ((c.tc : Thread nD τ).loc main_arg0)) (m ((c.tc : Thread nD τ).loc main_arg1)))
              (negCntR (F := F) (m ((c.tc : Thread nD τ).loc main_arg1)) (m ((c.tc : Thread nD τ).loc main_arg2)))
              (posCntR (F := F) (m ((c.tc : Thread nD τ).loc main_arg1)) (m ((c.tc : Thread nD τ).loc main_arg2)))
              (posSegR (F := F) (m ((c.tc : Thread nD τ).loc main_arg0)) (m ((c.tc : Thread nD τ).loc main_arg1))
                (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (ref_loss (F := F) m c), (h c).2⟩)
    (Cert.ReferenceIdeal.ValueP.run (F := F) m ρ)

end Cert.ReferenceIdeal.RefValue

end
-- ==== Proof.LibSegSumStack.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

/-! # A stacked segment sum is its columns' segment sums

`jax.ops.segment_sum` of `k` value arrays stacked as columns `[N, 3]`, scattered by ONE index array into `[B, 3]` and
sliced back into columns, against the three separate segment sums `[N] → [B]`: at the exact (extended-real) instance each
entry `(r, k)` of the stacked result is the initial value plus the sum of column `k`'s values over the positions whose
index is `r`, which is entry `r` of column `k`'s own segment sum. An index outside `[0, B)` contributes to neither. -/

namespace Idealize.ShloMosaic.SegSumStack

open Idealize.ShloMosaic Idealize.ShloMosaic.ValueIdx

abbrev SN : Shape := ⟨1, ![8388608]⟩
abbrev SNx1 : Shape := ⟨2, ![8388608, 1]⟩
abbrev SNx3 : Shape := ⟨2, ![8388608, 3]⟩
abbrev SB : Shape := ⟨1, ![65536]⟩
abbrev SBx1 : Shape := ⟨2, ![65536, 1]⟩
abbrev SBx3 : Shape := ⟨2, ![65536, 3]⟩
abbrev S0 : Shape := ⟨0, ![]⟩

/-! ## Where an update lands -/

/-- An update lands at operand index `i` exactly when, on every operand axis, its window's start plus its window
    coordinate is `i`'s coordinate (an update whose window leaves the operand lands nowhere). -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · next h =>
    rw [Option.some.injEq]
    constructor
    · intro e a
      have h1 := congrArg Fin.val (congrFun e a)
      have h2 := h a
      simp only at h1
      omega
    · intro e
      funext a
      apply Fin.ext
      have h1 := e a
      have h2 := h a
      simp only
      omega
  · next h =>
    constructor
    · intro e; cases e
    · intro e
      exact absurd (fun a => by have h1 := e a; have h2 := (i a).isLt; constructor <;> omega) h

/-- The stacked form's dimension numbers: the updates' axis 1 is the window axis, the operand's axis 0 is inserted and
    is the one the scatter indices name, the index vector is the scatter indices' axis 1. -/
abbrev d3 (wf3 : ScatterDims.WF SBx3 SNx1 SNx3 [1] [0] [0] 1) : ScatterDims SBx3 SNx1 SNx3 := ⟨[1], [0], [0], 1, wf3⟩
/-- A single array's dimension numbers: the same with no window axis. -/
abbrev d1 (wf1 : ScatterDims.WF SB SNx1 SN [] [0] [0] 1) : ScatterDims SB SNx1 SN := ⟨[], [0], [0], 1, wf1⟩

section Lands
variable (wf3 : ScatterDims.WF SBx3 SNx1 SNx3 [1] [0] [0] 1) (wf1 : ScatterDims.WF SB SNx1 SN [] [0] [0] 1) {w : Nat}

/-- Stacked form, operand axis 0 (the rows): the window starts at position `n`'s index, read signed. -/
theorem d3_start0 (j : SNx3.Idx) (idx : IVec SNx1 w) :
    (d3 wf3).start j idx 0 = (idx (ix2 (n0 := 8388608) (n1 := 1) (j 0) 0)).toInt := by
  unfold ScatterDims.start
  rw [dif_pos (show (0 : Fin 2) ∈ (d3 wf3).scatterDimsToOperandDims from List.mem_singleton.mpr rfl)]
  congr 2
  funext b; refine Fin.ext ?_
  match b with
  | ⟨0, _⟩ => rfl
  | ⟨1, _⟩ => rfl

/-- Stacked form, operand axis 1 (the columns): the scatter indices do not name it, the window starts at 0. -/
theorem d3_start1 (j : SNx3.Idx) (idx : IVec SNx1 w) : (d3 wf3).start j idx 1 = 0 := by
  unfold ScatterDims.start
  rw [dif_neg (show (1 : Fin 2) ∉ ([0] : List (Fin 2)) by decide)]

/-- Stacked form, operand axis 0: an inserted axis, the window coordinate is 0. -/
theorem d3_window0 (j : SNx3.Idx) : (d3 wf3).window j 0 = 0 := by
  unfold ScatterDims.window
  rw [dif_neg (show (0 : Fin 2) ∉ SBx3.kept [0] by decide)]

/-- Stacked form, operand axis 1: the window coordinate is the update's column. -/
theorem d3_window1 (j : SNx3.Idx) : (d3 wf3).window j 1 = (j 1).val := by
  unfold ScatterDims.window
  rw [dif_pos (show (1 : Fin 2) ∈ SBx3.kept [0] by decide)]
  rfl

/-- Single array, the operand's one axis: the window starts at position `n`'s index, read signed. -/
theorem d1_start0 (n : SN.Idx) (idx : IVec SNx1 w) :
    (d1 wf1).start n idx 0 = (idx (ix2 (n0 := 8388608) (n1 := 1) (n 0) 0)).toInt := by
  unfold ScatterDims.start
  rw [dif_pos (show (0 : Fin 1) ∈ (d1 wf1).scatterDimsToOperandDims from List.mem_singleton.mpr rfl)]
  congr 2
  funext b; refine Fin.ext ?_
  match b with
  | ⟨0, _⟩ => rfl
  | ⟨1, _⟩ => rfl

/-- Single array, the operand's one axis: an inserted axis, the window coordinate is 0. -/
theorem d1_window0 (n : SN.Idx) : (d1 wf1).window n 0 = 0 := by
  unfold ScatterDims.window
  rw [dif_neg (show (0 : Fin 1) ∉ SB.kept [0] by decide)]

end Lands

section LandsIff
variable (wf3 : ScatterDims.WF SBx3 SNx1 SNx3 [1] [0] [0] 1) (wf1 : ScatterDims.WF SB SNx1 SN [] [0] [0] 1) {w : Nat}

/-- In the stacked form the update at `(n, c)` lands at `(r, c')` exactly when position `n`'s index, read signed, is
    `r` and `c = c'`: the row is the index, the column is kept. -/
theorem d3_lands_iff (j : SNx3.Idx) (idx : IVec SNx1 w) (i : SBx3.Idx) :
    (d3 wf3).resultIdx? j idx = some i ↔
      (idx (ix2 (n0 := 8388608) (n1 := 1) (j 0) 0)).toInt = ((i 0).val : Int) ∧ (j 1).val = (i 1).val := by
  rw [resultIdx?_eq_some_iff]
  constructor
  · intro h
    have h0 := h 0
    have h1 := h 1
    rw [d3_start0, d3_window0] at h0
    rw [d3_start1, d3_window1] at h1
    constructor
    · simpa using h0
    · exact_mod_cast (by simpa using h1 : ((j 1).val : Int) = ((i 1).val : Int))
  · rintro ⟨h0, h1⟩ a
    match a with
    | ⟨0, _⟩ =>
      show (d3 wf3).start j idx 0 + ((d3 wf3).window j 0 : Int) = ((i 0).val : Int)
      rw [d3_start0, d3_window0, h0]; simp
    | ⟨1, _⟩ =>
      show (d3 wf3).start j idx 1 + ((d3 wf3).window j 1 : Int) = ((i 1).val : Int)
      rw [d3_start1, d3_window1, h1]; simp

/-- For a single array the update at `n` lands at `r` exactly when position `n`'s index, read signed, is `r`. -/
theorem d1_lands_iff (n : SN.Idx) (idx : IVec SNx1 w) (i : SB.Idx) :
    (d1 wf1).resultIdx? n idx = some i ↔ (idx (ix2 (n0 := 8388608) (n1 := 1) (n 0) 0)).toInt = ((i 0).val : Int) := by
  rw [resultIdx?_eq_some_iff]
  constructor
  · intro h
    have h0 := h 0
    rw [d1_start0, d1_window0] at h0
    simpa using h0
  · intro h0 a
    match a with
    | ⟨0, _⟩ =>
      show (d1 wf1).start n idx 0 + ((d1 wf1).window n 0 : Int) = ((i 0).val : Int)
      rw [d1_start0, d1_window0, h0]; simp

end LandsIff

/-! ## Column `k` of a stacked scatter-add is the scatter-add of column `k` -/

/-- **A stacked accumulating scatter, column by column.** Scatter-adding the `[N, 3]` updates `upd` into the `[B, 3]`
    operand `x` by one index per row, then taking column `k` as a `[B]` array, is scatter-adding column `k` of `upd` into
    column `k` of `x` by the same indices: entry `r` of either is `x (r, k)` plus the sum of `upd (n, k)` over the rows
    `n` whose index, read signed, is `r`. -/
theorem scatter_col (k : Fin 3)
    (wf3 : ScatterDims.WF SBx3 SNx1 SNx3 [1] [0] [0] 1) (wf1 : ScatterDims.WF SB SNx1 SN [] [0] [0] 1)
    (hsl : SBx3.Slices ![0, k.val] SBx1) (hsc : SBx1.ShapeCasts SB)
    (x : FVec Ideal SBx3 .f32) (idx : IVec SNx1 32) (upd : FVec Ideal SNx3 .f32) :
    shapeCast SB (extractStridedSlice SBx1 ![0, k.val] (Host.scatterAdd (F := Ideal) (d3 wf3) x idx upd) hsl) hsc
      = Host.scatterAdd (F := Ideal) (d1 wf1) (fun i => x (ix2 (n0 := 65536) (n1 := 3) (i 0) k)) idx
          (fun n => upd (ix2 (n0 := 8388608) (n1 := 3) (n 0) k)) := by
  funext i
  rw [shapeCast_apply _ hsc i (ix2 (n0 := 65536) (n1 := 1) (i 0) 0) (by
    rw [Shape.rowMajor_val_two, Shape.rowMajor_val_one]
    show (i 0).val * 1 + 0 = (i 0).val
    rw [Nat.mul_one, Nat.add_zero])]
  rw [slice2_axis1_apply (n0 := 65536) (n1 := 3) (m := 1) k.val _ hsl (i 0) 0 k (Nat.add_zero _).symm]
  unfold Host.scatterAdd
  rw [Ideal.hostScatterAdd_def, Ideal.hostScatterAdd_def]
  unfold Ideal.hostScatterAdd
  refine congrArg (fun t => x (ix2 (n0 := 65536) (n1 := 3) (i 0) k) + t) ?_
  refine Finset.sum_nbij' (fun j => ix1 (n := 8388608) (j 0)) (fun n => ix2 (n0 := 8388608) (n1 := 3) (n 0) k) ?_ ?_ ?_ ?_ ?_
  · intro j hj
    rw [Finset.mem_filter] at hj ⊢
    exact ⟨Finset.mem_univ _, (d1_lands_iff wf1 _ idx i).2 ((d3_lands_iff wf3 j idx _).1 hj.2).1⟩
  · intro n hn
    rw [Finset.mem_filter] at hn ⊢
    exact ⟨Finset.mem_univ _, (d3_lands_iff wf3 _ idx _).2 ⟨(d1_lands_iff wf1 n idx i).1 hn.2, rfl⟩⟩
  · intro j hj
    rw [Finset.mem_filter] at hj
    have h1 : j 1 = k := Fin.ext ((d3_lands_iff wf3 j idx _).1 hj.2).2
    have e : ix2 (n0 := 8388608) (n1 := 3) (j 0) k = j := by rw [← h1]; exact (eq_ix2 j).symm
    exact e
  · intro n _
    exact (eq_ix1 n).symm
  · intro j hj
    rw [Finset.mem_filter] at hj
    have h1 : j 1 = k := Fin.ext ((d3_lands_iff wf3 j idx _).1 hj.2).2
    show upd j = upd (ix2 (j 0) k)
    rw [← h1]; exact congrArg upd (eq_ix2 j)

/-! ## The operands read at an index -/

/-- An `[N]` array broadcast along a new trailing unit axis reads, at `(n, 0)`, the array at `n`. -/
theorem bcast_col_apply {α : Type} (hbn : SN.BroadcastsInDim SNx1 (![0] : Fin 1 → Fin SNx1.rank)) (v : SN.Idx → α)
    (n : Fin 8388608) (c : Fin 1) : broadcastInDim SNx1 ![0] hbn v (ix2 n c) = v (ix1 n) :=
  broadcastInDim_apply _ hbn v _ _ (fun a => by
    match a with
    | ⟨0, _⟩ =>
      show n.val = if (8388608 : Nat) = 1 then 0 else n.val
      rw [if_neg (by omega)])

/-- A scalar broadcast to any shape reads the scalar everywhere. -/
theorem bcast_scalar_apply {α : Type} {t : Shape} (dims : Fin S0.rank → Fin t.rank) (h : S0.BroadcastsInDim t dims)
    (z : S0.Idx → α) (j : t.Idx) : broadcastInDim t dims h z j = z ix0 :=
  broadcastInDim_apply dims h z j ix0 (fun a => a.elim0)

/-- Three `[N]` arrays stacked as the columns of an `[N, 3]` array (each broadcast to `[N, 1]`, the three laid side by
    side): entry `(n, k)` is entry `n` of the `k`-th array. -/
theorem stack3_apply {α : Type} (hbn : SN.BroadcastsInDim SNx1 (![0] : Fin 1 → Fin SNx1.rank))
    (hcat : Shape.Concatenates [SNx1, SNx1, SNx1] SNx3 1) (u : Fin 3 → SN.Idx → α) (n : Fin 8388608) (k : Fin 3) :
    concatenate SNx3 1 [⟨SNx1, broadcastInDim SNx1 ![0] hbn (u 0)⟩, ⟨SNx1, broadcastInDim SNx1 ![0] hbn (u 1)⟩, ⟨SNx1, broadcastInDim SNx1 ![0] hbn (u 2)⟩] hcat (ix2 n k) = u k (ix1 n) := by
  match k with
  | ⟨0, _⟩ =>
    refine (concatenate_apply_piece (α := α) (t := SNx3) (1 : Fin 2)
      [⟨SNx1, broadcastInDim SNx1 ![0] hbn (u 0)⟩, ⟨SNx1, broadcastInDim SNx1 ![0] hbn (u 1)⟩, ⟨SNx1, broadcastInDim SNx1 ![0] hbn (u 2)⟩]
      hcat (ix2 (n0 := 8388608) (n1 := 3) n ⟨0, by omega⟩) 0 (by show (0 : Nat) < 3; omega) SNx1 _ rfl rfl 0 rfl
      (ix2 (n0 := 8388608) (n1 := 1) n 0) (fun b hb => ?_) rfl).trans (bcast_col_apply hbn (u 0) n 0)
    match b with
    | ⟨0, _⟩ => rfl
    | ⟨1, _⟩ => exact (hb (Fin.ext rfl)).elim
  | ⟨1, _⟩ =>
    refine (concatenate_apply_piece (α := α) (t := SNx3) (1 : Fin 2)
      [⟨SNx1, broadcastInDim SNx1 ![0] hbn (u 0)⟩, ⟨SNx1, broadcastInDim SNx1 ![0] hbn (u 1)⟩, ⟨SNx1, broadcastInDim SNx1 ![0] hbn (u 2)⟩]
      hcat (ix2 (n0 := 8388608) (n1 := 3) n ⟨1, by omega⟩) 1 (by show (1 : Nat) < 3; omega) SNx1 _ rfl rfl 1 rfl
      (ix2 (n0 := 8388608) (n1 := 1) n 0) (fun b hb => ?_) rfl).trans (bcast_col_apply hbn (u 1) n 0)
    match b with
    | ⟨0, _⟩ => rfl
    | ⟨1, _⟩ => exact (hb (Fin.ext rfl)).elim
  | ⟨2, _⟩ =>
    refine (concatenate_apply_piece (α := α) (t := SNx3) (1 : Fin 2)
      [⟨SNx1, broadcastInDim SNx1 ![0] hbn (u 0)⟩, ⟨SNx1, broadcastInDim SNx1 ![0] hbn (u 1)⟩, ⟨SNx1, broadcastInDim SNx1 ![0] hbn (u 2)⟩]
      hcat (ix2 (n0 := 8388608) (n1 := 3) n ⟨2, by omega⟩) 2 (by show (2 : Nat) < 3; omega) SNx1 _ rfl rfl 2 rfl
      (ix2 (n0 := 8388608) (n1 := 1) n 0) (fun b hb => ?_) rfl).trans (bcast_col_apply hbn (u 2) n 0)
    match b with
    | ⟨0, _⟩ => rfl
    | ⟨1, _⟩ => exact (hb (Fin.ext rfl)).elim

/-! ## The stacked segment sum, column by column -/

/-- **Column `k` of the stacked segment sum is the segment sum of the `k`-th value array**: three value arrays `u 0`,
    `u 1`, `u 2 : [N]` stacked as columns, scatter-added by one index array `idx : [N]` into a `[B, 3]` array filled with
    the scalar `z`, column `k` taken as a `[B]` array — against `u k` scatter-added by `idx` into a `[B]` array filled
    with `z`. Entry `r` of either is `z` plus the sum of `u k n` over the positions `n` whose index, read signed, is `r`;
    a position whose index is outside `[0, B)` contributes to neither. The dimension numbers are the ones `segment_sum`
    prints: for the stacked form update_window_dims = [1], inserted_window_dims = [0], scatter_dims_to_operand_dims = [0],
    index_vector_dim = 1; for a single array the same with no window axis. -/
theorem stacked_col (k : Fin 3)
    (wf3 : ScatterDims.WF SBx3 SNx1 SNx3 [1] [0] [0] 1) (wf1 : ScatterDims.WF SB SNx1 SN [] [0] [0] 1)
    (hb3 : S0.BroadcastsInDim SBx3 (![] : Fin 0 → Fin SBx3.rank)) (hb1 : S0.BroadcastsInDim SB (![] : Fin 0 → Fin SB.rank))
    (hbn : SN.BroadcastsInDim SNx1 (![0] : Fin 1 → Fin SNx1.rank))
    (hcat : Shape.Concatenates [SNx1, SNx1, SNx1] SNx3 1)
    (hsl : SBx3.Slices ![0, k.val] SBx1) (hsc : SBx1.ShapeCasts SB)
    (z : FVec Ideal S0 .f32) (idx : IVec SN 32) (u : Fin 3 → FVec Ideal SN .f32) :
    shapeCast SB (extractStridedSlice SBx1 ![0, k.val]
        (Host.scatterAdd (F := Ideal) (⟨[1], [0], [0], 1, wf3⟩ : ScatterDims SBx3 SNx1 SNx3)
          (broadcastInDim SBx3 ![] hb3 z) (broadcastInDim SNx1 ![0] hbn idx)
          (concatenate SNx3 1 [⟨SNx1, broadcastInDim SNx1 ![0] hbn (u 0)⟩, ⟨SNx1, broadcastInDim SNx1 ![0] hbn (u 1)⟩, ⟨SNx1, broadcastInDim SNx1 ![0] hbn (u 2)⟩] hcat))
        hsl) hsc
      = Host.scatterAdd (F := Ideal) (⟨[], [0], [0], 1, wf1⟩ : ScatterDims SB SNx1 SN)
          (broadcastInDim SB ![] hb1 z) (broadcastInDim SNx1 ![0] hbn idx) (u k) := by
  have hA : (fun i : SB.Idx => broadcastInDim SBx3 ![] hb3 z (ix2 (n0 := 65536) (n1 := 3) (i 0) k))
      = broadcastInDim SB ![] hb1 z := by
    funext i; rw [bcast_scalar_apply, bcast_scalar_apply]
  have hB : (fun n : SN.Idx => concatenate SNx3 1 [⟨SNx1, broadcastInDim SNx1 ![0] hbn (u 0)⟩, ⟨SNx1, broadcastInDim SNx1 ![0] hbn (u 1)⟩, ⟨SNx1, broadcastInDim SNx1 ![0] hbn (u 2)⟩] hcat
      (ix2 (n0 := 8388608) (n1 := 3) (n 0) k)) = u k := by
    funext n; exact (stack3_apply hbn hcat u (n 0) k).trans (congrArg (u k) (eq_ix1 n).symm)
  refine (scatter_col k wf3 wf1 hsl hsc _ _ _).trans ?_
  rw [hA, hB]

/-- Column `0` of the stacked segment sum is the segment sum of the first value array: `stacked_col` at the column `0`,
    the three value arrays named one by one. -/
theorem stacked_col0
    (wf3 : ScatterDims.WF SBx3 SNx1 SNx3 [1] [0] [0] 1) (wf1 : ScatterDims.WF SB SNx1 SN [] [0] [0] 1)
    (hb3 : S0.BroadcastsInDim SBx3 (![] : Fin 0 → Fin SBx3.rank)) (hb1 : S0.BroadcastsInDim SB (![] : Fin 0 → Fin SB.rank))
    (hbn : SN.BroadcastsInDim SNx1 (![0] : Fin 1 → Fin SNx1.rank))
    (hcat : Shape.Concatenates [SNx1, SNx1, SNx1] SNx3 1)
    (hsl : SBx3.Slices ![0, 0] SBx1) (hsc : SBx1.ShapeCasts SB)
    (z : FVec Ideal S0 .f32) (idx : IVec SN 32) (u0 u1 u2 : FVec Ideal SN .f32) :
    shapeCast SB (extractStridedSlice SBx1 ![0, 0]
        (Host.scatterAdd (F := Ideal) (⟨[1], [0], [0], 1, wf3⟩ : ScatterDims SBx3 SNx1 SNx3)
          (broadcastInDim SBx3 ![] hb3 z) (broadcastInDim SNx1 ![0] hbn idx)
          (concatenate SNx3 1 [⟨SNx1, broadcastInDim SNx1 ![0] hbn u0⟩, ⟨SNx1, broadcastInDim SNx1 ![0] hbn u1⟩, ⟨SNx1, broadcastInDim SNx1 ![0] hbn u2⟩] hcat))
        hsl) hsc
      = Host.scatterAdd (F := Ideal) (⟨[], [0], [0], 1, wf1⟩ : ScatterDims SB SNx1 SN)
          (broadcastInDim SB ![] hb1 z) (broadcastInDim SNx1 ![0] hbn idx) u0 :=
  stacked_col 0 wf3 wf1 hb3 hb1 hbn hcat hsl hsc z idx ![u0, u1, u2]

/-- Column `1` of the stacked segment sum is the segment sum of the second value array: `stacked_col` at the column `1`,
    the three value arrays named one by one. -/
theorem stacked_col1
    (wf3 : ScatterDims.WF SBx3 SNx1 SNx3 [1] [0] [0] 1) (wf1 : ScatterDims.WF SB SNx1 SN [] [0] [0] 1)
    (hb3 : S0.BroadcastsInDim SBx3 (![] : Fin 0 → Fin SBx3.rank)) (hb1 : S0.BroadcastsInDim SB (![] : Fin 0 → Fin SB.rank))
    (hbn : SN.BroadcastsInDim SNx1 (![0] : Fin 1 → Fin SNx1.rank))
    (hcat : Shape.Concatenates [SNx1, SNx1, SNx1] SNx3 1)
    (hsl : SBx3.Slices ![0, 1] SBx1) (hsc : SBx1.ShapeCasts SB)
    (z : FVec Ideal S0 .f32) (idx : IVec SN 32) (u0 u1 u2 : FVec Ideal SN .f32) :
    shapeCast SB (extractStridedSlice SBx1 ![0, 1]
        (Host.scatterAdd (F := Ideal) (⟨[1], [0], [0], 1, wf3⟩ : ScatterDims SBx3 SNx1 SNx3)
          (broadcastInDim SBx3 ![] hb3 z) (broadcastInDim SNx1 ![0] hbn idx)
          (concatenate SNx3 1 [⟨SNx1, broadcastInDim SNx1 ![0] hbn u0⟩, ⟨SNx1, broadcastInDim SNx1 ![0] hbn u1⟩, ⟨SNx1, broadcastInDim SNx1 ![0] hbn u2⟩] hcat))
        hsl) hsc
      = Host.scatterAdd (F := Ideal) (⟨[], [0], [0], 1, wf1⟩ : ScatterDims SB SNx1 SN)
          (broadcastInDim SB ![] hb1 z) (broadcastInDim SNx1 ![0] hbn idx) u1 :=
  stacked_col 1 wf3 wf1 hb3 hb1 hbn hcat hsl hsc z idx ![u0, u1, u2]

/-- Column `2` of the stacked segment sum is the segment sum of the third value array: `stacked_col` at the column `2`,
    the three value arrays named one by one. -/
theorem stacked_col2
    (wf3 : ScatterDims.WF SBx3 SNx1 SNx3 [1] [0] [0] 1) (wf1 : ScatterDims.WF SB SNx1 SN [] [0] [0] 1)
    (hb3 : S0.BroadcastsInDim SBx3 (![] : Fin 0 → Fin SBx3.rank)) (hb1 : S0.BroadcastsInDim SB (![] : Fin 0 → Fin SB.rank))
    (hbn : SN.BroadcastsInDim SNx1 (![0] : Fin 1 → Fin SNx1.rank))
    (hcat : Shape.Concatenates [SNx1, SNx1, SNx1] SNx3 1)
    (hsl : SBx3.Slices ![0, 2] SBx1) (hsc : SBx1.ShapeCasts SB)
    (z : FVec Ideal S0 .f32) (idx : IVec SN 32) (u0 u1 u2 : FVec Ideal SN .f32) :
    shapeCast SB (extractStridedSlice SBx1 ![0, 2]
        (Host.scatterAdd (F := Ideal) (⟨[1], [0], [0], 1, wf3⟩ : ScatterDims SBx3 SNx1 SNx3)
          (broadcastInDim SBx3 ![] hb3 z) (broadcastInDim SNx1 ![0] hbn idx)
          (concatenate SNx3 1 [⟨SNx1, broadcastInDim SNx1 ![0] hbn u0⟩, ⟨SNx1, broadcastInDim SNx1 ![0] hbn u1⟩, ⟨SNx1, broadcastInDim SNx1 ![0] hbn u2⟩] hcat))
        hsl) hsc
      = Host.scatterAdd (F := Ideal) (⟨[], [0], [0], 1, wf1⟩ : ScatterDims SB SNx1 SN)
          (broadcastInDim SB ![] hb1 z) (broadcastInDim SNx1 ![0] hbn idx) u2 :=
  stacked_col 2 wf3 wf1 hb3 hb1 hbn hcat hsl hsc z idx ![u0, u1, u2]

end Idealize.ShloMosaic.SegSumStack

end
-- ==== Proof.Reshape.lean ====
import proofs.«119481_j45681272160447_1_alg».proof.Proof.KI.Spec3
import proofs.«119481_j45681272160447_1_alg».proof.Proof.RefRead
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Idealize.ShloMosaic.ValueIdx
open Cert.KernelIdeal (S8388608 S2x32768x128)
open Cert.KernelIdeal.Frm (negf3 posf3 logn3)
open Cert.ReferenceIdeal (ReadP.val_main_v9 ReadP.val_main_v10 ReadP.val_main_v18 ReadP.val_main_v33)
open Cert.ReferenceIdeal.ReadP

variable [Cert.ReferenceIdeal.Facts]

/-! ## The kernel's whole-array functions, read back flat, are the reference's stages

The kernel lays the 8388608 entries out as [2, 32768, 128]; the reference keeps them flat. A shape cast keeps each entry's
row-major position, so casting the flat array, applying an entry-by-entry function, and casting back is that function of the
flat array. At the exact reals the two programs' entry-by-entry functions agree: the indicator of a label is the real 1 or 0
whether the compare bit is widened and read signed or read unsigned as it stands, and the logarithm is one function. -/

/-! ### Shape casts and entry-by-entry functions -/

section Casts
variable {s t : Shape} {α β γ : Type}

/-- An entry-by-entry function of an array cast to another shape, cast back, is that function of the array. -/
theorem cast_map_cast (φ : α → β) (x : s.Idx → α) (h1 : s.ShapeCasts t) (h2 : t.ShapeCasts s) :
    shapeCast s (fun k => φ (shapeCast t x h1 k)) h2 = fun n => φ (x n) := by
  funext n
  exact congrArg φ (congrFun (shapeCast_shapeCast x h1 h2) n)

/-- The same for a function of two arrays' entries. -/
theorem cast_map₂_cast (φ : α → β → γ) (x : s.Idx → α) (y : s.Idx → β) (h1 : s.ShapeCasts t) (h2 : t.ShapeCasts s) :
    shapeCast s (fun k => φ (shapeCast t x h1 k) (shapeCast t y h1 k)) h2 = fun n => φ (x n) (y n) := by
  funext n
  exact congrArg₂ φ (congrFun (shapeCast_shapeCast x h1 h2) n) (congrFun (shapeCast_shapeCast y h1 h2) n)

/-- A cast array summed over its positions is the array summed over its own: the cast matches positions one to one. -/
theorem sum_cast {M : Type} [AddCommMonoid M] (g : s.Idx → M) (h : s.ShapeCasts t) :
    ∑ k : t.Idx, shapeCast t g h k = ∑ n : s.Idx, g n :=
  Equiv.sum_comp (Shape.reshapeEquiv h) g

end Casts

/-! ### One entry, at the exact reals -/

/-- The kernel's indicator of label `c` at one entry: the compare bit widened to a word and read signed. -/
abbrev indK (c b : BitVec 32) : Ideal .f32 := FloatOps.sitofp (F := Ideal) .f32 ((IntOp.cmpi .eq b c).setWidth 32)

/-- The kernel's log (1 − p + ε) at one entry. -/
abbrev lognK (p : Ideal .f32) : Ideal .f32 :=
  FloatOps.log (FloatOps.addf (FloatOps.subf (FloatOps.ofBits .f32 0x3F800000#32) p) (FloatOps.ofBits .f32 0x33D6BF95#32))

/-- One compare bit, widened to a word and read signed, is the real that the bit read unsigned is: 0 or 1 either way. -/
theorem ind_eq (d : BitVec 1) :
    FloatOps.sitofp (F := Ideal) .f32 (d.setWidth 32) = FloatOps.uitofp (F := Ideal) .f32 d := by
  show (((d.setWidth 32).toInt : ℝ) : EReal) = ((d.toNat : ℝ) : EReal)
  have hz : (d.setWidth 32).toInt = (d.toNat : ℤ) := by
    by_cases h : d = 1#1
    · subst h; decide
    · obtain rfl := eq_zero_of_ne_one h; decide
  rw [hz, Int.cast_natCast]

/-- The reference's indicator of label 0 at an entry is the kernel's. -/
theorem v9_at (x1 : IVec S8388608 32) (n : S8388608.Idx) : ReadP.val_main_v9 (F := Ideal) x1 n = indK 0#32 (x1 n) := by
  rw [val_main_v9_apply, val_main_v6_apply, val_main_v5_apply, val_main_c_apply]
  exact (ind_eq _).symm

/-- The reference's indicator of label 1 at an entry is the kernel's. -/
theorem v10_at (x1 : IVec S8388608 32) (n : S8388608.Idx) : ReadP.val_main_v10 (F := Ideal) x1 n = indK 1#32 (x1 n) := by
  rw [val_main_v10_apply, val_main_v8_apply, val_main_v7_apply, val_main_c_1_apply]
  exact (ind_eq _).symm

/-- The reference's log (1 − p + ε) at an entry is the kernel's: the same two constants, the same logarithm. -/
theorem v4_at (x0 : FVec Ideal S8388608 .f32) (n : S8388608.Idx) : val_main_v4 (F := Ideal) x0 n = lognK (x0 n) := by
  rw [val_main_v4_apply, val_main_v3_apply, val_main_v1_apply, val_main_v0_apply, val_main_cst_apply, val_main_v2_apply,
    val_main_cst_0_apply, Ideal.hostUnary_log_def, ← Ideal.log_def]

/-! ### The four stages -/

/-- The indicator of label 0, read back flat, is the reference's. -/
theorem read_negf (h1 : S8388608.ShapeCasts S2x32768x128) (h2 : S2x32768x128.ShapeCasts S8388608) (x1 : IVec S8388608 32) :
    shapeCast S8388608 (negf3 (F := Ideal) (shapeCast S2x32768x128 x1 h1)) h2 = ReadP.val_main_v9 (F := Ideal) x1 := by
  refine (cast_map_cast (indK 0#32) x1 h1 h2).trans ?_
  funext n
  exact (v9_at x1 n).symm

/-- The indicator of label 1, read back flat, is the reference's. -/
theorem read_posf (h1 : S8388608.ShapeCasts S2x32768x128) (h2 : S2x32768x128.ShapeCasts S8388608) (x1 : IVec S8388608 32) :
    shapeCast S8388608 (posf3 (F := Ideal) (shapeCast S2x32768x128 x1 h1)) h2 = ReadP.val_main_v10 (F := Ideal) x1 := by
  refine (cast_map_cast (indK 1#32) x1 h1 h2).trans ?_
  funext n
  exact (v10_at x1 n).symm

/-- The label-1 indicator times log (1 − p + ε), read back flat, is the reference's product. -/
theorem read_poslog (h1 : S8388608.ShapeCasts S2x32768x128) (h2 : S2x32768x128.ShapeCasts S8388608)
    (x0 : FVec Ideal S8388608 .f32) (x1 : IVec S8388608 32) :
    shapeCast S8388608 (mulf (posf3 (F := Ideal) (shapeCast S2x32768x128 x1 h1)) (logn3 (shapeCast S2x32768x128 x0 h1))) h2
      = ReadP.val_main_v33 (F := Ideal) x0 x1 := by
  refine (cast_map₂_cast (fun b p => FloatOps.mulf (indK 1#32 b) (lognK p)) x1 x0 h1 h2).trans ?_
  funext n
  rw [val_main_v33_apply, v10_at, v4_at]

/-- The label-0 indicator times log (1 − p + ε), summed over the whole layout, is the reference's product summed flat. -/
theorem sum_neglog (h1 : S8388608.ShapeCasts S2x32768x128) (h2 : S2x32768x128.ShapeCasts S8388608)
    (x0 : FVec Ideal S8388608 .f32) (x1 : IVec S8388608 32) :
    ∑ k : S2x32768x128.Idx, (mulf (negf3 (F := Ideal) (shapeCast S2x32768x128 x1 h1)) (logn3 (shapeCast S2x32768x128 x0 h1))) k
      = ∑ n : S8388608.Idx, ReadP.val_main_v18 (F := Ideal) x0 x1 n := by
  refine (sum_cast (fun n => FloatOps.mulf (indK 0#32 (x1 n)) (lognK (x0 n))) h1).trans ?_
  refine Finset.sum_congr rfl fun n _ => ?_
  rw [val_main_v18_apply, v9_at, v4_at]

end Cert.Bridge

end
-- ==== Proof.Bridge.lean ====
import proofs.«119481_j45681272160447_1_alg».proof.Proof.LibSegSumStack
import proofs.«119481_j45681272160447_1_alg».proof.Proof.KI.Spec3
import proofs.«119481_j45681272160447_1_alg».proof.Proof.KI.Tail
import proofs.«119481_j45681272160447_1_alg».proof.Proof.RefRead
import proofs.«119481_j45681272160447_1_alg».proof.Proof.RefValue
import proofs.«119481_j45681272160447_1_alg».proof.Proof.Reshape
import Idealize.ShloMosaic.PureOps.Ideal.Laws
import Idealize.ShloMosaic.Lib.ValueIdx
import Idealize.ShloMosaic.Lib.StableHlo.Run

noncomputable section

open scoped BigOperators
/-! # The kernel's and the reference's inputs of the shared loss chain

Four equations at the exact (extended-real) instance between what the kernel's host operations feed the loss chain and
what the reference's feed it: the total of the negative-label log terms, and the three per-bag segment sums. -/

namespace Cert.Bridge

open Idealize.ShloMosaic Idealize.ShloMosaic.ValueIdx

/-- The first coordinate of a `[2, 32768, 128]` index, as the `[2, 1, 1]` index of its core. -/
abbrev core (k : Cert.KernelIdeal.S2x32768x128.Idx) : Cert.KernelIdeal.S2x1x1.Idx :=
  ix3 (n0 := 2) (n1 := 1) (n2 := 1) (k 0) 0 0

/-- **E1 — the total of the negative-label log terms.** The kernel leaves one partial sum per core, `A5 : [2, 1, 1]`, core
    `c`'s being the sum of the products `prod3 : [2, 32768, 128]` over the half `k 0 = c`, and its host sums the two from
    `0`; the reference sums all `8388608` products from `0`. The per-core sums add up to the total (the halves partition
    the index set), and the total of `prod3` is the reference's total (`hR4`: the same numbers under a reshape). -/
theorem E1 (A5 : FVec Ideal Cert.KernelIdeal.S2x1x1 .f32) (prod3 : FVec Ideal Cert.KernelIdeal.S2x32768x128 .f32)
    (x0 : (⟨Cert.ReferenceIdeal.S8388608, .f32⟩ : BufTy).Contents (Elt Ideal))
    (x1 : (⟨Cert.ReferenceIdeal.S8388608, .i32⟩ : BufTy).Contents (Elt Ideal))
    (hA5 : ∀ j, A5 j = ∑ k ∈ Finset.univ.filter (fun k : Cert.KernelIdeal.S2x32768x128.Idx => (k 0).val = (j 0).val), prod3 k)
    (hR4 : ∑ k, prod3 k = ∑ n : Cert.ReferenceIdeal.S8388608.Idx, Cert.ReferenceIdeal.ReadP.val_main_v18 (F := Ideal) x0 x1 n)
    (hred : Cert.KernelIdeal.S2x1x1.ReducesTo [0, 1, 2] Cert.KernelIdeal.S_) (h0 : 0 < Cert.KernelIdeal.S_.numel) :
    Host.reduceAdd (F := Ideal) A5 (constant Cert.KernelIdeal.S_ .f32 0x00000000#32) hred h0
      = Cert.ReferenceIdeal.ReadP.val_main_v19 (F := Ideal) x0 x1 := by
  have hsum : ∑ j : Cert.KernelIdeal.S2x1x1.Idx, A5 j = ∑ k, prod3 k := by
    rw [← Finset.sum_fiberwise Finset.univ core prod3]
    refine Finset.sum_congr rfl (fun j _ => ?_)
    rw [hA5 j]
    refine Finset.sum_congr (Finset.filter_congr (fun k _ => ?_)) (fun _ _ => rfl)
    constructor
    · intro h
      funext a
      match a with
      | ⟨0, _⟩ => exact Fin.ext h
      | ⟨1, h⟩ => exact Fin.ext (by have h1 : (j ⟨1, h⟩).val < 1 := (j ⟨1, h⟩).isLt; show 0 = (j ⟨1, h⟩).val; omega)
      | ⟨2, h⟩ => exact Fin.ext (by have h1 : (j ⟨2, h⟩).val < 1 := (j ⟨2, h⟩).isLt; show 0 = (j ⟨2, h⟩).val; omega)
    · intro h
      exact congrArg Fin.val (congrFun h 0)
  funext i
  rw [Cert.ReferenceIdeal.ReadP.val_main_v19_apply, ← hR4, ← hsum]
  simp only [Host.reduceAdd, Ideal.hostReduceAdd_def]
  exact Ideal.hostReduceAdd_total hred (fun b => b.elim0) A5 _ i

/-! ## The reference's three segment sums, in the library's form -/

section RefSide
open Idealize.ShloMosaic.SegSumStack
variable (wf1 : ScatterDims.WF SB SNx1 SN [] [0] [0] 1)
  (hb1 : S0.BroadcastsInDim SB (![] : Fin 0 → Fin SB.rank)) (hbn : SN.BroadcastsInDim SNx1 (![0] : Fin 1 → Fin SNx1.rank))
  (x0 : (⟨Cert.ReferenceIdeal.S8388608, .f32⟩ : BufTy).Contents (Elt Ideal))
  (x1 x2 : (⟨Cert.ReferenceIdeal.S8388608, .i32⟩ : BufTy).Contents (Elt Ideal))

/-- The reference's count of negative labels per bag: the segment sum of the label-0 indicators by the bag ids from zeros. -/
theorem ref_v13 : Cert.ReferenceIdeal.ReadP.val_main_v13 (F := Ideal) x1 x2
    = Host.scatterAdd (F := Ideal) (⟨[], [0], [0], 1, wf1⟩ : ScatterDims SB SNx1 SN)
        (broadcastInDim SB ![] hb1 (constant S0 .f32 0x00000000#32)) (broadcastInDim SNx1 ![0] hbn x2)
        (Cert.ReferenceIdeal.ReadP.val_main_v9 (F := Ideal) x1) := rfl

/-- The reference's count of positive labels per bag: the segment sum of the label-1 indicators. -/
theorem ref_v28 : Cert.ReferenceIdeal.ReadP.val_main_v28 (F := Ideal) x1 x2
    = Host.scatterAdd (F := Ideal) (⟨[], [0], [0], 1, wf1⟩ : ScatterDims SB SNx1 SN)
        (broadcastInDim SB ![] hb1 (constant S0 .f32 0x00000000#32)) (broadcastInDim SNx1 ![0] hbn x2)
        (Cert.ReferenceIdeal.ReadP.val_main_v10 (F := Ideal) x1) := rfl

/-- The reference's per-bag sum of the positive-label log terms. -/
theorem ref_v36 : Cert.ReferenceIdeal.ReadP.val_main_v36 (F := Ideal) x0 x1 x2
    = Host.scatterAdd (F := Ideal) (⟨[], [0], [0], 1, wf1⟩ : ScatterDims SB SNx1 SN)
        (broadcastInDim SB ![] hb1 (constant S0 .f32 0x00000000#32)) (broadcastInDim SNx1 ![0] hbn x2)
        (Cert.ReferenceIdeal.ReadP.val_main_v33 (F := Ideal) x0 x1) := rfl

end RefSide

/-! ## The kernel's three columns are the reference's three segment sums -/

section Columns
open Cert.KernelIdeal (S8388608 S2x32768x128 S2x1x1 S65536)
open Cert.KernelIdeal.Frm (colK0 colK1 colK2 stackK colOf negSumK tailFn negf3 posf3 logn3)
open Cert.ReferenceIdeal.RefValue (negSumR negCntR posCntR posSegR)

variable (a2 a3 a4 : FVec Ideal S2x32768x128 .f32) (x0 : FVec Ideal S8388608 .f32) (x1 x2 : IVec S8388608 32)

/-- **E2.** Column 0 of the kernel's stacked scatter-add is the reference's first segment sum, when the kernel's first
    array read flat is the reference's label-0 indicator. -/
theorem colK0_eq
    (h : shapeCast S8388608 a2 Cert.KernelIdeal.Gen.shapeCasts_S2x32768x128_S8388608 = Cert.ReferenceIdeal.ReadP.val_main_v9 (F := Ideal) x1) :
    colK0 (F := Ideal) a2 a3 a4 x2 = Cert.ReferenceIdeal.ReadP.val_main_v13 (F := Ideal) x1 x2 := by
  unfold colK0 stackK colOf
  refine (Idealize.ShloMosaic.SegSumStack.stacked_col0 _ Cert.ReferenceIdeal.Gen.scatter_S65536_S8388608x1_S8388608_n_0_0_1_wf
    _ Cert.ReferenceIdeal.Gen.bcast_S_S65536 _ _ _ _ _ _ _ _ _).trans ?_
  rw [h]
  exact (ref_v13 _ _ _ x1 x2).symm

/-- **E3.** Column 1 is the reference's second segment sum, when the second array read flat is the label-1 indicator. -/
theorem colK1_eq
    (h : shapeCast S8388608 a3 Cert.KernelIdeal.Gen.shapeCasts_S2x32768x128_S8388608 = Cert.ReferenceIdeal.ReadP.val_main_v10 (F := Ideal) x1) :
    colK1 (F := Ideal) a2 a3 a4 x2 = Cert.ReferenceIdeal.ReadP.val_main_v28 (F := Ideal) x1 x2 := by
  unfold colK1 stackK colOf
  refine (Idealize.ShloMosaic.SegSumStack.stacked_col1 _ Cert.ReferenceIdeal.Gen.scatter_S65536_S8388608x1_S8388608_n_0_0_1_wf
    _ Cert.ReferenceIdeal.Gen.bcast_S_S65536 _ _ _ _ _ _ _ _ _).trans ?_
  rw [h]
  exact (ref_v28 _ _ _ x1 x2).symm

/-- **E4.** Column 2 is the reference's third segment sum, when the third array read flat is the reference's
    positive-label log term. -/
theorem colK2_eq
    (h : shapeCast S8388608 a4 Cert.KernelIdeal.Gen.shapeCasts_S2x32768x128_S8388608 = Cert.ReferenceIdeal.ReadP.val_main_v33 (F := Ideal) x0 x1) :
    colK2 (F := Ideal) a2 a3 a4 x2 = Cert.ReferenceIdeal.ReadP.val_main_v36 (F := Ideal) x0 x1 x2 := by
  unfold colK2 stackK colOf
  refine (Idealize.ShloMosaic.SegSumStack.stacked_col2 _ Cert.ReferenceIdeal.Gen.scatter_S65536_S8388608x1_S8388608_n_0_0_1_wf
    _ Cert.ReferenceIdeal.Gen.bcast_S_S65536 _ _ _ _ _ _ _ _ _).trans ?_
  rw [h]
  exact (ref_v36 _ _ _ x0 x1 x2).symm

end Columns

/-! ## The kernel's host tail is the reference's loss -/

section Final
open Cert.KernelIdeal Cert.KernelIdeal.Gen Cert.KernelIdeal.Frm
open Idealize.ShloMosaic.TcCoe Idealize.SL.Sem
open Cert.ReferenceIdeal.RefValue (negSumR negCntR posCntR posSegR)

/-- The host tail at the kernel's four outputs — the two label indicators, the positive-label log term and the per-core
    partial sums of the negative-label log term, all of the labels and probabilities laid out as `[2, 32768, 128]` — is the
    loss function at the reference's four quantities of the flat labels, probabilities and bag ids. -/
theorem tail_eq_ref (x0 : FVec Ideal S8388608 .f32) (x1 x2 : IVec S8388608 32)
    (L3 : IVec S2x32768x128 32) (P3 : FVec Ideal S2x32768x128 .f32)
    (hL : L3 = shapeCast S2x32768x128 x1 shapeCasts_S8388608_S2x32768x128)
    (hP : P3 = shapeCast S2x32768x128 x0 shapeCasts_S8388608_S2x32768x128)
    (A5 : FVec Ideal S2x1x1 .f32)
    (hA5 : ∀ j, A5 j = ∑ k ∈ Finset.univ.filter (fun k : S2x32768x128.Idx => (k 0).val = (j 0).val),
      (mulf (negf3 (F := Ideal) L3) (logn3 P3)) k) :
    tailFn (F := Ideal) (negf3 L3) (posf3 L3) (mulf (posf3 L3) (logn3 P3)) A5 x2
      = Cert.Loss.lossOf (F := Ideal) Cert.ReferenceIdeal.Gen.bcast_S_S65536 Cert.ReferenceIdeal.Gen.reducesTo_S65536_S_d0
          Cert.ReferenceIdeal.Gen.h_S_ (negSumR (F := Ideal) x0 x1) (negCntR (F := Ideal) x1 x2) (posCntR (F := Ideal) x1 x2)
          (posSegR (F := Ideal) x0 x1 x2) := by
  subst hL hP
  unfold tailFn
  rw [show negSumK (F := Ideal) A5 = negSumR (F := Ideal) x0 x1 from
      E1 A5 _ x0 x1 hA5 (sum_neglog shapeCasts_S8388608_S2x32768x128 shapeCasts_S2x32768x128_S8388608 x0 x1) _ _,
    colK0_eq _ _ _ x1 x2 (read_negf shapeCasts_S8388608_S2x32768x128 shapeCasts_S2x32768x128_S8388608 x1),
    colK1_eq _ _ _ x1 x2 (read_posf shapeCasts_S8388608_S2x32768x128 shapeCasts_S2x32768x128_S8388608 x1),
    colK2_eq _ _ _ x0 x1 x2 (read_poslog shapeCasts_S8388608_S2x32768x128 shapeCasts_S2x32768x128_S8388608 x0 x1)]
  rfl

variable (m : (ℓ : Loc nD τ sig) → Buf (Elt Ideal) ℓ) (c : Dev nD)

/-- When the region is entered the labels' `[2, 32768, 128]` array is the launched flat labels, reshaped. -/
theorem V_main_v1 : (V m c main_v1 : S2x32768x128.Idx → BitVec 32)
    = shapeCast S2x32768x128 (m ((c : Thread nD τ).loc main_arg1)) shapeCasts_S8388608_S2x32768x128 := by
  show StableHlo.after hostOps0 (fun b => m (c, b)) (Proc.devRef .tc main_v1) = _
  after_results
  rfl

/-- When the region is entered the probabilities' `[2, 32768, 128]` array is the launched flat probabilities, reshaped. -/
theorem V_main_v0 : (V m c main_v0 : S2x32768x128.Idx → Ideal .f32)
    = shapeCast S2x32768x128 (m ((c : Thread nD τ).loc main_arg0)) shapeCasts_S8388608_S2x32768x128 := by
  show StableHlo.after hostOps0 (fun b => m (c, b)) (Proc.devRef .tc main_v0) = _
  after_results
  rfl

/-- **The kernel's result is the reference's loss.** With the region's outputs the whole-array functions of the entry
    contents and `A5` the per-core sums of the negative-label log terms, the kernel's host tail computes the loss function
    at the reference's four quantities of the launched probabilities, labels and bag ids. -/
theorem kernel_eq_ref (A5 : FVec Ideal S2x1x1 .f32)
    (hA5 : ∀ j, A5 j = ∑ k ∈ Finset.univ.filter (fun k : S2x32768x128.Idx => (k 0).val = (j 0).val),
      (mulf (negf3 (F := Ideal) (V m c main_v1)) (logn3 (V m c main_v0))) k) :
    tailFn (F := Ideal) (negf3 (V m c main_v1)) (posf3 (V m c main_v1)) (mulf (posf3 (V m c main_v1)) (logn3 (V m c main_v0))) A5
        (m ((c : Thread nD τ).loc main_arg2))
      = Cert.Loss.lossOf (F := Ideal) Cert.ReferenceIdeal.Gen.bcast_S_S65536 Cert.ReferenceIdeal.Gen.reducesTo_S65536_S_d0
          Cert.ReferenceIdeal.Gen.h_S_
          (negSumR (F := Ideal) (m ((c : Thread nD τ).loc main_arg0)) (m ((c : Thread nD τ).loc main_arg1)))
          (negCntR (F := Ideal) (m ((c : Thread nD τ).loc main_arg1)) (m ((c : Thread nD τ).loc main_arg2)))
          (posCntR (F := Ideal) (m ((c : Thread nD τ).loc main_arg1)) (m ((c : Thread nD τ).loc main_arg2)))
          (posSegR (F := Ideal) (m ((c : Thread nD τ).loc main_arg0)) (m ((c : Thread nD τ).loc main_arg1))
            (m ((c : Thread nD τ).loc main_arg2))) :=
  tail_eq_ref (m ((c : Thread nD τ).loc main_arg0)) (m ((c : Thread nD τ).loc main_arg1)) (m ((c : Thread nD τ).loc main_arg2))
    (V m c main_v1) (V m c main_v0) (V_main_v1 m c) (V_main_v0 m c) A5 hA5

end Final

end Cert.Bridge

end
-- ==== Proof.lean ====
/- The proof of `Cert.Claim`: a multiple-instance-learning loss. The kernel computes, block by block over [2, 32768, 128], the
   indicators of label 0 and of label 1, the indicator of label 1 times log (1 − p + ε), and per core the running sum of the
   indicator of label 0 times log (1 − p + ε); the host then segment-sums the three arrays by bag in ONE scatter of a stacked
   [N, 3] array and finishes the loss. The reference computes the same four quantities on flat arrays with three scatters and
   one flat sum. Over the extended reals the two agree: a stacked segment sum is its columns' segment sums, a sum of per-core,
   per-block, per-row sums is the flat sum, and the closing loss chain is the same function of the four on both sides.
   The three frames: the two kernel programs by the body's triple in each of its three control cases (a row of blocks opens,
   continues, closes), the running sum carried between grid points; the reference by its host run. -/
import proofs.«119481_j45681272160447_1_alg».proof.Defs
import proofs.«119481_j45681272160447_1_alg».proof.Proof.K.Frame
import proofs.«119481_j45681272160447_1_alg».proof.Proof.KI.RunValue
import proofs.«119481_j45681272160447_1_alg».proof.Proof.KI.Value5
import proofs.«119481_j45681272160447_1_alg».proof.Proof.RefValue
import proofs.«119481_j45681272160447_1_alg».proof.Proof.Bridge
import proofs.«119481_j45681272160447_1_alg».proof.Proof.Gen.Kernel
import proofs.«119481_j45681272160447_1_alg».proof.Proof.Gen.KernelIdeal
import proofs.«119481_j45681272160447_1_alg».proof.Proof.Gen.ReferenceIdeal
import proofs.«119481_j45681272160447_1_alg».proof.Proof.Gen.Pre_finite_inputs
import Idealize.ShloMosaic.Adequacy
import Idealize.ShloMosaic.Init

noncomputable section

namespace Cert.Proof

open Idealize.ShloMosaic Idealize.SL.Sem

theorem frame_p : Cert.frame_Kernel (hKernel := Cert.Kernel.Gen.facts) (hPre_finite_inputs := Cert.Pre_finite_inputs.Gen.facts) :=
  fun m ρ _ => Cert.Kernel.Frm.frame m ρ

theorem frame_pi : Cert.frame_KernelIdeal (hKernelIdeal := Cert.KernelIdeal.Gen.facts) (hPre_finite_inputs := Cert.Pre_finite_inputs.Gen.facts) :=
  fun m ρ _ => Cert.KernelIdeal.Frm.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both idealized programs end at the shared loss chain of the reference's four quantities: the reference by its host run,
    the kernel by its frame run, its values and the bridge. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, (θ_run Cert.KernelIdeal.defs _ _).mono (fun _ h c => ⟨(h c).1.trans
      (Cert.Bridge.kernel_eq_ref m c _ (Cert.KernelIdeal.Frm.final5 m c)), (h c).2⟩)
    (Cert.KernelIdeal.Frm.run_value (F := Ideal) m ρ), ?_⟩
  refine (θ_run Cert.ReferenceIdeal.defs _ _).mono (fun _ h c => ⟨(h c).1.trans ?_, (h c).2⟩)
    (Cert.ReferenceIdeal.RefValue.run_loss (F := Ideal) m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
